-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x100000 : Shape := ⟨2, ![1024, 100000]⟩
abbrev S1024x1000 : Shape := ⟨2, ![1024, 1000]⟩
abbrev S100000x64 : Shape := ⟨2, ![100000, 64]⟩
abbrev S64 : Shape := ⟨1, ![64]⟩
abbrev S1000x64 : Shape := ⟨2, ![1000, 64]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S1024x100000 : S_.BroadcastsInDim S1024x100000 (![] : Fin 0 → Fin S1024x100000.rank)
  reducesTo_S1024x100000_S_d0_1 : S1024x100000.ReducesTo [0, 1] S_
  h_S_ : 0 < S_.numel
  bcast_S_S1024x1000 : S_.BroadcastsInDim S1024x1000 (![] : Fin 0 → Fin S1024x1000.rank)
  reducesTo_S1024x1000_S_d0_1 : S1024x1000.ReducesTo [0, 1] S_
  bcast_S_S100000x64 : S_.BroadcastsInDim S100000x64 (![] : Fin 0 → Fin S100000x64.rank)
  reducesTo_S100000x64_S_d0_1 : S100000x64.ReducesTo [0, 1] S_
  bcast_S_S64 : S_.BroadcastsInDim S64 (![] : Fin 0 → Fin S64.rank)
  reducesTo_S64_S_d0 : S64.ReducesTo [0] S_
  bcast_S_S1000x64 : S_.BroadcastsInDim S1000x64 (![] : Fin 0 → Fin S1000x64.rank)
  reducesTo_S1000x64_S_d0_1 : S1000x64.ReducesTo [0, 1] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S64 .f32) (main_arg8 : FVec F S64x1 .f32) (main_arg9 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg8
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S1000x64 .f32) (main_arg5 : FVec F S64 .f32) (main_arg6 : FVec F S128x64 .f32) (main_arg7 : FVec F S64 .f32) (main_arg8 : FVec F S64x1 .f32) (main_arg9 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S1000x64 .f32 := Host.absf main_arg4
  let main_cst_6 : FVec F S_ .f32 := constant S_ .f32 0x7F800000#32
  let main_v20 : FVec F S1000x64 .f32 := broadcastInDim S1000x64 ![] bcast_S_S1000x64 main_cst_6
  let main_v21 : IVec S1000x64 1 := cmpf .olt main_v19 main_v20
  let main_c_7 : IVec S_ 1 := constantI S_ 1 1#1
  let main_v22 : IVec S_ 1 := (fun x v => Host.reduce IntOp.andi x v reducesTo_S1000x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S1024x100000 .f32) (main_arg1 : FVec F S1024x1000 .f32) (main_arg2 : FVec F S100000x64 .f32) (main_arg3 : FVec F S64 .f32) (main_arg4 : FVec F S1000x64 .f32) (main_arg5 : FVec F S64 .f32) (main_arg6 : FVec F S128x64 .f32) (main_arg7 : FVec F S64 .f32) (main_arg8 : FVec F S64x1 .f32) (main_arg9 : FVec F S1 .f32) : IVec S_ 1 :=
  let main_v0 : FVec F S1024x100000 .f32 := Host.absf main_arg0
  let main_cst : FVec F S_ .f32 := constant S_ .f32 0x7F800000#32
  let main_v1 : FVec F S1024x100000 .f32 := broadcastInDim S1024x100000 ![] bcast_S_S1024x100000 main_cst
  let main_v2 : IVec S1024x100000 1 := cmpf .olt main_v0 main_v1
  let main_c : IVec S_ 1 := constantI S_ 1 1#1
  let main_v3 : IVec S_ 1 := (fun x v => Host.reduce IntOp.andi x v reducesTo_S1024x100000_S_d0_1 h_S_) main_v2 main_c
  let main_v4 : FVec F S1024x1000 .f32 := Host.absf main_arg1
  let main_cst_0 : FVec F S_ .f32 := constant S_ .f32 0x7F800000#32
  let main_v5 : FVec F S1024x1000 .f32 := broadcastInDim S1024x1000 ![] bcast_S_S1024x1000 main_cst_0
  let main_v6 : IVec S1024x1000 1 := cmpf .olt main_v4 main_v5
  let main_c_1 : IVec S_ 1 := constantI S_ 1 1#1
  let main_v7 : IVec S_ 1 := (fun x v => Host.reduce IntOp.andi x v reducesTo_S1024x1000_S_d0_1 h_S_) main_v6 main_c_1
  let main_v8 : IVec S_ 1 := andi main_v3 main_v7
  let main_v9 : FVec F S100000x64 .f32 := Host.absf main_arg2
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S1024x100000 : Shape := ⟨2, ![1024, 100000]⟩
abbrev S1024x1000 : Shape := ⟨2, ![1024, 1000]⟩
abbrev S100000x64 : Shape := ⟨2, ![100000, 64]⟩
abbrev S64 : Shape := ⟨1, ![64]⟩
abbrev S1000x64 : Shape := ⟨2, ![1000, 64]⟩
abbrev S128x64 : Shape := ⟨2, ![128, 64]⟩
abbrev S64x1 : Shape := ⟨2, ![64, 1]⟩
abbrev S1 : Shape := ⟨1, ![1]⟩
abbrev S100000x1024 : Shape := ⟨2, ![100000, 1024]⟩
abbrev S64x100000 : Shape := ⟨2, ![64, 100000]⟩
abbrev S1000x1024 : Shape := ⟨2, ![1000, 1024]⟩
abbrev S64x1000 : Shape := ⟨2, ![64, 1000]⟩
abbrev S64x128 : Shape := ⟨2, ![64, 128]⟩
abbrev S1x64 : Shape := ⟨2, ![1, 64]⟩
abbrev S1x1 : Shape := ⟨2, ![1, 1]⟩
abbrev S1x1024 : Shape := ⟨2, ![1, 1024]⟩
abbrev S1024x1 : Shape := ⟨2, ![1024, 1]⟩
abbrev S2048x512 : Shape := ⟨2, ![2048, 512]⟩
abbrev S64x2048 : Shape := ⟨2, ![64, 2048]⟩
abbrev S1000x512 : Shape := ⟨2, ![1000, 512]⟩
abbrev S1x512 : Shape := ⟨2, ![1, 512]⟩
abbrev S64x512 : Shape := ⟨2, ![64, 512]⟩
abbrev S64x64 : Shape := ⟨2, ![64, 64]⟩

abbrev nBuf : Space → Nat
  | .hbm => 22
  | .vmem => 17
  | .smem => 0
  | _ => 0

abbrev bufTy : (tb : Table) → Fin (tcTables nBuf tb) → BufTy
  | .hbm, ⟨0, _⟩ => ⟨S1024x100000, .f32⟩
  | .hbm, ⟨1, _⟩ => ⟨S1024x1000, .f32⟩
  | .hbm, ⟨2, _⟩ => ⟨S100000x64, .f32⟩
  | .hbm, ⟨3, _⟩ => ⟨S64, .f32⟩
  | .hbm, ⟨4, _⟩ => ⟨S1000x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S100000x1024, .f32⟩
  | .hbm, ⟨11, _⟩ => ⟨S64x100000, .f32⟩
  | .hbm, ⟨12, _⟩ => ⟨S1000x1024, .f32⟩
  | .hbm, ⟨13, _⟩ => ⟨S64x1000, .f32⟩
  | .hbm, ⟨14, _⟩ => ⟨S64x1, .f32⟩
  | .hbm, ⟨15, _⟩ => ⟨S64x1, .f32⟩
  | .hbm, ⟨16, _⟩ => ⟨S64x128, .f32⟩
  | .hbm, ⟨17, _⟩ => ⟨S64x1, .f32⟩
  | .hbm, ⟨18, _⟩ => ⟨S1x64, .f32⟩
  | .hbm, ⟨19, _⟩ => ⟨S1x1, .f32⟩
  | .hbm, ⟨20, _⟩ => ⟨S1x1024, .f32⟩
  | .hbm, ⟨21, _⟩ => ⟨S1024x1, .f32⟩
  | .local _ .vmem, ⟨0, _⟩ => ⟨S2048x512, .f32⟩
  | .local _ .vmem, ⟨1, _⟩ => ⟨S2048x512, .f32⟩
  | .local _ .vmem, ⟨2, _⟩ => ⟨S64x2048, .f32⟩
  | .local _ .vmem, ⟨3, _⟩ => ⟨S64x2048, .f32⟩
  | .local _ .vmem, ⟨4, _⟩ => ⟨S1000x512, .f32⟩
  | .local _ .vmem, ⟨5, _⟩ => ⟨S1000x512, .f32⟩
  | .local _ .vmem, ⟨6, _⟩ => ⟨S64x1000, .f32⟩
  | .local _ .vmem, ⟨7, _⟩ => ⟨S64x1, .f32⟩
  | .local _ .vmem, ⟨8, _⟩ => ⟨S64x1, .f32⟩
  | .local _ .vmem, ⟨9, _⟩ => ⟨S64x128, .f32⟩
  | .local _ .vmem, ⟨10, _⟩ => ⟨S64x1, .f32⟩
  | .local _ .vmem, ⟨11, _⟩ => ⟨S1x64, .f32⟩
  | .local _ .vmem, ⟨12, _⟩ => ⟨S1x1, .f32⟩
  | .local _ .vmem, ⟨13, _⟩ => ⟨S1x512, .f32⟩
  | .local _ .vmem, ⟨14, _⟩ => ⟨S1x512, .f32⟩
  | .local _ .vmem, ⟨15, _⟩ => ⟨S64x512, .f32⟩
  | .local _ .vmem, ⟨16, _⟩ => ⟨S64x512, .f32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v0 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![2, 49], ![false, false]⟩

def k0_cond3 (i : grid0.Coords) : BitVec 1 :=
  let arg1 : BitVec 32 := BitVec.ofNat 32 (i 1).val
  let c48_i32_2 : BitVec 32 := 48#32
  let v6 : BitVec 1 := Scalar.cmpi .eq arg1 c48_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S64x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  transposes_S1024x100000_S100000x1024_1_0 : S1024x100000.Transposes [1, 0] S100000x1024
  transposes_S100000x64_S64x100000_1_0 : S100000x64.Transposes [1, 0] S64x100000
  transposes_S1024x1000_S1000x1024_1_0 : S1024x1000.Transposes [1, 0] S1000x1024
  transposes_S1000x64_S64x1000_1_0 : S1000x64.Transposes [1, 0] S64x1000
  shapeCasts_S64_S64x1 : S64.ShapeCasts S64x1
  transposes_S128x64_S64x128_1_0 : S128x64.Transposes [1, 0] S64x128
  transposes_S64x1_S1x64_1_0 : S64x1.Transposes [1, 0] S1x64
  shapeCasts_S1_S1x1 : S1.ShapeCasts S1x1
  transposes_S1x1024_S1024x1_1_0 : S1x1024.Transposes [1, 0] S1024x1
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S64x1000_S64x1000_0_0 : ∀ a, (![0, 0] : Fin 2 → Nat) a + S64x1000.size a ≤ S64x1000.size a
  h_S64x1000 : 0 < S64x1000.numel
  shapeCasts_S64x1000_S64x1000 : S64x1000.ShapeCasts S64x1000
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x512 : S64x1.Broadcasts S64x512
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  iota_S2048x512_d0_w32 : S2048x512.Iotas .tc 32 [0]
  iota_S64x2048_d1_w32 : S64x2048.Iotas .tc 32 [1]
  inb_S64x128_S64x128_0_0 : ∀ a, (![0, 0] : Fin 2 → Nat) a + S64x128.size a ≤ S64x128.size a
  h_S64x128 : 0 < S64x128.numel
  shapeCasts_S64x128_S64x128 : S64x128.ShapeCasts S64x128
  slices_S64x128_o0_0_S64x64 : S64x128.Slices ![0, 0] S64x64
  slices_S64x128_o0_64_S64x64 : S64x128.Slices ![0, 64] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x512 : S1x1.Broadcasts S1x512
  inb_S1x512_S1x512_0_0 : ∀ a, (![0, 0] : Fin 2 → Nat) a + S1x512.size a ≤ S1x512.size a
  h_S1x512 : 0 < S1x512.numel
  dot_S64x1000_S1000x512_S64x512_1_0_0_1_n_n_wf : DotDims.WF S64x1000 S1000x512 S64x512 [1] [0] [0] [1] [] []
  dot_S64x2048_S2048x512_S64x512_1_0_0_1_n_n_wf : DotDims.WF S64x2048 S2048x512 S64x512 [1] [0] [0] [1] [] []
  dot_S64x64_S64x512_S64x512_1_0_0_1_n_n_wf : DotDims.WF S64x64 S64x512 S64x512 [1] [0] [0] [1] [] []
  dot_S1x64_S64x512_S1x512_1_0_0_1_n_n_wf : DotDims.WF S1x64 S64x512 S1x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2048x512.size a < S100000x1024.size a
  hwx0_0 : ∀ i : grid0.Coords, EltTy.bits .f32 = 32 ∨ (Rect.unit (s := S100000x1024) (fun a => cc0_transform_0 i a * S2048x512.size a) (fun a => (Pipeline.Clip.of (cc0_transform_0 i a) (S2048x512.size a) (S100000x1024.size a)).extent (S2048x512.size a)) fun a => Pipeline.Clip.inb (Pipeline.Clip.ok_of (hstart0_0 i a))).WholeWords (EltTy.packing .f32)
  hwxs0_0 : ∀ i : grid0.Coords, EltTy.bits .f32 = 32 ∨ (Rect.unit (s := S2048x512) (fun _ => 0) (fun a => (Pipeline.Clip.of (cc0_transform_0 i a) (S2048x512.size a) (S100000x1024.size a)).extent (S2048x512.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S64x2048.size a < S64x100000.size a
  hwx0_1 : ∀ i : grid0.Coords, EltTy.bits .f32 = 32 ∨ (Rect.unit (s := S64x100000) (fun a => cc0_transform_1 i a * S64x2048.size a) (fun a => (Pipeline.Clip.of (cc0_transform_1 i a) (S64x2048.size a) (S64x100000.size a)).extent (S64x2048.size a)) fun a => Pipeline.Clip.inb (Pipeline.Clip.ok_of (hstart0_1 i a))).WholeWords (EltTy.packing .f32)
  hwxs0_1 : ∀ i : grid0.Coords, EltTy.bits .f32 = 32 ∨ (Rect.unit (s := S64x2048) (fun _ => 0) (fun a => (Pipeline.Clip.of (cc0_transform_1 i a) (S64x2048.size a) (S64x100000.size a)).extent (S64x2048.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S1000x1024.size a
  hwx0_2 : ∀ i : grid0.Coords, EltTy.bits .f32 = 32 ∨ (Rect.block (s := S1000x1024) S1000x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1000.size a ≤ S64x1000.size a
  hwx0_3 : ∀ i : grid0.Coords, EltTy.bits .f32 = 32 ∨ (Rect.block (s := S64x1000) S64x1000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .f32 = 32 ∨ (Rect.block (s := S64x128) S64x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S64x1.size a
  hwx0_7 : ∀ i : grid0.Coords, EltTy.bits .f32 = 32 ∨ (Rect.block (s := S64x1) S64x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x1024.size a
  hwx0_10 : ∀ i : grid0.Coords, EltTy.bits .f32 = 32 ∨ (Rect.block (s := S1x1024) S1x512.size (cc0_transform_10 i) (hinb0_10 i)).WholeWords (EltTy.packing .f32)

variable [Facts₀]

def dot_S64x1000_S1000x512_S64x512_1_0_0_1_n_n : DotDims S64x1000 S1000x512 S64x512 where
  lhsContracting := [1]
  rhsContracting := [0]
  lhsNonContracting := [0]
  rhsNonContracting := [1]
  lhsBatch := []
  rhsBatch := []
  wf := dot_S64x1000_S1000x512_S64x512_1_0_0_1_n_n_wf
def dot_S64x2048_S2048x512_S64x512_1_0_0_1_n_n : DotDims S64x2048 S2048x512 S64x512 where
  lhsContracting := [1]
  rhsContracting := [0]
  lhsNonContracting := [0]
  rhsNonContracting := [1]
  lhsBatch := []
  rhsBatch := []
  wf := dot_S64x2048_S2048x512_S64x512_1_0_0_1_n_n_wf
def dot_S64x64_S64x512_S64x512_1_0_0_1_n_n : DotDims S64x64 S64x512 S64x512 where
  lhsContracting := [1]
  rhsContracting := [0]
  lhsNonContracting := [0]
  rhsNonContracting := [1]
  lhsBatch := []
  rhsBatch := []
  wf := dot_S64x64_S64x512_S64x512_1_0_0_1_n_n_wf
def dot_S1x64_S64x512_S1x512_1_0_0_1_n_n : DotDims S1x64 S64x512 S1x512 where
  lhsContracting := [1]
  rhsContracting := [0]
  lhsNonContracting := [0]
  rhsNonContracting := [1]
  lhsBatch := []
  rhsBatch := []
  wf := dot_S1x64_S64x512_S1x512_1_0_0_1_n_n_wf

abbrev win0_0 : Pipeline.Window sig grid0 :=
  Pipeline.Window.ofSpecClip (Memref.whole main_call0_v0) S2048x512.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_call0_v1) S64x2048.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_call0_v2) S1000x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S64x1000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v5) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v6) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v7) S64x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v8) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v9) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v10) S1x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond3 i == 1#1) | ⟨_ + 11, h⟩ => absurd h (Nat.not_lt.2 (Nat.le_add_left _ _))

class Facts : Prop extends Facts₀ where

variable [Facts]
-- ==== ReferenceIdeal.lean ====
abbrev S1024x100000 : Shape := ⟨2, ![1024, 100000]⟩
abbrev S1024x1000 : Shape := ⟨2, ![1024, 1000]⟩
abbrev S100000x64 : Shape := ⟨2, ![100000, 64]⟩
abbrev S64 : Shape := ⟨1, ![64]⟩
abbrev S1000x64 : Shape := ⟨2, ![1000, 64]⟩
abbrev S128x64 : Shape := ⟨2, ![128, 64]⟩
abbrev S64x1 : Shape := ⟨2, ![64, 1]⟩
abbrev S1 : Shape := ⟨1, ![1]⟩
abbrev S1024x64 : Shape := ⟨2, ![1024, 64]⟩
abbrev S1x64 : Shape := ⟨2, ![1, 64]⟩
abbrev S_ : Shape := ⟨0, ![]⟩
abbrev S1024x128 : Shape := ⟨2, ![1024, 128]⟩
abbrev S1024x1 : Shape := ⟨2, ![1024, 1]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024x1000, .f32⟩
  | .hbm, ⟨2, _⟩ => ⟨S100000x64, .f32⟩
  | .hbm, ⟨3, _⟩ => ⟨S64, .f32⟩
  | .hbm, ⟨4, _⟩ => ⟨S1000x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S1024x64, .f32⟩
  | .hbm, ⟨11, _⟩ => ⟨S1x64, .f32⟩
  | .hbm, ⟨12, _⟩ => ⟨S1024x64, .f32⟩
  | .hbm, ⟨13, _⟩ => ⟨S1024x64, .f32⟩
  | .hbm, ⟨14, _⟩ => ⟨S_, .f32⟩
  | .hbm, ⟨15, _⟩ => ⟨S1024x64, .f32⟩
  | .hbm, ⟨16, _⟩ => ⟨S1024x64, .f32⟩
  | .hbm, ⟨17, _⟩ => ⟨S1024x64, .f32⟩
  | .hbm, ⟨18, _⟩ => ⟨S1x64, .f32⟩
  | .hbm, ⟨19, _⟩ => ⟨S1024x64, .f32⟩
  | .hbm, ⟨20, _⟩ => ⟨S1024x64, .f32⟩
  | .hbm, ⟨21, _⟩ => ⟨S_, .f32⟩
  | .hbm, ⟨22, _⟩ => ⟨S1024x64, .f32⟩
  | .hbm, ⟨23, _⟩ => ⟨S1024x64, .f32⟩
  | .hbm, ⟨24, _⟩ => ⟨S1024x128, .f32⟩
  | .hbm, ⟨25, _⟩ => ⟨S1024x64, .f32⟩
  | .hbm, ⟨26, _⟩ => ⟨S1x64, .f32⟩
  | .hbm, ⟨27, _⟩ => ⟨S1024x64, .f32⟩
  | .hbm, ⟨28, _⟩ => ⟨S1024x64, .f32⟩
  | .hbm, ⟨29, _⟩ => ⟨S_, .f32⟩
  | .hbm, ⟨30, _⟩ => ⟨S1024x64, .f32⟩
  | .hbm, ⟨31, _⟩ => ⟨S1024x64, .f32⟩
  | .hbm, ⟨32, _⟩ => ⟨S1024x1, .f32⟩
  | .hbm, ⟨33, _⟩ => ⟨S1x1, .f32⟩
  | .hbm, ⟨34, _⟩ => ⟨S1024x1, .f32⟩
  | .hbm, ⟨35, _⟩ => ⟨S1024x1, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call2_cst : Ref sig .tc := ⟨.hbm, 29, rfl⟩
abbrev main_call2_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  concatenates_S1024x64_S1024x64_S1024x128_d1 : Shape.Concatenates [S1024x64, S1024x64] S1024x128 1
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  dot_S1024x100000_S100000x64_S1024x64_1_0_0_1_n_n_wf : DotDims.WF S1024x100000 S100000x64 S1024x64 [1] [0] [0] [1] [] []
  dot_S1024x1000_S1000x64_S1024x64_1_0_0_1_n_n_wf : DotDims.WF S1024x1000 S1000x64 S1024x64 [1] [0] [0] [1] [] []
  dot_S1024x128_S128x64_S1024x64_1_0_0_1_n_n_wf : DotDims.WF S1024x128 S128x64 S1024x64 [1] [0] [0] [1] [] []
  dot_S1024x64_S64x1_S1024x1_1_0_0_1_n_n_wf : DotDims.WF S1024x64 S64x1 S1024x1 [1] [0] [0] [1] [] []

variable [Facts₀]

def dot_S1024x100000_S100000x64_S1024x64_1_0_0_1_n_n : DotDims S1024x100000 S100000x64 S1024x64 where
  lhsContracting := [1]
  rhsContracting := [0]
  lhsNonContracting := [0]
  rhsNonContracting := [1]
  lhsBatch := []
  rhsBatch := []
  wf := dot_S1024x100000_S100000x64_S1024x64_1_0_0_1_n_n_wf
def dot_S1024x1000_S1000x64_S1024x64_1_0_0_1_n_n : DotDims S1024x1000 S1000x64 S1024x64 where
  lhsContracting := [1]
  rhsContracting := [0]
  lhsNonContracting := [0]
  rhsNonContracting := [1]
  lhsBatch := []
  rhsBatch := []
  wf := dot_S1024x1000_S1000x64_S1024x64_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

class Facts : Prop extends Facts₀ where

variable [Facts]
-- ==== Proof.MlpBits.Cases.lean ====
import proofs.«134165_g26456998544025_cont_9to1_950_18_alg».proof.Proof.Gen.Kernel.Frame
import proofs.«134165_g26456998544025_cont_9to1_950_18_alg».proof.Proof.Gen.Kernel.Skeleton

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The grid's three kinds of point

The grid is 2 × 49, walked row by row: point t is lane block t / 49 at contraction step k = t % 49. The body's
three conditions are functions of k alone; decided here once over the 98 points, with what the pipeline does to
the output window and where the two big input windows are cut at the array's end (only at k = 48, where the last
contraction block holds 1696 of its 2048 indices). -/

abbrev condInit (i : grid0.Coords) : Prop := (Scalar.cmpi .ne (Scalar.extui (Scalar.cmpi .eq (BitVec.ofNat 32 (i 1).val) 0#32)) 0#32) = 1#1
abbrev condFull (i : grid0.Coords) : Prop := (Scalar.cmpi .ne (Scalar.extui (Scalar.cmpi .slt (BitVec.ofNat 32 (i 1).val) 48#32)) 0#32) = 1#1
abbrev condLast (i : grid0.Coords) : Prop := k0_cond3 i = 1#1

theorem hInit : ∀ t : Fin cfg0.N, condInit (grid0.coords t) ↔ t.val % 49 = 0 :=
  (by decide +kernel : ∀ t : Fin grid0.N, condInit (grid0.coords t) ↔ t.val % 49 = 0)
theorem hFull : ∀ t : Fin cfg0.N, condFull (grid0.coords t) ↔ ¬t.val % 49 = 48 :=
  (by decide +kernel : ∀ t : Fin grid0.N, condFull (grid0.coords t) ↔ ¬t.val % 49 = 48)
theorem hLast : ∀ t : Fin cfg0.N, condLast (grid0.coords t) ↔ t.val % 49 = 48 :=
  (by decide +kernel : ∀ t : Fin grid0.N, condLast (grid0.coords t) ↔ t.val % 49 = 48)

/-- No input window is ever idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
theorem live0_5 : ∀ t : Fin cfg0.N, cfg0.idle 5 (grid0.coords t) = false := by decide +kernel
theorem live0_6 : ∀ t : Fin cfg0.N, cfg0.idle 6 (grid0.coords t) = false := by decide +kernel
theorem live0_7 : ∀ t : Fin cfg0.N, cfg0.idle 7 (grid0.coords t) = false := by decide +kernel
theorem live0_8 : ∀ t : Fin cfg0.N, cfg0.idle 8 (grid0.coords t) = false := by decide +kernel
theorem live0_9 : ∀ t : Fin cfg0.N, cfg0.idle 9 (grid0.coords t) = false := by decide +kernel
/-- The output window is idle away from k = 48, and not written back there; -/
theorem idle0_10 : ∀ t : Fin cfg0.N, ¬t.val % 49 = 48 → cfg0.idle 10 (grid0.coords t) = true := by decide +kernel
theorem noFlush0_10 : ∀ t : Fin cfg0.N, ¬t.val % 49 = 48 → (cfg0.win 10).flush t = false := by decide +kernel
/-- live at k = 48. -/
theorem live0_10 : ∀ t : Fin cfg0.N, t.val % 49 = 48 → cfg0.idle 10 (grid0.coords t) = false := by decide +kernel

/-- Away from k = 48 the two big input windows are fetched whole; -/
theorem whole0_0 : ∀ t : Fin cfg0.N, ¬t.val % 49 = 48 → ∀ a, (cfg0.win 0).clip (grid0.coords t) a = none := by decide +kernel
theorem whole0_1 : ∀ t : Fin cfg0.N, ¬t.val % 49 = 48 → ∀ a, (cfg0.win 1).clip (grid0.coords t) a = none := by decide +kernel
/-- at k = 48 the fetch moves 1696 contraction indices: rows of the activation block, columns of the weight block. -/
theorem xsize0_0 : ∀ t : Fin cfg0.N, t.val % 49 = 48 → ∀ a, (cfg0.win 0).xsize (grid0.coords t) a = (![1696, 512] : Fin 2 → ℕ) a := by decide +kernel
theorem xsize0_1 : ∀ t : Fin cfg0.N, t.val % 49 = 48 → ∀ a, (cfg0.win 1).xsize (grid0.coords t) a = (![64, 1696] : Fin 2 → ℕ) a := by decide +kernel

end Cert.Kernel.Mlp

end
-- ==== Proof.MlpBits.Runs.lean ====
import proofs.«134165_g26456998544025_cont_9to1_950_18_alg».proof.Proof.MlpBits.Cases
import Idealize.ShloMosaic.Lib.Pipeline.Value

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The kernel body, case by case

The body branches three times on the position k along the contraction axis of the grid (coordinate 1):
at k = 0 it clears the accumulator scratch and stores the compound embedding into the second scratch;
while k < 48 it adds the product of the current weight and activation blocks to the accumulator;
at k = 48 it adds the product of the two blocks with everything past contraction index 1696 replaced
by zero, and computes the output row from the accumulator, the second scratch and the small operands.
Each theorem below runs the body on arbitrary whole memrefs at arbitrary contents in one of the three
combinations of the conditions the grid meets, and says which buffers change and to which payload. -/

theorem zeros2 : (![0, 0] : Fin 2 → ℕ) = fun _ => 0 := funext fun a => by fin_cases a <;> rfl

set_option maxHeartbeats 2000000 in
/-- k = 0: the accumulator ends at the first block product over a cleared accumulator, the second scratch at the
    compound embedding; whatever the two scratch buffers held before is overwritten. -/
theorem runFirst (c : Dev nD) (i : grid0.Coords) (arg2 : Memref sig .tc .vmem S2048x512 .f32) (harg2 : arg2.IsWhole) (arg3 : Memref sig .tc .vmem S64x2048 .f32) (harg3 : arg3.IsWhole) (arg4 : Memref sig .tc .vmem S1000x512 .f32) (harg4 : arg4.IsWhole) (arg5 : Memref sig .tc .vmem S64x1000 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S64x128 .f32) (harg8 : arg8.IsWhole) (arg9 : Memref sig .tc .vmem S64x1 .f32) (harg9 : arg9.IsWhole) (arg10 : Memref sig .tc .vmem S1x64 .f32) (harg10 : arg10.IsWhole) (arg11 : Memref sig .tc .vmem S1x1 .f32) (harg11 : arg11.IsWhole) (arg12 : Memref sig .tc .vmem S1x512 .f32) (harg12 : arg12.IsWhole) (arg13 : Memref sig .tc .vmem S64x512 .f32) (harg13 : arg13.IsWhole) (arg14 : Memref sig .tc .vmem S64x512 .f32) (harg14 : arg14.IsWhole)
    (hc1 : condInit i) (hc2 : condFull i) (hc3 : ¬condLast i)
    (x0 : Vec F S2048x512 .f32) (x1 : Vec F S64x2048 .f32) (ct : Vec F S1000x512 .f32) (cw : Vec F S64x1000 .f32) (cb : Vec F S64x1 .f32)
    (a : Vec F S64x512 .f32) (e : Vec F S64x512 .f32) (E : Set ℕ) (K : PUnit → sProp 𝕄) :
    iprop(owns (c : Thread nD τ) arg2 fullShare x0 ∗ owns (c : Thread nD τ) arg3 fullShare x1 ∗ owns (c : Thread nD τ) arg4 fullShare ct ∗ owns (c : Thread nD τ) arg5 fullShare cw ∗ owns (c : Thread nD τ) arg7 fullShare cb ∗ owns (c : Thread nD τ) arg13 fullShare a ∗ owns (c : Thread nD τ) arg14 fullShare e
        ∗ (iprop(owns (c : Thread nD τ) arg2 fullShare x0 ∗ owns (c : Thread nD τ) arg3 fullShare x1 ∗ owns (c : Thread nD τ) arg4 fullShare ct ∗ owns (c : Thread nD τ) arg5 fullShare cw ∗ owns (c : Thread nD τ) arg7 fullShare cb ∗ owns (c : Thread nD τ) arg13 fullShare (k0_pay3 k0_pay1 x1 x0) ∗ owns (c : Thread nD τ) arg14 fullShare (k0_pay2 cw ct cb)) -∗ K ⟨⟩))
      ⊢ wp frame (wpE (defs₀ (F := F)) Variants.none c none) E (cc0__mlp_kernel i arg2 harg2 arg3 harg3 arg4 harg4 arg5 harg5 arg6 harg6 arg7 harg7 arg8 harg8 arg9 harg9 arg10 harg10 arg11 harg11 arg12 harg12 arg13 harg13 arg14 harg14) K := by
  simp only [cc0__mlp_kernel_eq_skeleton]; unfold cc0__mlp_kernel_skel
  unfold owns
  iintro ⟨⟨%f2, %hf2, H2⟩, ⟨%f3, %hf3, H3⟩, ⟨%f4, %hf4, H4⟩, ⟨%f5, %hf5, H5⟩, ⟨%f7, %hf7, H7⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg7.eq_unread hf7
  obtain rfl := harg13.eq_unread hf13; obtain rfl := harg14.eq_unread hf14
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H7]
  · iexists _; isplitr; · ipureintro; exact harg7.read_unread _
    iexact H7
  isplitl [H13]
  · iexists _; isplitr
    swap; · iexact H13
    ipureintro
    sl_unfold_words
    rw [View.read_writes_eq_canon _ _ _ (fun y => ⟨_, List.mem_cons_self .., View.mem_set_unit_zero (S := S64x512) zeros2 inb_S64x512_S64x512_0_0 y⟩),
      View.canon_cons_unit_zero (S := S64x512) zeros2 inb_S64x512_S64x512_0_0]
    simp only [View.readAt_eq_ld, harg3.read_unread, harg2.read_unread, View.ld_unit_zero (S := S64x2048) zeros2, View.ld_unit_zero (S := S2048x512) zeros2,
      View.readCov_unit_zero (S := S64x512) _ zeros2]
  iexists _; isplitr
  swap; · iexact H14
  ipureintro
  rw [View.read_writes_eq_canon _ _ _ (fun y => ⟨_, List.mem_singleton_self _, View.mem_set_unit_zero (S := S64x512) zeros2 inb_S64x512_S64x512_0_0 y⟩),
    View.canon_unit_zero (S := S64x512) zeros2 inb_S64x512_S64x512_0_0]
  simp only [View.readAt_eq_ld, harg5.read_unread, harg4.read_unread, harg7.read_unread, View.ld_unit_zero (S := S64x1000) zeros2, View.ld_unit_zero (S := S1000x512) zeros2,
    View.ld_unit_zero (S := S64x1) zeros2]

set_option maxHeartbeats 1000000 in
/-- 0 < k < 48: the accumulator gains the product of the two current blocks; nothing else changes. -/
theorem runMid (c : Dev nD) (i : grid0.Coords) (arg2 : Memref sig .tc .vmem S2048x512 .f32) (harg2 : arg2.IsWhole) (arg3 : Memref sig .tc .vmem S64x2048 .f32) (harg3 : arg3.IsWhole) (arg4 : Memref sig .tc .vmem S1000x512 .f32) (harg4 : arg4.IsWhole) (arg5 : Memref sig .tc .vmem S64x1000 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S64x128 .f32) (harg8 : arg8.IsWhole) (arg9 : Memref sig .tc .vmem S64x1 .f32) (harg9 : arg9.IsWhole) (arg10 : Memref sig .tc .vmem S1x64 .f32) (harg10 : arg10.IsWhole) (arg11 : Memref sig .tc .vmem S1x1 .f32) (harg11 : arg11.IsWhole) (arg12 : Memref sig .tc .vmem S1x512 .f32) (harg12 : arg12.IsWhole) (arg13 : Memref sig .tc .vmem S64x512 .f32) (harg13 : arg13.IsWhole) (arg14 : Memref sig .tc .vmem S64x512 .f32) (harg14 : arg14.IsWhole)
    (hc1 : ¬condInit i) (hc2 : condFull i) (hc3 : ¬condLast i)
    (x0 : Vec F S2048x512 .f32) (x1 : Vec F S64x2048 .f32) (a : Vec F S64x512 .f32) (E : Set ℕ) (K : PUnit → sProp 𝕄) :
    iprop(owns (c : Thread nD τ) arg2 fullShare x0 ∗ owns (c : Thread nD τ) arg3 fullShare x1 ∗ owns (c : Thread nD τ) arg13 fullShare a
        ∗ (iprop(owns (c : Thread nD τ) arg2 fullShare x0 ∗ owns (c : Thread nD τ) arg3 fullShare x1 ∗ owns (c : Thread nD τ) arg13 fullShare (k0_pay3 a x1 x0)) -∗ K ⟨⟩))
      ⊢ wp frame (wpE (defs₀ (F := F)) Variants.none c none) E (cc0__mlp_kernel i arg2 harg2 arg3 harg3 arg4 harg4 arg5 harg5 arg6 harg6 arg7 harg7 arg8 harg8 arg9 harg9 arg10 harg10 arg11 harg11 arg12 harg12 arg13 harg13 arg14 harg14) K := by
  simp only [cc0__mlp_kernel_eq_skeleton]; unfold cc0__mlp_kernel_skel
  unfold owns
  iintro ⟨⟨%f2, %hf2, H2⟩, ⟨%f3, %hf3, H3⟩, ⟨%f13, %hf13, H13⟩, Hk⟩
  obtain rfl := harg2.eq_unread hf2; obtain rfl := harg3.eq_unread hf3; obtain rfl := harg13.eq_unread hf13
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  iexists _; isplitr
  swap; · iexact H13
  ipureintro
  rw [View.read_writes_eq_canon _ _ _ (fun y => ⟨_, List.mem_singleton_self _, View.mem_set_unit_zero (S := S64x512) zeros2 inb_S64x512_S64x512_0_0 y⟩),
    View.canon_unit_zero (S := S64x512) zeros2 inb_S64x512_S64x512_0_0]
  simp only [View.readAt_eq_ld, harg13.read_unread, harg3.read_unread, harg2.read_unread, View.ld_unit_zero (S := S64x512) zeros2, View.ld_unit_zero (S := S64x2048) zeros2,
    View.ld_unit_zero (S := S2048x512) zeros2]

set_option maxHeartbeats 4000000 in
/-- k = 48: the accumulator gains the masked product of the two current blocks, and the output buffer is
    stored whole from the updated accumulator, the second scratch and the small operands. -/
theorem runLast (c : Dev nD) (i : grid0.Coords) (arg2 : Memref sig .tc .vmem S2048x512 .f32) (harg2 : arg2.IsWhole) (arg3 : Memref sig .tc .vmem S64x2048 .f32) (harg3 : arg3.IsWhole) (arg4 : Memref sig .tc .vmem S1000x512 .f32) (harg4 : arg4.IsWhole) (arg5 : Memref sig .tc .vmem S64x1000 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S64x128 .f32) (harg8 : arg8.IsWhole) (arg9 : Memref sig .tc .vmem S64x1 .f32) (harg9 : arg9.IsWhole) (arg10 : Memref sig .tc .vmem S1x64 .f32) (harg10 : arg10.IsWhole) (arg11 : Memref sig .tc .vmem S1x1 .f32) (harg11 : arg11.IsWhole) (arg12 : Memref sig .tc .vmem S1x512 .f32) (harg12 : arg12.IsWhole) (arg13 : Memref sig .tc .vmem S64x512 .f32) (harg13 : arg13.IsWhole) (arg14 : Memref sig .tc .vmem S64x512 .f32) (harg14 : arg14.IsWhole)
    (hc1 : ¬condInit i) (hc2 : ¬condFull i) (hc3 : condLast i)
    (x0 : Vec F S2048x512 .f32) (x1 : Vec F S64x2048 .f32) (pb : Vec F S64x1 .f32) (jw : Vec F S64x128 .f32) (jb : Vec F S64x1 .f32)
    (ow : Vec F S1x64 .f32) (ob : Vec F S1x1 .f32) (o : Vec F S1x512 .f32) (a : Vec F S64x512 .f32) (e : Vec F S64x512 .f32) (E : Set ℕ) (K : PUnit → sProp 𝕄) :
    iprop(owns (c : Thread nD τ) arg2 fullShare x0 ∗ owns (c : Thread nD τ) arg3 fullShare x1 ∗ owns (c : Thread nD τ) arg6 fullShare pb ∗ owns (c : Thread nD τ) arg8 fullShare jw ∗ owns (c : Thread nD τ) arg9 fullShare jb ∗ owns (c : Thread nD τ) arg10 fullShare ow ∗ owns (c : Thread nD τ) arg11 fullShare ob ∗ owns (c : Thread nD τ) arg12 fullShare o ∗ owns (c : Thread nD τ) arg13 fullShare a ∗ owns (c : Thread nD τ) arg14 fullShare e
        ∗ (iprop(owns (c : Thread nD τ) arg2 fullShare x0 ∗ owns (c : Thread nD τ) arg3 fullShare x1 ∗ owns (c : Thread nD τ) arg6 fullShare pb ∗ owns (c : Thread nD τ) arg8 fullShare jw ∗ owns (c : Thread nD τ) arg9 fullShare jb ∗ owns (c : Thread nD τ) arg10 fullShare ow ∗ owns (c : Thread nD τ) arg11 fullShare ob ∗ owns (c : Thread nD τ) arg12 fullShare (k0_pay4 (k0_pay7 (k0_pay5 x0 x1 a) pb jw) (k0_pay8 jw) e (constant S64x512 .f32 0x00000000#32) jb ow ob) ∗ owns (c : Thread nD τ) arg13 fullShare (k0_pay5 x0 x1 a) ∗ owns (c : Thread nD τ) arg14 fullShare e) -∗ K ⟨⟩))
      ⊢ wp frame (wpE (defs₀ (F := F)) Variants.none c none) E (cc0__mlp_kernel i arg2 harg2 arg3 harg3 arg4 harg4 arg5 harg5 arg6 harg6 arg7 harg7 arg8 harg8 arg9 harg9 arg10 harg10 arg11 harg11 arg12 harg12 arg13 harg13 arg14 harg14) K := by
  simp only [cc0__mlp_kernel_eq_skeleton]; unfold cc0__mlp_kernel_skel
  unfold owns
  iintro ⟨⟨%f2, %hf2, H2⟩, ⟨%f3, %hf3, H3⟩, ⟨%f6, %hf6, H6⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg6.eq_unread hf6; obtain rfl := harg8.eq_unread hf8; obtain rfl := harg9.eq_unread hf9
  obtain rfl := harg10.eq_unread hf10; obtain rfl := harg11.eq_unread hf11; obtain rfl := harg12.eq_unread hf12; obtain rfl := harg13.eq_unread hf13; obtain rfl := harg14.eq_unread hf14
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H6]
  · iexists _; isplitr; · ipureintro; exact harg6.read_unread _
    iexact H6
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr
    swap; · iexact H12
    ipureintro
    sl_unfold_words
    rw [View.read_writes_eq_canon _ _ _ (fun y => ⟨_, List.mem_singleton_self _, View.mem_set_unit_zero (S := S1x512) zeros2 inb_S1x512_S1x512_0_0 y⟩),
      View.canon_unit_zero (S := S1x512) zeros2 inb_S1x512_S1x512_0_0]
    simp only [View.readAt_eq_ld, harg2.read_unread, harg3.read_unread, harg6.read_unread, harg8.read_unread, harg9.read_unread, harg10.read_unread, harg11.read_unread,
      harg13.read_unread, harg14.read_unread, View.ld_unit_zero (S := S2048x512) zeros2, View.ld_unit_zero (S := S64x2048) zeros2, View.ld_unit_zero (S := S64x1) zeros2, View.ld_unit_zero (S := S64x128) zeros2, View.ld_unit_zero (S := S1x64) zeros2, View.ld_unit_zero (S := S1x1) zeros2, View.ld_unit_zero (S := S64x512) zeros2,
      View.readCov_unit_zero (S := S64x512) _ zeros2]
  isplitl [H13]
  · iexists _; isplitr
    swap; · iexact H13
    ipureintro
    sl_unfold_words
    rw [View.read_writes_eq_canon _ _ _ (fun y => ⟨_, List.mem_singleton_self _, View.mem_set_unit_zero (S := S64x512) zeros2 inb_S64x512_S64x512_0_0 y⟩),
      View.canon_unit_zero (S := S64x512) zeros2 inb_S64x512_S64x512_0_0]
    simp only [View.readAt_eq_ld, harg2.read_unread, harg3.read_unread, harg13.read_unread, View.ld_unit_zero (S := S2048x512) zeros2, View.ld_unit_zero (S := S64x2048) zeros2, View.ld_unit_zero (S := S64x512) zeros2]
  iexists _; isplitr; · ipureintro; exact harg14.read_unread _
  iexact H14

end Cert.Kernel.Mlp

end
-- ==== Proof.MlpBits.Data.lean ====
import proofs.«134165_g26456998544025_cont_9to1_950_18_alg».proof.Proof.MlpBits.Cases

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The proof data of the one pipeline

What every staging buffer and the two scratch buffers hold after the body at each grid point, as functions of
the arrays the region finds. The two scratch buffers are carried from point to point inside a lane block
(49 points): the accumulator grows by one block product per point, the compound embedding is written at the
first of the 49 points and read at the last. The two big input windows are cut at k = 48: their staging buffers
then hold the array's last 1696 contraction indices and, past them, words nothing names; the names below fill
that tail with zero words, and Tail.lean shows the body's results do not depend on the choice. -/

variable (m : (ℓ : Loc nD τ sig) → Buf (Elt F) ℓ) (ρ : Dev nD → PrngReg)

/-- Each window's current staging memref at point t, as the pipeline passes it to the body, and its wholeness. -/
abbrev ms0 (t : Fin cfg0.N) : Memref sig .tc .vmem S2048x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1000x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64x1000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S64x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S64x1 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x1 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x512 .f32 := win0_10.stage (cfg0.slots t 10)
abbrev hs10 (t : Fin cfg0.N) : (ms10 t).IsWhole := hstage0_10 ((cfg0.slots t 10).cast nbuf0_10)
/-- The two scratch operands: the accumulator and the compound embedding. -/
abbrev scAcc : Memref sig .tc .vmem S64x512 .f32 := Memref.whole cc0_scratch0
abbrev scCe : Memref sig .tc .vmem S64x512 .f32 := Memref.whole cc0_scratch1

/-- The activation window's buffer after the fetch at t: the block's part inside the array, zero words past it. -/
def xbuf (c : Dev nD) (t : Fin cfg0.N) : Vec F S2048x512 .f32 :=
  win0_0.fill (grid0.coords t) (fun _ => Scalar.ofBits .f32 0#32) (iblk m c 0 t)
/-- The weight window's likewise. -/
def wbuf (c : Dev nD) (t : Fin cfg0.N) : Vec F S64x2048 .f32 :=
  win0_1.fill (grid0.coords t) (fun _ => Scalar.ofBits .f32 0#32) (iblk m c 1 t)

/-- THE ACCUMULATION. What the accumulator and the compound-embedding scratch hold after the body at position n:
    at k = 0 the first block product over a cleared accumulator, and the compound embedding; while 0 < k < 48 the
    accumulator of the point before plus this point's block product; at k = 48 plus the masked product of the
    cut blocks; the compound embedding carried unchanged. -/
def scAt (c : Dev nD) : (n : ℕ) → n < cfg0.N → Vec F S64x512 .f32 × Vec F S64x512 .f32
  | 0, hn => (k0_pay3 k0_pay1 (wbuf m c ⟨0, hn⟩) (xbuf m c ⟨0, hn⟩), k0_pay2 (iblk m c 3 ⟨0, hn⟩) (iblk m c 2 ⟨0, hn⟩) (iblk m c 5 ⟨0, hn⟩))
  | n + 1, hn =>
    if (n + 1) % 49 = 0 then (k0_pay3 k0_pay1 (wbuf m c ⟨n + 1, hn⟩) (xbuf m c ⟨n + 1, hn⟩), k0_pay2 (iblk m c 3 ⟨n + 1, hn⟩) (iblk m c 2 ⟨n + 1, hn⟩) (iblk m c 5 ⟨n + 1, hn⟩))
    else if (n + 1) % 49 = 48 then
      (k0_pay5 (xbuf m c ⟨n + 1, hn⟩) (wbuf m c ⟨n + 1, hn⟩) (scAt c n (Nat.lt_of_succ_lt hn)).1, (scAt c n (Nat.lt_of_succ_lt hn)).2)
    else
      (k0_pay3 (scAt c n (Nat.lt_of_succ_lt hn)).1 (wbuf m c ⟨n + 1, hn⟩) (xbuf m c ⟨n + 1, hn⟩), (scAt c n (Nat.lt_of_succ_lt hn)).2)

theorem scAt_first (c : Dev nD) (t : Fin cfg0.N) (h0 : t.val % 49 = 0) :
    scAt m c t.val t.isLt = (k0_pay3 k0_pay1 (wbuf m c t) (xbuf m c t), k0_pay2 (iblk m c 3 t) (iblk m c 2 t) (iblk m c 5 t)) := by
  obtain ⟨n, hn⟩ := t
  cases n with
  | zero => rfl
  | succ n => exact (if_pos h0).trans rfl

theorem scAt_last (c : Dev nD) (t : Fin cfg0.N) (h1 : t.val % 49 = 48) :
    scAt m c t.val t.isLt = (k0_pay5 (xbuf m c t) (wbuf m c t) (scAt m c (t.val - 1) (Nat.lt_of_le_of_lt (Nat.sub_le _ _) t.isLt)).1,
      (scAt m c (t.val - 1) (Nat.lt_of_le_of_lt (Nat.sub_le _ _) t.isLt)).2) := by
  obtain ⟨n, hn⟩ := t
  cases n with
  | zero => exact absurd h1 (by show ¬(0 % 49 = 48); decide)
  | succ n => exact (if_neg (by dsimp only at h1; omega)).trans ((if_pos h1).trans rfl)

theorem scAt_mid (c : Dev nD) (t : Fin cfg0.N) (h0 : ¬t.val % 49 = 0) (h1 : ¬t.val % 49 = 48) :
    scAt m c t.val t.isLt = (k0_pay3 (scAt m c (t.val - 1) (Nat.lt_of_le_of_lt (Nat.sub_le _ _) t.isLt)).1 (wbuf m c t) (xbuf m c t),
      (scAt m c (t.val - 1) (Nat.lt_of_le_of_lt (Nat.sub_le _ _) t.isLt)).2) := by
  obtain ⟨n, hn⟩ := t
  cases n with
  | zero => exact absurd (Nat.zero_mod _) h0
  | succ n => exact (if_neg h0).trans ((if_neg h1).trans rfl)

/-- What the output's staging buffer holds after the body at a point with k = 48: the output row of this lane block,
    from the finished accumulator and the compound embedding. (At the other points the window is idle and this is
    never read.) -/
def outAt (c : Dev nD) (t : Fin cfg0.N) : Vec F S1x512 .f32 :=
  k0_pay4 (k0_pay7 (scAt m c t.val t.isLt).1 (iblk m c 4 t) (iblk m c 6 t)) (k0_pay8 (iblk m c 6 t)) (scAt m c t.val t.isLt).2
    (constant S64x512 .f32 0x00000000#32) (iblk m c 7 t) (iblk m c 8 t) (iblk m c 9 t)

/-- The region invariant before position n: before the first point what the launch hands over (both scratch buffers
    at anything); afterwards the two scratch buffers at what the point before left, and the generator register. -/
def PhiS (c : Dev nD) : (n : ℕ) → n ≤ cfg0.N → sProp 𝕄
  | 0, _ => Pipeline.ΦA spec0 c
  | n + 1, hn => iprop(iprop(owns (c : Thread nD τ) scAcc fullShare (scAt m c n hn).1 ∗ owns (c : Thread nD τ) scCe fullShare (scAt m c n hn).2) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scAcc fullShare (scAt m c n hn).1 ∗ owns (c : Thread nD τ) scCe fullShare (scAt m c n hn).2) ∗ (∃ r, prngReg c r)) := rfl
theorem PhiS_pos (c : Dev nD) (n : ℕ) (h : n ≤ cfg0.N) (hz : n ≠ 0) :
    PhiS m c n h = iprop(iprop(owns (c : Thread nD τ) scAcc fullShare (scAt m c (n - 1) (by omega)).1 ∗ owns (c : Thread nD τ) scCe fullShare (scAt m c (n - 1) (by omega)).2) ∗ (∃ r, prngReg c r)) := by
  cases n with
  | zero => exact absurd rfl hz
  | succ n => rfl

/-- What the launch hands the region, with the two scratch operands as memrefs owned at some contents. -/
theorem PhiA0_eq (c : Dev nD) :
    (Pipeline.ΦA spec0 c : sProp 𝕄)
      = iprop(iprop((∃ d, owns (c : Thread nD τ) scAcc fullShare d) ∗ (∃ d, owns (c : Thread nD τ) scCe fullShare d)) ∗ (∃ r, prngReg c r)) := by
  unfold Pipeline.ΦA; rw [scopedRest0_eq]; simp only [scAcc, scCe, owns_whole]; try rfl

/-- The proof data on core c: the arrays as the region finds them; after the body at t the two big inputs' buffers
    at their fetched blocks over zero words, the small inputs' at their blocks, the output's at the lane block's row;
    the invariant PhiS; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xbuf m c t
    | ⟨1, _⟩ => wbuf m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = xbuf m c t := by dsimp only [dats]
theorem after0_1 (c : Dev nD) (t : Fin cfg0.N) : (dats m 0 c).after 1 t = wbuf m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = outAt m c t := by dsimp only [dats]

/-- The two big inputs are fetched at every point: the body finds the block's part inside the array over whatever
    the buffer held (d). -/
theorem before0_0 (c : Dev nD) (t : Fin cfg0.N) (d) :
    (dats m 0 c).before 0 t d = win0_0.fill (grid0.coords t) d (iblk m c 0 t) :=
  ((dats m 0 c).before_fetched 0 t (fetch0_0 t) d).trans (by unfold Dat.fetched Dat.blockOf iblk; rw [A_eq]; try rfl)
theorem before0_1 (c : Dev nD) (t : Fin cfg0.N) (d) :
    (dats m 0 c).before 1 t d = win0_1.fill (grid0.coords t) d (iblk m c 1 t) :=
  ((dats m 0 c).before_fetched 1 t (fetch0_1 t) d).trans (by unfold Dat.fetched Dat.blockOf iblk; rw [A_eq]; try rfl)
/-- The small inputs hold their blocks at every point, fetched there or not. -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- What the obligation asks of each buffer after the body. The big inputs: their block on the moved part, anything
    past it; -/
theorem leaves0_0 (c : Dev nD) (t : Fin cfg0.N) :
    (dats m 0 c).leaves 0 t = iprop(∃ d, owns (c : Thread nD τ) (ms0 t) fullShare (win0_0.fill (grid0.coords t) d (iblk m c 0 t))) := by
  unfold Dat.leaves; rw [live0_0 t, after0_0]; unfold xbuf; dsimp only; simp only [Window.cut_fill]; rfl
theorem leaves0_1 (c : Dev nD) (t : Fin cfg0.N) :
    (dats m 0 c).leaves 1 t = iprop(∃ d, owns (c : Thread nD τ) (ms1 t) fullShare (win0_1.fill (grid0.coords t) d (iblk m c 1 t))) := by
  unfold Dat.leaves; rw [live0_1 t, after0_1]; unfold wbuf; dsimp only; simp only [Window.cut_fill]; rfl
/-- the small inputs: their blocks; -/
theorem leaves0_2 (c : Dev nD) (t : Fin cfg0.N) :
    (dats m 0 c).leaves 2 t = owns (c : Thread nD τ) (ms2 t) fullShare (iblk m c 2 t) := by
  unfold Dat.leaves; rw [live0_2 t, after0_2]
theorem leaves0_3 (c : Dev nD) (t : Fin cfg0.N) :
    (dats m 0 c).leaves 3 t = owns (c : Thread nD τ) (ms3 t) fullShare (iblk m c 3 t) := by
  unfold Dat.leaves; rw [live0_3 t, after0_3]
theorem leaves0_4 (c : Dev nD) (t : Fin cfg0.N) :
    (dats m 0 c).leaves 4 t = owns (c : Thread nD τ) (ms4 t) fullShare (iblk m c 4 t) := by
  unfold Dat.leaves; rw [live0_4 t, after0_4]
theorem leaves0_5 (c : Dev nD) (t : Fin cfg0.N) :
    (dats m 0 c).leaves 5 t = owns (c : Thread nD τ) (ms5 t) fullShare (iblk m c 5 t) := by
  unfold Dat.leaves; rw [live0_5 t, after0_5]
theorem leaves0_6 (c : Dev nD) (t : Fin cfg0.N) :
    (dats m 0 c).leaves 6 t = owns (c : Thread nD τ) (ms6 t) fullShare (iblk m c 6 t) := by
  unfold Dat.leaves; rw [live0_6 t, after0_6]
theorem leaves0_7 (c : Dev nD) (t : Fin cfg0.N) :
    (dats m 0 c).leaves 7 t = owns (c : Thread nD τ) (ms7 t) fullShare (iblk m c 7 t) := by
  unfold Dat.leaves; rw [live0_7 t, after0_7]
theorem leaves0_8 (c : Dev nD) (t : Fin cfg0.N) :
    (dats m 0 c).leaves 8 t = owns (c : Thread nD τ) (ms8 t) fullShare (iblk m c 8 t) := by
  unfold Dat.leaves; rw [live0_8 t, after0_8]
theorem leaves0_9 (c : Dev nD) (t : Fin cfg0.N) :
    (dats m 0 c).leaves 9 t = owns (c : Thread nD τ) (ms9 t) fullShare (iblk m c 9 t) := by
  unfold Dat.leaves; rw [live0_9 t, after0_9]
/-- the output: at k = 48 the lane block's row; elsewhere what the body found. -/
theorem leaves0_10_last (c : Dev nD) (t : Fin cfg0.N) (h : t.val % 49 = 48) :
    (dats m 0 c).leaves 10 t = owns (c : Thread nD τ) (ms10 t) fullShare (outAt m c t) := by
  unfold Dat.leaves; rw [live0_10 t h, after0_10]
theorem leaves0_10_idle (c : Dev nD) (t : Fin cfg0.N) (h : ¬t.val % 49 = 48) :
    (dats m 0 c).leaves 10 t = iprop(∃ d, owns (c : Thread nD τ) (ms10 t) fullShare ((dats m 0 c).before 10 t d)) :=
  (dats m 0 c).leaves_idle 10 t (idle0_10 t h) (noFlush0_10 t h)

end Cert.Kernel.Mlp

end
-- ==== Proof.MlpBits.Tail.lean ====
import proofs.«134165_g26456998544025_cont_9to1_950_18_alg».proof.Proof.MlpBits.Cases
import Idealize.ShloMosaic.Lib.ValueIdx
import Idealize.ShloMosaic.Lib.Pipeline.Value
import Idealize.ShloMosaic.Lib.StableHlo.Predicate

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The unnamed tail of a cut block does not reach the results

Away from k = 48 the two big windows are fetched whole, so the staging buffer after the fetch does not depend on what
it held before. At k = 48 the fetch fills only the first 1696 contraction indices; the body selects zero wherever the
contraction index is 1696 or more, on both operands, before anything else reads them, so the accumulator's update is
the same whatever words sit past the array's end. -/

theorem fill0_whole (t : Fin cfg0.N) (h : ¬t.val % 49 = 48) (d d' : Vec F S2048x512 .f32)
    (g : ((cfg0.win 0).xblock (grid0.coords t)).Idx → Elt F .f32) :
    win0_0.fill (grid0.coords t) d g = win0_0.fill (grid0.coords t) d' g :=
  Pipeline.fill_of_clip_none (cfg := cfg0) 0 (grid0.coords t) (whole0_0 t h) d d' g

theorem fill1_whole (t : Fin cfg0.N) (h : ¬t.val % 49 = 48) (d d' : Vec F S64x2048 .f32)
    (g : ((cfg0.win 1).xblock (grid0.coords t)).Idx → Elt F .f32) :
    win0_1.fill (grid0.coords t) d g = win0_1.fill (grid0.coords t) d' g :=
  Pipeline.fill_of_clip_none (cfg := cfg0) 1 (grid0.coords t) (whole0_1 t h) d d' g

/-! ## The mask

A coordinate below 2048 compared, as a signed 32-bit word, with 1696: the bit is set exactly below 1696. -/

theorem slt_1696 (n : ℕ) (hn : n < 2048) : IntOp.cmpi .slt (BitVec.ofNat 32 n) 1696#32 = 1#1 ↔ n < 1696 := by
  have hmod : (BitVec.ofNat 32 n).toNat = n := by
    rw [BitVec.toNat_ofNat]; exact Nat.mod_eq_of_lt (by omega)
  rw [StableHlo.Predicate.slt_iff_toNat (by rw [hmod]; omega) (by decide), hmod]
  rfl

/-- Two vectors that agree wherever the condition's bit is set are selected alike against any third. -/
theorem select_congr_on {s : Shape} {α : Type} (c : IVec s 1) (X Y z : s.Idx → α)
    (hXY : ∀ j, c j = 1#1 → X j = Y j) : select c X z = select c Y z := by
  funext j
  show Scalar.select (c j) (X j) (z j) = Scalar.select (c j) (Y j) (z j)
  by_cases hc : c j = 1#1
  · rw [hc, ValueIdx.select_one, ValueIdx.select_one]; exact hXY j hc
  · rw [ValueIdx.eq_zero_of_ne_one hc, ValueIdx.select_zero, ValueIdx.select_zero]

/-- The activation block's mask: set exactly on the rows below 1696. -/
theorem rowMask_iff (hi : S2048x512.Iotas .tc 32 [0]) (j : S2048x512.Idx) :
    cmpi .slt (iota .tc S2048x512 32 [0] hi) (broadcast S2048x512 1696#32) j = 1#1 ↔ (j 0).val < 1696 := by
  show IntOp.cmpi .slt (iota .tc S2048x512 32 [0] hi j) 1696#32 = 1#1 ↔ _
  rw [iota_single_apply]
  exact slt_1696 _ (j 0).isLt

/-- The weight block's mask: set exactly on the columns below 1696. -/
theorem colMask_iff (hi : S64x2048.Iotas .tc 32 [1]) (j : S64x2048.Idx) :
    cmpi .slt (iota .tc S64x2048 32 [1] hi) (broadcast S64x2048 1696#32) j = 1#1 ↔ (j 1).val < 1696 := by
  show IntOp.cmpi .slt (iota .tc S64x2048 32 [1] hi j) 1696#32 = 1#1 ↔ _
  rw [iota_single_apply]
  exact slt_1696 _ (j 1).isLt

/-- The masked block product reads its two big operands only on the first 1696 contraction indices. -/
theorem pay5_congr (x x' : Vec F S2048x512 .f32) (w w' : Vec F S64x2048 .f32) (a : Vec F S64x512 .f32)
    (hx : ∀ j : S2048x512.Idx, (j 0).val < 1696 → x j = x' j)
    (hw : ∀ j : S64x2048.Idx, (j 1).val < 1696 → w j = w' j) :
    k0_pay5 x w a = k0_pay5 x' w' a := by
  unfold k0_pay5
  dsimp only
  rw [shapeCast_self x, shapeCast_self x', shapeCast_self w, shapeCast_self w']
  rw [select_congr_on _ x x' _ fun j hj => hx j ((rowMask_iff _ j).mp hj),
    select_congr_on _ w w' _ fun j hj => hw j ((colMask_iff _ j).mp hj)]

/-! ## The two cut fetches -/

/-- At k = 48 the activation block's fetch fixes every row below 1696, whatever the buffer held. -/
theorem fill0_low (t : Fin cfg0.N) (h : t.val % 49 = 48) (d d' : Vec F S2048x512 .f32)
    (g : ((cfg0.win 0).xblock (grid0.coords t)).Idx → Elt F .f32) (j : S2048x512.Idx) (hj : (j 0).val < 1696) :
    win0_0.fill (grid0.coords t) d g j = win0_0.fill (grid0.coords t) d' g j := by
  have hm : win0_0.moved (grid0.coords t) j = true := by
    rw [Window.moved_iff]
    refine (Fin.forall_fin_two (p := fun b => (j b).val < win0_0.xsize (grid0.coords t) b)).mpr ⟨?_, ?_⟩
    · exact lt_of_lt_of_eq hj (xsize0_0 t h 0).symm
    · exact lt_of_lt_of_eq (j 1).isLt (xsize0_0 t h 1).symm
  unfold Window.fill
  rw [dif_pos hm, dif_pos hm]

/-- At k = 48 the weight block's fetch fixes every column below 1696, whatever the buffer held. -/
theorem fill1_low (t : Fin cfg0.N) (h : t.val % 49 = 48) (e e' : Vec F S64x2048 .f32)
    (g : ((cfg0.win 1).xblock (grid0.coords t)).Idx → Elt F .f32) (j : S64x2048.Idx) (hj : (j 1).val < 1696) :
    win0_1.fill (grid0.coords t) e g j = win0_1.fill (grid0.coords t) e' g j := by
  have hm : win0_1.moved (grid0.coords t) j = true := by
    rw [Window.moved_iff]
    refine (Fin.forall_fin_two (p := fun b => (j b).val < win0_1.xsize (grid0.coords t) b)).mpr ⟨?_, ?_⟩
    · exact lt_of_lt_of_eq (j 0).isLt (xsize0_1 t h 0).symm
    · exact lt_of_lt_of_eq hj (xsize0_1 t h 1).symm
  unfold Window.fill
  rw [dif_pos hm, dif_pos hm]

/-- At k = 48 the masked block product, and with it the accumulator's update, is the same for any two fillers of
    the two cut buffers. -/
theorem pay5_tail (t : Fin cfg0.N) (h : t.val % 49 = 48) (d d' : Vec F S2048x512 .f32) (e e' : Vec F S64x2048 .f32)
    (xb : ((cfg0.win 0).xblock (grid0.coords t)).Idx → Elt F .f32) (wb : ((cfg0.win 1).xblock (grid0.coords t)).Idx → Elt F .f32)
    (a : Vec F S64x512 .f32) :
    k0_pay5 (win0_0.fill (grid0.coords t) d xb) (win0_1.fill (grid0.coords t) e wb) a
      = k0_pay5 (win0_0.fill (grid0.coords t) d' xb) (win0_1.fill (grid0.coords t) e' wb) a :=
  pay5_congr _ _ _ _ a (fun j hj => fill0_low t h d d' xb j hj) (fun j hj => fill1_low t h e e' wb j hj)

end Cert.Kernel.Mlp

end
-- ==== Proof.MlpBits.Body.lean ====
import proofs.«134165_g26456998544025_cont_9to1_950_18_alg».proof.Proof.MlpBits.Runs
import proofs.«134165_g26456998544025_cont_9to1_950_18_alg».proof.Proof.MlpBits.Data
import proofs.«134165_g26456998544025_cont_9to1_950_18_alg».proof.Proof.MlpBits.Tail

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body obligation, the launch and the frame

At every grid point the body, called on the current staging buffers and the two scratch buffers, takes the invariant
before the point to the invariant after it and leaves every window's buffer as the proof data says: by cases on the
step k of the point inside its lane block (first, middle, last), each case one of the three runs. The big inputs'
buffers are handed over with whatever lay past the fetched part and handed back untouched; away from k = 48 nothing
lies past it, and at k = 48 the results do not depend on it. Then the launch: every weakly fair execution of the
program terminates with the pipeline's arrays at what the proof data computes and the arguments unchanged. -/

variable (m : (ℓ : Loc nD τ sig) → Buf (Elt F) ℓ) (ρ : Dev nD → PrngReg)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t
    ∗ (dats m 0 c).leaves 10 t)

set_option maxHeartbeats 4000000 in
/-- The first step of a lane block, at the very first point: the scratch buffers hold anything. -/
theorem sound_first0 (c : Dev nD) (t : Fin cfg0.N) (h0 : t.val % 49 = 0) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, leaves0_0, leaves0_1, leaves0_2, leaves0_3, leaves0_4, leaves0_5, leaves0_6, leaves0_7, leaves0_8, leaves0_9]
  rw [show (dats m 0 c).owesAt () t.succ = (dats m 0 c).owesAt () t.castSucc from rfl]
  rw [show (dats m 0 c).Φ t.succ = PhiS m c (t.val + 1) t.isLt from rfl, PhiS_succ, PhiS_castSucc m c t]
  have hN : t.val < 98 := lt_of_lt_of_eq t.isLt (show cfg0.N = 98 from N_0)
  have h1 : ¬t.val % 49 = 48 := by omega
  rw [leaves0_10_idle m c t h1, scAt_first m c t h0]
  unfold xbuf wbuf
  rw [PhiS_zero m c _ _ hz, PhiA0_eq]
  iintro ⟨⟨⟨⟨%a, HA⟩, ⟨%e, HE⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [fill0_whole t h1 d0 (fun _ => Scalar.ofBits .f32 0#32) (iblk m c 0 t), fill1_whole t h1 d1 (fun _ => Scalar.ofBits .f32 0#32) (iblk m c 1 t)]
  iapply (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scAcc (Memref.isWhole_whole _) scCe (Memref.isWhole_whole _) ((hInit t).mpr h0) ((hFull t).mpr h1) (fun h => h1 ((hLast t).mp h))
    (win0_0.fill (grid0.coords t) (fun _ => Scalar.ofBits .f32 0#32) (iblk m c 0 t)) (win0_1.fill (grid0.coords t) (fun _ => Scalar.ofBits .f32 0#32) (iblk m c 1 t))
    (iblk m c 2 t) (iblk m c 3 t) (iblk m c 5 t) a e Set.univ _)
  isplitl [H0]; · iexact H0
  isplitl [H1]; · iexact H1
  isplitl [H2]; · iexact H2
  isplitl [H3]; · iexact H3
  isplitl [H5]; · iexact H5
  isplitl [HA]; · iexact HA
  isplitl [HE]; · iexact HE
  iintro ⟨H0, H1, H2, H3, H5, HA, HE⟩
  isplitl [HA HE Hg]
  · isplitl [HA HE]
    · isplitl [HA]; · iexact HA
      iexact HE
    iexact Hg
  isplitl [Ho]; · iexact Ho
  isplitl [H0]; · iexists _; iexact H0
  isplitl [H1]; · iexists _; iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

set_option maxHeartbeats 4000000 in
/-- The first step of the second lane block: the scratch buffers hold what the first block left, and are overwritten. -/
theorem sound_first1 (c : Dev nD) (t : Fin cfg0.N) (h0 : t.val % 49 = 0) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, leaves0_0, leaves0_1, leaves0_2, leaves0_3, leaves0_4, leaves0_5, leaves0_6, leaves0_7, leaves0_8, leaves0_9]
  rw [show (dats m 0 c).owesAt () t.succ = (dats m 0 c).owesAt () t.castSucc from rfl]
  rw [show (dats m 0 c).Φ t.succ = PhiS m c (t.val + 1) t.isLt from rfl, PhiS_succ, PhiS_castSucc m c t]
  have hN : t.val < 98 := lt_of_lt_of_eq t.isLt (show cfg0.N = 98 from N_0)
  have h1 : ¬t.val % 49 = 48 := by omega
  rw [leaves0_10_idle m c t h1, scAt_first m c t h0]
  unfold xbuf wbuf
  rw [PhiS_pos m c _ _ hz]
  iintro ⟨⟨⟨HA, HE⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [fill0_whole t h1 d0 (fun _ => Scalar.ofBits .f32 0#32) (iblk m c 0 t), fill1_whole t h1 d1 (fun _ => Scalar.ofBits .f32 0#32) (iblk m c 1 t)]
  iapply (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scAcc (Memref.isWhole_whole _) scCe (Memref.isWhole_whole _) ((hInit t).mpr h0) ((hFull t).mpr h1) (fun h => h1 ((hLast t).mp h))
    (win0_0.fill (grid0.coords t) (fun _ => Scalar.ofBits .f32 0#32) (iblk m c 0 t)) (win0_1.fill (grid0.coords t) (fun _ => Scalar.ofBits .f32 0#32) (iblk m c 1 t))
    (iblk m c 2 t) (iblk m c 3 t) (iblk m c 5 t) _ _ Set.univ _)
  isplitl [H0]; · iexact H0
  isplitl [H1]; · iexact H1
  isplitl [H2]; · iexact H2
  isplitl [H3]; · iexact H3
  isplitl [H5]; · iexact H5
  isplitl [HA]; · iexact HA
  isplitl [HE]; · iexact HE
  iintro ⟨H0, H1, H2, H3, H5, HA, HE⟩
  isplitl [HA HE Hg]
  · isplitl [HA HE]
    · isplitl [HA]; · iexact HA
      iexact HE
    iexact Hg
  isplitl [Ho]; · iexact Ho
  isplitl [H0]; · iexists _; iexact H0
  isplitl [H1]; · iexists _; iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

set_option maxHeartbeats 4000000 in
/-- A middle step: the accumulator gains the block product. -/
theorem sound_mid (c : Dev nD) (t : Fin cfg0.N) (h0 : ¬t.val % 49 = 0) (h1 : ¬t.val % 49 = 48) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, leaves0_0, leaves0_1, leaves0_2, leaves0_3, leaves0_4, leaves0_5, leaves0_6, leaves0_7, leaves0_8, leaves0_9]
  rw [show (dats m 0 c).owesAt () t.succ = (dats m 0 c).owesAt () t.castSucc from rfl]
  rw [show (dats m 0 c).Φ t.succ = PhiS m c (t.val + 1) t.isLt from rfl, PhiS_succ, PhiS_castSucc m c t]
  have hN : t.val < 98 := lt_of_lt_of_eq t.isLt (show cfg0.N = 98 from N_0)
  have hz : t.val ≠ 0 := fun h => h0 (by rw [h])
  rw [leaves0_10_idle m c t h1, scAt_mid m c t h0 h1]
  unfold xbuf wbuf
  rw [PhiS_pos m c _ _ hz]
  iintro ⟨⟨⟨HA, HE⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [fill0_whole t h1 d0 (fun _ => Scalar.ofBits .f32 0#32) (iblk m c 0 t), fill1_whole t h1 d1 (fun _ => Scalar.ofBits .f32 0#32) (iblk m c 1 t)]
  iapply (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scAcc (Memref.isWhole_whole _) scCe (Memref.isWhole_whole _) (fun h => h0 ((hInit t).mp h)) ((hFull t).mpr h1) (fun h => h1 ((hLast t).mp h))
    (win0_0.fill (grid0.coords t) (fun _ => Scalar.ofBits .f32 0#32) (iblk m c 0 t)) (win0_1.fill (grid0.coords t) (fun _ => Scalar.ofBits .f32 0#32) (iblk m c 1 t)) _ Set.univ _)
  isplitl [H0]; · iexact H0
  isplitl [H1]; · iexact H1
  isplitl [HA]; · iexact HA
  iintro ⟨H0, H1, HA⟩
  isplitl [HA HE Hg]
  · isplitl [HA HE]
    · isplitl [HA]; · iexact HA
      iexact HE
    iexact Hg
  isplitl [Ho]; · iexact Ho
  isplitl [H0]; · iexists _; iexact H0
  isplitl [H1]; · iexists _; iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

/-- At k = 48 the masked block product over the buffers as the body finds them, whatever lies past the fetched part,
    is the one over the named buffers. -/
theorem pay5_buf (c : Dev nD) (t : Fin cfg0.N) (h1 : t.val % 49 = 48) (d0 : Vec F S2048x512 .f32) (d1 : Vec F S64x2048 .f32) (a : Vec F S64x512 .f32) :
    k0_pay5 (win0_0.fill (grid0.coords t) d0 (iblk m c 0 t)) (win0_1.fill (grid0.coords t) d1 (iblk m c 1 t)) a
      = k0_pay5 (xbuf m c t) (wbuf m c t) a :=
  pay5_tail t h1 d0 (fun _ => Scalar.ofBits .f32 0#32) d1 (fun _ => Scalar.ofBits .f32 0#32) (iblk m c 0 t) (iblk m c 1 t) a

set_option maxHeartbeats 4000000 in
/-- The last step: the accumulator gains the masked product of the cut blocks and the output row is stored; neither
    depends on what lies past the fetched part of the two big buffers. -/
theorem sound_last (c : Dev nD) (t : Fin cfg0.N) (h1 : t.val % 49 = 48) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, leaves0_0, leaves0_1, leaves0_2, leaves0_3, leaves0_4, leaves0_5, leaves0_6, leaves0_7, leaves0_8, leaves0_9]
  rw [show (dats m 0 c).owesAt () t.succ = (dats m 0 c).owesAt () t.castSucc from rfl]
  rw [show (dats m 0 c).Φ t.succ = PhiS m c (t.val + 1) t.isLt from rfl, PhiS_succ, PhiS_castSucc m c t]
  have hN : t.val < 98 := lt_of_lt_of_eq t.isLt (show cfg0.N = 98 from N_0)
  have h0 : ¬t.val % 49 = 0 := by omega
  have hz : t.val ≠ 0 := fun h => h0 (by rw [h])
  rw [leaves0_10_last m c t h1]
  unfold outAt
  rw [scAt_last m c t h1]
  rw [PhiS_pos m c _ _ hz]
  iintro ⟨⟨⟨HA, HE⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [← pay5_buf m c t h1 d0 d1]
  iapply (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scAcc (Memref.isWhole_whole _) scCe (Memref.isWhole_whole _) (fun h => h0 ((hInit t).mp h)) (fun h => (hFull t).mp h h1) ((hLast t).mpr h1)
    (win0_0.fill (grid0.coords t) d0 (iblk m c 0 t)) (win0_1.fill (grid0.coords t) d1 (iblk m c 1 t))
    (iblk m c 4 t) (iblk m c 6 t) (iblk m c 7 t) (iblk m c 8 t) (iblk m c 9 t) _ _ _ Set.univ _)
  isplitl [H0]; · iexact H0
  isplitl [H1]; · iexact H1
  isplitl [H4]; · iexact H4
  isplitl [H6]; · iexact H6
  isplitl [H7]; · iexact H7
  isplitl [H8]; · iexact H8
  isplitl [H9]; · iexact H9
  isplitl [H10]; · iexact H10
  isplitl [HA]; · iexact HA
  isplitl [HE]; · iexact HE
  iintro ⟨H0, H1, H4, H6, H7, H8, H9, H10, HA, HE⟩
  isplitl [HA HE Hg]
  · isplitl [HA HE]
    · isplitl [HA]; · iexact HA
      iexact HE
    iexact Hg
  isplitl [Ho]; · iexact Ho
  isplitl [H0]; · iexists _; iexact H0
  isplitl [H1]; · iexists _; iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h1 : t.val % 49 = 48
  · exact sound_last m c t h1
  · by_cases h0 : t.val % 49 = 0
    · by_cases hz : t.val = 0
      · exact sound_first0 m c t h0 hz
      · exact sound_first1 m c t h0 hz
    · exact sound_mid m c t h0 h1

/-- The library's body obligation, at every point. -/
theorem body_obligation (c : Dev nD) : Pipeline.BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives back what the launch handed over: the scratch contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HA, HE⟩, Hg⟩
  isplitl [HA HE]
  · isplitl [HA]; · iexists _; iexact HA
    iexists _; iexact HE
  iexact Hg

theorem hout (c : Dev nD) : (dats m 0 c).Φ (Fin.last cfg0.N) ⊢ Pipeline.ΦA spec0 c :=
  Phi_out m c _ (by rw [Fin.val_last]; have : cfg0.N = 98 := N_0; omega)

set_option backward.isDefEq.respectTransparency.types false in
/-- From any memory with zero counters every weakly fair execution of the program terminates; the pipeline's arrays end
    at what the proof data computes and every other unscoped buffer as the closing host operation leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.Kernel.Mlp

end
-- ==== Proof.MlpIdeal.Cases.lean ====
import proofs.«134165_g26456998544025_cont_9to1_950_18_alg».proof.Proof.Gen.KernelIdeal.Frame
import proofs.«134165_g26456998544025_cont_9to1_950_18_alg».proof.Proof.Gen.KernelIdeal.Skeleton

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The grid's three kinds of point

The grid is 2 × 49, walked row by row: point t is lane block t / 49 at contraction step k = t % 49. The body's
three conditions are functions of k alone; decided here once over the 98 points, with what the pipeline does to
the output window and where the two big input windows are cut at the array's end (only at k = 48, where the last
contraction block holds 1696 of its 2048 indices). -/

abbrev condInit (i : grid0.Coords) : Prop := (Scalar.cmpi .ne (Scalar.extui (Scalar.cmpi .eq (BitVec.ofNat 32 (i 1).val) 0#32)) 0#32) = 1#1
abbrev condFull (i : grid0.Coords) : Prop := (Scalar.cmpi .ne (Scalar.extui (Scalar.cmpi .slt (BitVec.ofNat 32 (i 1).val) 48#32)) 0#32) = 1#1
abbrev condLast (i : grid0.Coords) : Prop := k0_cond3 i = 1#1

theorem hInit : ∀ t : Fin cfg0.N, condInit (grid0.coords t) ↔ t.val % 49 = 0 :=
  (by decide +kernel : ∀ t : Fin grid0.N, condInit (grid0.coords t) ↔ t.val % 49 = 0)
theorem hFull : ∀ t : Fin cfg0.N, condFull (grid0.coords t) ↔ ¬t.val % 49 = 48 :=
  (by decide +kernel : ∀ t : Fin grid0.N, condFull (grid0.coords t) ↔ ¬t.val % 49 = 48)
theorem hLast : ∀ t : Fin cfg0.N, condLast (grid0.coords t) ↔ t.val % 49 = 48 :=
  (by decide +kernel : ∀ t : Fin grid0.N, condLast (grid0.coords t) ↔ t.val % 49 = 48)

/-- No input window is ever idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
theorem live0_5 : ∀ t : Fin cfg0.N, cfg0.idle 5 (grid0.coords t) = false := by decide +kernel
theorem live0_6 : ∀ t : Fin cfg0.N, cfg0.idle 6 (grid0.coords t) = false := by decide +kernel
theorem live0_7 : ∀ t : Fin cfg0.N, cfg0.idle 7 (grid0.coords t) = false := by decide +kernel
theorem live0_8 : ∀ t : Fin cfg0.N, cfg0.idle 8 (grid0.coords t) = false := by decide +kernel
theorem live0_9 : ∀ t : Fin cfg0.N, cfg0.idle 9 (grid0.coords t) = false := by decide +kernel
/-- The output window is idle away from k = 48, and not written back there; -/
theorem idle0_10 : ∀ t : Fin cfg0.N, ¬t.val % 49 = 48 → cfg0.idle 10 (grid0.coords t) = true := by decide +kernel
theorem noFlush0_10 : ∀ t : Fin cfg0.N, ¬t.val % 49 = 48 → (cfg0.win 10).flush t = false := by decide +kernel
/-- live at k = 48. -/
theorem live0_10 : ∀ t : Fin cfg0.N, t.val % 49 = 48 → cfg0.idle 10 (grid0.coords t) = false := by decide +kernel

/-- Away from k = 48 the two big input windows are fetched whole; -/
theorem whole0_0 : ∀ t : Fin cfg0.N, ¬t.val % 49 = 48 → ∀ a, (cfg0.win 0).clip (grid0.coords t) a = none := by decide +kernel
theorem whole0_1 : ∀ t : Fin cfg0.N, ¬t.val % 49 = 48 → ∀ a, (cfg0.win 1).clip (grid0.coords t) a = none := by decide +kernel
/-- at k = 48 the fetch moves 1696 contraction indices: rows of the activation block, columns of the weight block. -/
theorem xsize0_0 : ∀ t : Fin cfg0.N, t.val % 49 = 48 → ∀ a, (cfg0.win 0).xsize (grid0.coords t) a = (![1696, 512] : Fin 2 → ℕ) a := by decide +kernel
theorem xsize0_1 : ∀ t : Fin cfg0.N, t.val % 49 = 48 → ∀ a, (cfg0.win 1).xsize (grid0.coords t) a = (![64, 1696] : Fin 2 → ℕ) a := by decide +kernel

end Cert.KernelIdeal.Mlp

end
-- ==== Proof.MlpIdeal.Runs.lean ====
import proofs.«134165_g26456998544025_cont_9to1_950_18_alg».proof.Proof.MlpIdeal.Cases
import Idealize.ShloMosaic.Lib.Pipeline.Value

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The kernel body, case by case

The body branches three times on the position k along the contraction axis of the grid (coordinate 1):
at k = 0 it clears the accumulator scratch and stores the compound embedding into the second scratch;
while k < 48 it adds the product of the current weight and activation blocks to the accumulator;
at k = 48 it adds the product of the two blocks with everything past contraction index 1696 replaced
by zero, and computes the output row from the accumulator, the second scratch and the small operands.
Each theorem below runs the body on arbitrary whole memrefs at arbitrary contents in one of the three
combinations of the conditions the grid meets, and says which buffers change and to which payload. -/

theorem zeros2 : (![0, 0] : Fin 2 → ℕ) = fun _ => 0 := funext fun a => by fin_cases a <;> rfl

set_option maxHeartbeats 2000000 in
/-- k = 0: the accumulator ends at the first block product over a cleared accumulator, the second scratch at the
    compound embedding; whatever the two scratch buffers held before is overwritten. -/
theorem runFirst (c : Dev nD) (i : grid0.Coords) (arg2 : Memref sig .tc .vmem S2048x512 .f32) (harg2 : arg2.IsWhole) (arg3 : Memref sig .tc .vmem S64x2048 .f32) (harg3 : arg3.IsWhole) (arg4 : Memref sig .tc .vmem S1000x512 .f32) (harg4 : arg4.IsWhole) (arg5 : Memref sig .tc .vmem S64x1000 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S64x128 .f32) (harg8 : arg8.IsWhole) (arg9 : Memref sig .tc .vmem S64x1 .f32) (harg9 : arg9.IsWhole) (arg10 : Memref sig .tc .vmem S1x64 .f32) (harg10 : arg10.IsWhole) (arg11 : Memref sig .tc .vmem S1x1 .f32) (harg11 : arg11.IsWhole) (arg12 : Memref sig .tc .vmem S1x512 .f32) (harg12 : arg12.IsWhole) (arg13 : Memref sig .tc .vmem S64x512 .f32) (harg13 : arg13.IsWhole) (arg14 : Memref sig .tc .vmem S64x512 .f32) (harg14 : arg14.IsWhole)
    (hc1 : condInit i) (hc2 : condFull i) (hc3 : ¬condLast i)
    (x0 : Vec F S2048x512 .f32) (x1 : Vec F S64x2048 .f32) (ct : Vec F S1000x512 .f32) (cw : Vec F S64x1000 .f32) (cb : Vec F S64x1 .f32)
    (a : Vec F S64x512 .f32) (e : Vec F S64x512 .f32) (E : Set ℕ) (K : PUnit → sProp 𝕄) :
    iprop(owns (c : Thread nD τ) arg2 fullShare x0 ∗ owns (c : Thread nD τ) arg3 fullShare x1 ∗ owns (c : Thread nD τ) arg4 fullShare ct ∗ owns (c : Thread nD τ) arg5 fullShare cw ∗ owns (c : Thread nD τ) arg7 fullShare cb ∗ owns (c : Thread nD τ) arg13 fullShare a ∗ owns (c : Thread nD τ) arg14 fullShare e
        ∗ (iprop(owns (c : Thread nD τ) arg2 fullShare x0 ∗ owns (c : Thread nD τ) arg3 fullShare x1 ∗ owns (c : Thread nD τ) arg4 fullShare ct ∗ owns (c : Thread nD τ) arg5 fullShare cw ∗ owns (c : Thread nD τ) arg7 fullShare cb ∗ owns (c : Thread nD τ) arg13 fullShare (k0_pay3 k0_pay1 x1 x0) ∗ owns (c : Thread nD τ) arg14 fullShare (k0_pay2 cw ct cb)) -∗ K ⟨⟩))
      ⊢ wp frame (wpE (defs₀ (F := F)) Variants.none c none) E (cc0__mlp_kernel i arg2 harg2 arg3 harg3 arg4 harg4 arg5 harg5 arg6 harg6 arg7 harg7 arg8 harg8 arg9 harg9 arg10 harg10 arg11 harg11 arg12 harg12 arg13 harg13 arg14 harg14) K := by
  simp only [cc0__mlp_kernel_eq_skeleton]; unfold cc0__mlp_kernel_skel
  unfold owns
  iintro ⟨⟨%f2, %hf2, H2⟩, ⟨%f3, %hf3, H3⟩, ⟨%f4, %hf4, H4⟩, ⟨%f5, %hf5, H5⟩, ⟨%f7, %hf7, H7⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg7.eq_unread hf7
  obtain rfl := harg13.eq_unread hf13; obtain rfl := harg14.eq_unread hf14
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H7]
  · iexists _; isplitr; · ipureintro; exact harg7.read_unread _
    iexact H7
  isplitl [H13]
  · iexists _; isplitr
    swap; · iexact H13
    ipureintro
    sl_unfold_words
    rw [View.read_writes_eq_canon _ _ _ (fun y => ⟨_, List.mem_cons_self .., View.mem_set_unit_zero (S := S64x512) zeros2 inb_S64x512_S64x512_0_0 y⟩),
      View.canon_cons_unit_zero (S := S64x512) zeros2 inb_S64x512_S64x512_0_0]
    simp only [View.readAt_eq_ld, harg3.read_unread, harg2.read_unread, View.ld_unit_zero (S := S64x2048) zeros2, View.ld_unit_zero (S := S2048x512) zeros2,
      View.readCov_unit_zero (S := S64x512) _ zeros2]
  iexists _; isplitr
  swap; · iexact H14
  ipureintro
  rw [View.read_writes_eq_canon _ _ _ (fun y => ⟨_, List.mem_singleton_self _, View.mem_set_unit_zero (S := S64x512) zeros2 inb_S64x512_S64x512_0_0 y⟩),
    View.canon_unit_zero (S := S64x512) zeros2 inb_S64x512_S64x512_0_0]
  simp only [View.readAt_eq_ld, harg5.read_unread, harg4.read_unread, harg7.read_unread, View.ld_unit_zero (S := S64x1000) zeros2, View.ld_unit_zero (S := S1000x512) zeros2,
    View.ld_unit_zero (S := S64x1) zeros2]

set_option maxHeartbeats 1000000 in
/-- 0 < k < 48: the accumulator gains the product of the two current blocks; nothing else changes. -/
theorem runMid (c : Dev nD) (i : grid0.Coords) (arg2 : Memref sig .tc .vmem S2048x512 .f32) (harg2 : arg2.IsWhole) (arg3 : Memref sig .tc .vmem S64x2048 .f32) (harg3 : arg3.IsWhole) (arg4 : Memref sig .tc .vmem S1000x512 .f32) (harg4 : arg4.IsWhole) (arg5 : Memref sig .tc .vmem S64x1000 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S64x128 .f32) (harg8 : arg8.IsWhole) (arg9 : Memref sig .tc .vmem S64x1 .f32) (harg9 : arg9.IsWhole) (arg10 : Memref sig .tc .vmem S1x64 .f32) (harg10 : arg10.IsWhole) (arg11 : Memref sig .tc .vmem S1x1 .f32) (harg11 : arg11.IsWhole) (arg12 : Memref sig .tc .vmem S1x512 .f32) (harg12 : arg12.IsWhole) (arg13 : Memref sig .tc .vmem S64x512 .f32) (harg13 : arg13.IsWhole) (arg14 : Memref sig .tc .vmem S64x512 .f32) (harg14 : arg14.IsWhole)
    (hc1 : ¬condInit i) (hc2 : condFull i) (hc3 : ¬condLast i)
    (x0 : Vec F S2048x512 .f32) (x1 : Vec F S64x2048 .f32) (a : Vec F S64x512 .f32) (E : Set ℕ) (K : PUnit → sProp 𝕄) :
    iprop(owns (c : Thread nD τ) arg2 fullShare x0 ∗ owns (c : Thread nD τ) arg3 fullShare x1 ∗ owns (c : Thread nD τ) arg13 fullShare a
        ∗ (iprop(owns (c : Thread nD τ) arg2 fullShare x0 ∗ owns (c : Thread nD τ) arg3 fullShare x1 ∗ owns (c : Thread nD τ) arg13 fullShare (k0_pay3 a x1 x0)) -∗ K ⟨⟩))
      ⊢ wp frame (wpE (defs₀ (F := F)) Variants.none c none) E (cc0__mlp_kernel i arg2 harg2 arg3 harg3 arg4 harg4 arg5 harg5 arg6 harg6 arg7 harg7 arg8 harg8 arg9 harg9 arg10 harg10 arg11 harg11 arg12 harg12 arg13 harg13 arg14 harg14) K := by
  simp only [cc0__mlp_kernel_eq_skeleton]; unfold cc0__mlp_kernel_skel
  unfold owns
  iintro ⟨⟨%f2, %hf2, H2⟩, ⟨%f3, %hf3, H3⟩, ⟨%f13, %hf13, H13⟩, Hk⟩
  obtain rfl := harg2.eq_unread hf2; obtain rfl := harg3.eq_unread hf3; obtain rfl := harg13.eq_unread hf13
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  iexists _; isplitr
  swap; · iexact H13
  ipureintro
  rw [View.read_writes_eq_canon _ _ _ (fun y => ⟨_, List.mem_singleton_self _, View.mem_set_unit_zero (S := S64x512) zeros2 inb_S64x512_S64x512_0_0 y⟩),
    View.canon_unit_zero (S := S64x512) zeros2 inb_S64x512_S64x512_0_0]
  simp only [View.readAt_eq_ld, harg13.read_unread, harg3.read_unread, harg2.read_unread, View.ld_unit_zero (S := S64x512) zeros2, View.ld_unit_zero (S := S64x2048) zeros2,
    View.ld_unit_zero (S := S2048x512) zeros2]

set_option maxHeartbeats 4000000 in
/-- k = 48: the accumulator gains the masked product of the two current blocks, and the output buffer is
    stored whole from the updated accumulator, the second scratch and the small operands. -/
theorem runLast (c : Dev nD) (i : grid0.Coords) (arg2 : Memref sig .tc .vmem S2048x512 .f32) (harg2 : arg2.IsWhole) (arg3 : Memref sig .tc .vmem S64x2048 .f32) (harg3 : arg3.IsWhole) (arg4 : Memref sig .tc .vmem S1000x512 .f32) (harg4 : arg4.IsWhole) (arg5 : Memref sig .tc .vmem S64x1000 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S64x128 .f32) (harg8 : arg8.IsWhole) (arg9 : Memref sig .tc .vmem S64x1 .f32) (harg9 : arg9.IsWhole) (arg10 : Memref sig .tc .vmem S1x64 .f32) (harg10 : arg10.IsWhole) (arg11 : Memref sig .tc .vmem S1x1 .f32) (harg11 : arg11.IsWhole) (arg12 : Memref sig .tc .vmem S1x512 .f32) (harg12 : arg12.IsWhole) (arg13 : Memref sig .tc .vmem S64x512 .f32) (harg13 : arg13.IsWhole) (arg14 : Memref sig .tc .vmem S64x512 .f32) (harg14 : arg14.IsWhole)
    (hc1 : ¬condInit i) (hc2 : ¬condFull i) (hc3 : condLast i)
    (x0 : Vec F S2048x512 .f32) (x1 : Vec F S64x2048 .f32) (pb : Vec F S64x1 .f32) (jw : Vec F S64x128 .f32) (jb : Vec F S64x1 .f32)
    (ow : Vec F S1x64 .f32) (ob : Vec F S1x1 .f32) (o : Vec F S1x512 .f32) (a : Vec F S64x512 .f32) (e : Vec F S64x512 .f32) (E : Set ℕ) (K : PUnit → sProp 𝕄) :
    iprop(owns (c : Thread nD τ) arg2 fullShare x0 ∗ owns (c : Thread nD τ) arg3 fullShare x1 ∗ owns (c : Thread nD τ) arg6 fullShare pb ∗ owns (c : Thread nD τ) arg8 fullShare jw ∗ owns (c : Thread nD τ) arg9 fullShare jb ∗ owns (c : Thread nD τ) arg10 fullShare ow ∗ owns (c : Thread nD τ) arg11 fullShare ob ∗ owns (c : Thread nD τ) arg12 fullShare o ∗ owns (c : Thread nD τ) arg13 fullShare a ∗ owns (c : Thread nD τ) arg14 fullShare e
        ∗ (iprop(owns (c : Thread nD τ) arg2 fullShare x0 ∗ owns (c : Thread nD τ) arg3 fullShare x1 ∗ owns (c : Thread nD τ) arg6 fullShare pb ∗ owns (c : Thread nD τ) arg8 fullShare jw ∗ owns (c : Thread nD τ) arg9 fullShare jb ∗ owns (c : Thread nD τ) arg10 fullShare ow ∗ owns (c : Thread nD τ) arg11 fullShare ob ∗ owns (c : Thread nD τ) arg12 fullShare (k0_pay4 (k0_pay7 (k0_pay5 x0 x1 a) pb jw) (k0_pay8 jw) e (constant S64x512 .f32 0x00000000#32) jb ow ob) ∗ owns (c : Thread nD τ) arg13 fullShare (k0_pay5 x0 x1 a) ∗ owns (c : Thread nD τ) arg14 fullShare e) -∗ K ⟨⟩))
      ⊢ wp frame (wpE (defs₀ (F := F)) Variants.none c none) E (cc0__mlp_kernel i arg2 harg2 arg3 harg3 arg4 harg4 arg5 harg5 arg6 harg6 arg7 harg7 arg8 harg8 arg9 harg9 arg10 harg10 arg11 harg11 arg12 harg12 arg13 harg13 arg14 harg14) K := by
  simp only [cc0__mlp_kernel_eq_skeleton]; unfold cc0__mlp_kernel_skel
  unfold owns
  iintro ⟨⟨%f2, %hf2, H2⟩, ⟨%f3, %hf3, H3⟩, ⟨%f6, %hf6, H6⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg6.eq_unread hf6; obtain rfl := harg8.eq_unread hf8; obtain rfl := harg9.eq_unread hf9
  obtain rfl := harg10.eq_unread hf10; obtain rfl := harg11.eq_unread hf11; obtain rfl := harg12.eq_unread hf12; obtain rfl := harg13.eq_unread hf13; obtain rfl := harg14.eq_unread hf14
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H6]
  · iexists _; isplitr; · ipureintro; exact harg6.read_unread _
    iexact H6
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr
    swap; · iexact H12
    ipureintro
    sl_unfold_words
    rw [View.read_writes_eq_canon _ _ _ (fun y => ⟨_, List.mem_singleton_self _, View.mem_set_unit_zero (S := S1x512) zeros2 inb_S1x512_S1x512_0_0 y⟩),
      View.canon_unit_zero (S := S1x512) zeros2 inb_S1x512_S1x512_0_0]
    simp only [View.readAt_eq_ld, harg2.read_unread, harg3.read_unread, harg6.read_unread, harg8.read_unread, harg9.read_unread, harg10.read_unread, harg11.read_unread,
      harg13.read_unread, harg14.read_unread, View.ld_unit_zero (S := S2048x512) zeros2, View.ld_unit_zero (S := S64x2048) zeros2, View.ld_unit_zero (S := S64x1) zeros2, View.ld_unit_zero (S := S64x128) zeros2, View.ld_unit_zero (S := S1x64) zeros2, View.ld_unit_zero (S := S1x1) zeros2, View.ld_unit_zero (S := S64x512) zeros2,
      View.readCov_unit_zero (S := S64x512) _ zeros2]
  isplitl [H13]
  · iexists _; isplitr
    swap; · iexact H13
    ipureintro
    sl_unfold_words
    rw [View.read_writes_eq_canon _ _ _ (fun y => ⟨_, List.mem_singleton_self _, View.mem_set_unit_zero (S := S64x512) zeros2 inb_S64x512_S64x512_0_0 y⟩),
      View.canon_unit_zero (S := S64x512) zeros2 inb_S64x512_S64x512_0_0]
    simp only [View.readAt_eq_ld, harg2.read_unread, harg3.read_unread, harg13.read_unread, View.ld_unit_zero (S := S2048x512) zeros2, View.ld_unit_zero (S := S64x2048) zeros2, View.ld_unit_zero (S := S64x512) zeros2]
  iexists _; isplitr; · ipureintro; exact harg14.read_unread _
  iexact H14

end Cert.KernelIdeal.Mlp

end
-- ==== Proof.MlpIdeal.Data.lean ====
import proofs.«134165_g26456998544025_cont_9to1_950_18_alg».proof.Proof.MlpIdeal.Cases

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The proof data of the one pipeline

What every staging buffer and the two scratch buffers hold after the body at each grid point, as functions of
the arrays the region finds. The two scratch buffers are carried from point to point inside a lane block
(49 points): the accumulator grows by one block product per point, the compound embedding is written at the
first of the 49 points and read at the last. The two big input windows are cut at k = 48: their staging buffers
then hold the array's last 1696 contraction indices and, past them, words nothing names; the names below fill
that tail with zero words, and Tail.lean shows the body's results do not depend on the choice. -/

variable (m : (ℓ : Loc nD τ sig) → Buf (Elt F) ℓ) (ρ : Dev nD → PrngReg)

/-- Each window's current staging memref at point t, as the pipeline passes it to the body, and its wholeness. -/
abbrev ms0 (t : Fin cfg0.N) : Memref sig .tc .vmem S2048x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1000x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64x1000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S64x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S64x1 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x1 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x512 .f32 := win0_10.stage (cfg0.slots t 10)
abbrev hs10 (t : Fin cfg0.N) : (ms10 t).IsWhole := hstage0_10 ((cfg0.slots t 10).cast nbuf0_10)
/-- The two scratch operands: the accumulator and the compound embedding. -/
abbrev scAcc : Memref sig .tc .vmem S64x512 .f32 := Memref.whole cc0_scratch0
abbrev scCe : Memref sig .tc .vmem S64x512 .f32 := Memref.whole cc0_scratch1

/-- The activation window's buffer after the fetch at t: the block's part inside the array, zero words past it. -/
def xbuf (c : Dev nD) (t : Fin cfg0.N) : Vec F S2048x512 .f32 :=
  win0_0.fill (grid0.coords t) (fun _ => Scalar.ofBits .f32 0#32) (iblk m c 0 t)
/-- The weight window's likewise. -/
def wbuf (c : Dev nD) (t : Fin cfg0.N) : Vec F S64x2048 .f32 :=
  win0_1.fill (grid0.coords t) (fun _ => Scalar.ofBits .f32 0#32) (iblk m c 1 t)

/-- THE ACCUMULATION. What the accumulator and the compound-embedding scratch hold after the body at position n:
    at k = 0 the first block product over a cleared accumulator, and the compound embedding; while 0 < k < 48 the
    accumulator of the point before plus this point's block product; at k = 48 plus the masked product of the
    cut blocks; the compound embedding carried unchanged. -/
def scAt (c : Dev nD) : (n : ℕ) → n < cfg0.N → Vec F S64x512 .f32 × Vec F S64x512 .f32
  | 0, hn => (k0_pay3 k0_pay1 (wbuf m c ⟨0, hn⟩) (xbuf m c ⟨0, hn⟩), k0_pay2 (iblk m c 3 ⟨0, hn⟩) (iblk m c 2 ⟨0, hn⟩) (iblk m c 5 ⟨0, hn⟩))
  | n + 1, hn =>
    if (n + 1) % 49 = 0 then (k0_pay3 k0_pay1 (wbuf m c ⟨n + 1, hn⟩) (xbuf m c ⟨n + 1, hn⟩), k0_pay2 (iblk m c 3 ⟨n + 1, hn⟩) (iblk m c 2 ⟨n + 1, hn⟩) (iblk m c 5 ⟨n + 1, hn⟩))
    else if (n + 1) % 49 = 48 then
      (k0_pay5 (xbuf m c ⟨n + 1, hn⟩) (wbuf m c ⟨n + 1, hn⟩) (scAt c n (Nat.lt_of_succ_lt hn)).1, (scAt c n (Nat.lt_of_succ_lt hn)).2)
    else
      (k0_pay3 (scAt c n (Nat.lt_of_succ_lt hn)).1 (wbuf m c ⟨n + 1, hn⟩) (xbuf m c ⟨n + 1, hn⟩), (scAt c n (Nat.lt_of_succ_lt hn)).2)

theorem scAt_first (c : Dev nD) (t : Fin cfg0.N) (h0 : t.val % 49 = 0) :
    scAt m c t.val t.isLt = (k0_pay3 k0_pay1 (wbuf m c t) (xbuf m c t), k0_pay2 (iblk m c 3 t) (iblk m c 2 t) (iblk m c 5 t)) := by
  obtain ⟨n, hn⟩ := t
  cases n with
  | zero => rfl
  | succ n => exact (if_pos h0).trans rfl

theorem scAt_last (c : Dev nD) (t : Fin cfg0.N) (h1 : t.val % 49 = 48) :
    scAt m c t.val t.isLt = (k0_pay5 (xbuf m c t) (wbuf m c t) (scAt m c (t.val - 1) (Nat.lt_of_le_of_lt (Nat.sub_le _ _) t.isLt)).1,
      (scAt m c (t.val - 1) (Nat.lt_of_le_of_lt (Nat.sub_le _ _) t.isLt)).2) := by
  obtain ⟨n, hn⟩ := t
  cases n with
  | zero => exact absurd h1 (by show ¬(0 % 49 = 48); decide)
  | succ n => exact (if_neg (by dsimp only at h1; omega)).trans ((if_pos h1).trans rfl)

theorem scAt_mid (c : Dev nD) (t : Fin cfg0.N) (h0 : ¬t.val % 49 = 0) (h1 : ¬t.val % 49 = 48) :
    scAt m c t.val t.isLt = (k0_pay3 (scAt m c (t.val - 1) (Nat.lt_of_le_of_lt (Nat.sub_le _ _) t.isLt)).1 (wbuf m c t) (xbuf m c t),
      (scAt m c (t.val - 1) (Nat.lt_of_le_of_lt (Nat.sub_le _ _) t.isLt)).2) := by
  obtain ⟨n, hn⟩ := t
  cases n with
  | zero => exact absurd (Nat.zero_mod _) h0
  | succ n => exact (if_neg h0).trans ((if_neg h1).trans rfl)

/-- What the output's staging buffer holds after the body at a point with k = 48: the output row of this lane block,
    from the finished accumulator and the compound embedding. (At the other points the window is idle and this is
    never read.) -/
def outAt (c : Dev nD) (t : Fin cfg0.N) : Vec F S1x512 .f32 :=
  k0_pay4 (k0_pay7 (scAt m c t.val t.isLt).1 (iblk m c 4 t) (iblk m c 6 t)) (k0_pay8 (iblk m c 6 t)) (scAt m c t.val t.isLt).2
    (constant S64x512 .f32 0x00000000#32) (iblk m c 7 t) (iblk m c 8 t) (iblk m c 9 t)

/-- The region invariant before position n: before the first point what the launch hands over (both scratch buffers
    at anything); afterwards the two scratch buffers at what the point before left, and the generator register. -/
def PhiS (c : Dev nD) : (n : ℕ) → n ≤ cfg0.N → sProp 𝕄
  | 0, _ => Pipeline.ΦA spec0 c
  | n + 1, hn => iprop(iprop(owns (c : Thread nD τ) scAcc fullShare (scAt m c n hn).1 ∗ owns (c : Thread nD τ) scCe fullShare (scAt m c n hn).2) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scAcc fullShare (scAt m c n hn).1 ∗ owns (c : Thread nD τ) scCe fullShare (scAt m c n hn).2) ∗ (∃ r, prngReg c r)) := rfl
theorem PhiS_pos (c : Dev nD) (n : ℕ) (h : n ≤ cfg0.N) (hz : n ≠ 0) :
    PhiS m c n h = iprop(iprop(owns (c : Thread nD τ) scAcc fullShare (scAt m c (n - 1) (by omega)).1 ∗ owns (c : Thread nD τ) scCe fullShare (scAt m c (n - 1) (by omega)).2) ∗ (∃ r, prngReg c r)) := by
  cases n with
  | zero => exact absurd rfl hz
  | succ n => rfl

/-- What the launch hands the region, with the two scratch operands as memrefs owned at some contents. -/
theorem PhiA0_eq (c : Dev nD) :
    (Pipeline.ΦA spec0 c : sProp 𝕄)
      = iprop(iprop((∃ d, owns (c : Thread nD τ) scAcc fullShare d) ∗ (∃ d, owns (c : Thread nD τ) scCe fullShare d)) ∗ (∃ r, prngReg c r)) := by
  unfold Pipeline.ΦA; rw [scopedRest0_eq]; simp only [scAcc, scCe, owns_whole]; try rfl

/-- The proof data on core c: the arrays as the region finds them; after the body at t the two big inputs' buffers
    at their fetched blocks over zero words, the small inputs' at their blocks, the output's at the lane block's row;
    the invariant PhiS; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xbuf m c t
    | ⟨1, _⟩ => wbuf m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = xbuf m c t := by dsimp only [dats]
theorem after0_1 (c : Dev nD) (t : Fin cfg0.N) : (dats m 0 c).after 1 t = wbuf m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = outAt m c t := by dsimp only [dats]

/-- The two big inputs are fetched at every point: the body finds the block's part inside the array over whatever
    the buffer held (d). -/
theorem before0_0 (c : Dev nD) (t : Fin cfg0.N) (d) :
    (dats m 0 c).before 0 t d = win0_0.fill (grid0.coords t) d (iblk m c 0 t) :=
  ((dats m 0 c).before_fetched 0 t (fetch0_0 t) d).trans (by unfold Dat.fetched Dat.blockOf iblk; rw [A_eq]; try rfl)
theorem before0_1 (c : Dev nD) (t : Fin cfg0.N) (d) :
    (dats m 0 c).before 1 t d = win0_1.fill (grid0.coords t) d (iblk m c 1 t) :=
  ((dats m 0 c).before_fetched 1 t (fetch0_1 t) d).trans (by unfold Dat.fetched Dat.blockOf iblk; rw [A_eq]; try rfl)
/-- The small inputs hold their blocks at every point, fetched there or not. -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- What the obligation asks of each buffer after the body. The big inputs: their block on the moved part, anything
    past it; -/
theorem leaves0_0 (c : Dev nD) (t : Fin cfg0.N) :
    (dats m 0 c).leaves 0 t = iprop(∃ d, owns (c : Thread nD τ) (ms0 t) fullShare (win0_0.fill (grid0.coords t) d (iblk m c 0 t))) := by
  unfold Dat.leaves; rw [live0_0 t, after0_0]; unfold xbuf; dsimp only; simp only [Window.cut_fill]; rfl
theorem leaves0_1 (c : Dev nD) (t : Fin cfg0.N) :
    (dats m 0 c).leaves 1 t = iprop(∃ d, owns (c : Thread nD τ) (ms1 t) fullShare (win0_1.fill (grid0.coords t) d (iblk m c 1 t))) := by
  unfold Dat.leaves; rw [live0_1 t, after0_1]; unfold wbuf; dsimp only; simp only [Window.cut_fill]; rfl
/-- the small inputs: their blocks; -/
theorem leaves0_2 (c : Dev nD) (t : Fin cfg0.N) :
    (dats m 0 c).leaves 2 t = owns (c : Thread nD τ) (ms2 t) fullShare (iblk m c 2 t) := by
  unfold Dat.leaves; rw [live0_2 t, after0_2]
theorem leaves0_3 (c : Dev nD) (t : Fin cfg0.N) :
    (dats m 0 c).leaves 3 t = owns (c : Thread nD τ) (ms3 t) fullShare (iblk m c 3 t) := by
  unfold Dat.leaves; rw [live0_3 t, after0_3]
theorem leaves0_4 (c : Dev nD) (t : Fin cfg0.N) :
    (dats m 0 c).leaves 4 t = owns (c : Thread nD τ) (ms4 t) fullShare (iblk m c 4 t) := by
  unfold Dat.leaves; rw [live0_4 t, after0_4]
theorem leaves0_5 (c : Dev nD) (t : Fin cfg0.N) :
    (dats m 0 c).leaves 5 t = owns (c : Thread nD τ) (ms5 t) fullShare (iblk m c 5 t) := by
  unfold Dat.leaves; rw [live0_5 t, after0_5]
theorem leaves0_6 (c : Dev nD) (t : Fin cfg0.N) :
    (dats m 0 c).leaves 6 t = owns (c : Thread nD τ) (ms6 t) fullShare (iblk m c 6 t) := by
  unfold Dat.leaves; rw [live0_6 t, after0_6]
theorem leaves0_7 (c : Dev nD) (t : Fin cfg0.N) :
    (dats m 0 c).leaves 7 t = owns (c : Thread nD τ) (ms7 t) fullShare (iblk m c 7 t) := by
  unfold Dat.leaves; rw [live0_7 t, after0_7]
theorem leaves0_8 (c : Dev nD) (t : Fin cfg0.N) :
    (dats m 0 c).leaves 8 t = owns (c : Thread nD τ) (ms8 t) fullShare (iblk m c 8 t) := by
  unfold Dat.leaves; rw [live0_8 t, after0_8]
theorem leaves0_9 (c : Dev nD) (t : Fin cfg0.N) :
    (dats m 0 c).leaves 9 t = owns (c : Thread nD τ) (ms9 t) fullShare (iblk m c 9 t) := by
  unfold Dat.leaves; rw [live0_9 t, after0_9]
/-- the output: at k = 48 the lane block's row; elsewhere what the body found. -/
theorem leaves0_10_last (c : Dev nD) (t : Fin cfg0.N) (h : t.val % 49 = 48) :
    (dats m 0 c).leaves 10 t = owns (c : Thread nD τ) (ms10 t) fullShare (outAt m c t) := by
  unfold Dat.leaves; rw [live0_10 t h, after0_10]
theorem leaves0_10_idle (c : Dev nD) (t : Fin cfg0.N) (h : ¬t.val % 49 = 48) :
    (dats m 0 c).leaves 10 t = iprop(∃ d, owns (c : Thread nD τ) (ms10 t) fullShare ((dats m 0 c).before 10 t d)) :=
  (dats m 0 c).leaves_idle 10 t (idle0_10 t h) (noFlush0_10 t h)

end Cert.KernelIdeal.Mlp

end
-- ==== Proof.MlpIdeal.Tail.lean ====
import proofs.«134165_g26456998544025_cont_9to1_950_18_alg».proof.Proof.MlpIdeal.Cases
import Idealize.ShloMosaic.Lib.ValueIdx
import Idealize.ShloMosaic.Lib.Pipeline.Value
import Idealize.ShloMosaic.Lib.StableHlo.Predicate

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The unnamed tail of a cut block does not reach the results

Away from k = 48 the two big windows are fetched whole, so the staging buffer after the fetch does not depend on what
it held before. At k = 48 the fetch fills only the first 1696 contraction indices; the body selects zero wherever the
contraction index is 1696 or more, on both operands, before anything else reads them, so the accumulator's update is
the same whatever words sit past the array's end. -/

theorem fill0_whole (t : Fin cfg0.N) (h : ¬t.val % 49 = 48) (d d' : Vec F S2048x512 .f32)
    (g : ((cfg0.win 0).xblock (grid0.coords t)).Idx → Elt F .f32) :
    win0_0.fill (grid0.coords t) d g = win0_0.fill (grid0.coords t) d' g :=
  Pipeline.fill_of_clip_none (cfg := cfg0) 0 (grid0.coords t) (whole0_0 t h) d d' g

theorem fill1_whole (t : Fin cfg0.N) (h : ¬t.val % 49 = 48) (d d' : Vec F S64x2048 .f32)
    (g : ((cfg0.win 1).xblock (grid0.coords t)).Idx → Elt F .f32) :
    win0_1.fill (grid0.coords t) d g = win0_1.fill (grid0.coords t) d' g :=
  Pipeline.fill_of_clip_none (cfg := cfg0) 1 (grid0.coords t) (whole0_1 t h) d d' g

/-! ## The mask

A coordinate below 2048 compared, as a signed 32-bit word, with 1696: the bit is set exactly below 1696. -/

theorem slt_1696 (n : ℕ) (hn : n < 2048) : IntOp.cmpi .slt (BitVec.ofNat 32 n) 1696#32 = 1#1 ↔ n < 1696 := by
  have hmod : (BitVec.ofNat 32 n).toNat = n := by
    rw [BitVec.toNat_ofNat]; exact Nat.mod_eq_of_lt (by omega)
  rw [StableHlo.Predicate.slt_iff_toNat (by rw [hmod]; omega) (by decide), hmod]
  rfl

/-- Two vectors that agree wherever the condition's bit is set are selected alike against any third. -/
theorem select_congr_on {s : Shape} {α : Type} (c : IVec s 1) (X Y z : s.Idx → α)
    (hXY : ∀ j, c j = 1#1 → X j = Y j) : select c X z = select c Y z := by
  funext j
  show Scalar.select (c j) (X j) (z j) = Scalar.select (c j) (Y j) (z j)
  by_cases hc : c j = 1#1
  · rw [hc, ValueIdx.select_one, ValueIdx.select_one]; exact hXY j hc
  · rw [ValueIdx.eq_zero_of_ne_one hc, ValueIdx.select_zero, ValueIdx.select_zero]

/-- The activation block's mask: set exactly on the rows below 1696. -/
theorem rowMask_iff (hi : S2048x512.Iotas .tc 32 [0]) (j : S2048x512.Idx) :
    cmpi .slt (iota .tc S2048x512 32 [0] hi) (broadcast S2048x512 1696#32) j = 1#1 ↔ (j 0).val < 1696 := by
  show IntOp.cmpi .slt (iota .tc S2048x512 32 [0] hi j) 1696#32 = 1#1 ↔ _
  rw [iota_single_apply]
  exact slt_1696 _ (j 0).isLt

/-- The weight block's mask: set exactly on the columns below 1696. -/
theorem colMask_iff (hi : S64x2048.Iotas .tc 32 [1]) (j : S64x2048.Idx) :
    cmpi .slt (iota .tc S64x2048 32 [1] hi) (broadcast S64x2048 1696#32) j = 1#1 ↔ (j 1).val < 1696 := by
  show IntOp.cmpi .slt (iota .tc S64x2048 32 [1] hi j) 1696#32 = 1#1 ↔ _
  rw [iota_single_apply]
  exact slt_1696 _ (j 1).isLt

/-- The masked block product reads its two big operands only on the first 1696 contraction indices. -/
theorem pay5_congr (x x' : Vec F S2048x512 .f32) (w w' : Vec F S64x2048 .f32) (a : Vec F S64x512 .f32)
    (hx : ∀ j : S2048x512.Idx, (j 0).val < 1696 → x j = x' j)
    (hw : ∀ j : S64x2048.Idx, (j 1).val < 1696 → w j = w' j) :
    k0_pay5 x w a = k0_pay5 x' w' a := by
  unfold k0_pay5
  dsimp only
  rw [shapeCast_self x, shapeCast_self x', shapeCast_self w, shapeCast_self w']
  rw [select_congr_on _ x x' _ fun j hj => hx j ((rowMask_iff _ j).mp hj),
    select_congr_on _ w w' _ fun j hj => hw j ((colMask_iff _ j).mp hj)]

/-! ## The two cut fetches -/

/-- At k = 48 the activation block's fetch fixes every row below 1696, whatever the buffer held. -/
theorem fill0_low (t : Fin cfg0.N) (h : t.val % 49 = 48) (d d' : Vec F S2048x512 .f32)
    (g : ((cfg0.win 0).xblock (grid0.coords t)).Idx → Elt F .f32) (j : S2048x512.Idx) (hj : (j 0).val < 1696) :
    win0_0.fill (grid0.coords t) d g j = win0_0.fill (grid0.coords t) d' g j := by
  have hm : win0_0.moved (grid0.coords t) j = true := by
    rw [Window.moved_iff]
    refine (Fin.forall_fin_two (p := fun b => (j b).val < win0_0.xsize (grid0.coords t) b)).mpr ⟨?_, ?_⟩
    · exact lt_of_lt_of_eq hj (xsize0_0 t h 0).symm
    · exact lt_of_lt_of_eq (j 1).isLt (xsize0_0 t h 1).symm
  unfold Window.fill
  rw [dif_pos hm, dif_pos hm]

/-- At k = 48 the weight block's fetch fixes every column below 1696, whatever the buffer held. -/
theorem fill1_low (t : Fin cfg0.N) (h : t.val % 49 = 48) (e e' : Vec F S64x2048 .f32)
    (g : ((cfg0.win 1).xblock (grid0.coords t)).Idx → Elt F .f32) (j : S64x2048.Idx) (hj : (j 1).val < 1696) :
    win0_1.fill (grid0.coords t) e g j = win0_1.fill (grid0.coords t) e' g j := by
  have hm : win0_1.moved (grid0.coords t) j = true := by
    rw [Window.moved_iff]
    refine (Fin.forall_fin_two (p := fun b => (j b).val < win0_1.xsize (grid0.coords t) b)).mpr ⟨?_, ?_⟩
    · exact lt_of_lt_of_eq (j 0).isLt (xsize0_1 t h 0).symm
    · exact lt_of_lt_of_eq hj (xsize0_1 t h 1).symm
  unfold Window.fill
  rw [dif_pos hm, dif_pos hm]

/-- At k = 48 the masked block product, and with it the accumulator's update, is the same for any two fillers of
    the two cut buffers. -/
theorem pay5_tail (t : Fin cfg0.N) (h : t.val % 49 = 48) (d d' : Vec F S2048x512 .f32) (e e' : Vec F S64x2048 .f32)
    (xb : ((cfg0.win 0).xblock (grid0.coords t)).Idx → Elt F .f32) (wb : ((cfg0.win 1).xblock (grid0.coords t)).Idx → Elt F .f32)
    (a : Vec F S64x512 .f32) :
    k0_pay5 (win0_0.fill (grid0.coords t) d xb) (win0_1.fill (grid0.coords t) e wb) a
      = k0_pay5 (win0_0.fill (grid0.coords t) d' xb) (win0_1.fill (grid0.coords t) e' wb) a :=
  pay5_congr _ _ _ _ a (fun j hj => fill0_low t h d d' xb j hj) (fun j hj => fill1_low t h e e' wb j hj)

end Cert.KernelIdeal.Mlp

end
-- ==== Proof.MlpIdeal.Body.lean ====
import proofs.«134165_g26456998544025_cont_9to1_950_18_alg».proof.Proof.MlpIdeal.Runs
import proofs.«134165_g26456998544025_cont_9to1_950_18_alg».proof.Proof.MlpIdeal.Data
import proofs.«134165_g26456998544025_cont_9to1_950_18_alg».proof.Proof.MlpIdeal.Tail

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body obligation, the launch and the frame

At every grid point the body, called on the current staging buffers and the two scratch buffers, takes the invariant
before the point to the invariant after it and leaves every window's buffer as the proof data says: by cases on the
step k of the point inside its lane block (first, middle, last), each case one of the three runs. The big inputs'
buffers are handed over with whatever lay past the fetched part and handed back untouched; away from k = 48 nothing
lies past it, and at k = 48 the results do not depend on it. Then the launch: every weakly fair execution of the
program terminates with the pipeline's arrays at what the proof data computes and the arguments unchanged. -/

variable (m : (ℓ : Loc nD τ sig) → Buf (Elt F) ℓ) (ρ : Dev nD → PrngReg)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t
    ∗ (dats m 0 c).leaves 10 t)

set_option maxHeartbeats 4000000 in
/-- The first step of a lane block, at the very first point: the scratch buffers hold anything. -/
theorem sound_first0 (c : Dev nD) (t : Fin cfg0.N) (h0 : t.val % 49 = 0) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, leaves0_0, leaves0_1, leaves0_2, leaves0_3, leaves0_4, leaves0_5, leaves0_6, leaves0_7, leaves0_8, leaves0_9]
  rw [show (dats m 0 c).owesAt () t.succ = (dats m 0 c).owesAt () t.castSucc from rfl]
  rw [show (dats m 0 c).Φ t.succ = PhiS m c (t.val + 1) t.isLt from rfl, PhiS_succ, PhiS_castSucc m c t]
  have hN : t.val < 98 := lt_of_lt_of_eq t.isLt (show cfg0.N = 98 from N_0)
  have h1 : ¬t.val % 49 = 48 := by omega
  rw [leaves0_10_idle m c t h1, scAt_first m c t h0]
  unfold xbuf wbuf
  rw [PhiS_zero m c _ _ hz, PhiA0_eq]
  iintro ⟨⟨⟨⟨%a, HA⟩, ⟨%e, HE⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [fill0_whole t h1 d0 (fun _ => Scalar.ofBits .f32 0#32) (iblk m c 0 t), fill1_whole t h1 d1 (fun _ => Scalar.ofBits .f32 0#32) (iblk m c 1 t)]
  iapply (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scAcc (Memref.isWhole_whole _) scCe (Memref.isWhole_whole _) ((hInit t).mpr h0) ((hFull t).mpr h1) (fun h => h1 ((hLast t).mp h))
    (win0_0.fill (grid0.coords t) (fun _ => Scalar.ofBits .f32 0#32) (iblk m c 0 t)) (win0_1.fill (grid0.coords t) (fun _ => Scalar.ofBits .f32 0#32) (iblk m c 1 t))
    (iblk m c 2 t) (iblk m c 3 t) (iblk m c 5 t) a e Set.univ _)
  isplitl [H0]; · iexact H0
  isplitl [H1]; · iexact H1
  isplitl [H2]; · iexact H2
  isplitl [H3]; · iexact H3
  isplitl [H5]; · iexact H5
  isplitl [HA]; · iexact HA
  isplitl [HE]; · iexact HE
  iintro ⟨H0, H1, H2, H3, H5, HA, HE⟩
  isplitl [HA HE Hg]
  · isplitl [HA HE]
    · isplitl [HA]; · iexact HA
      iexact HE
    iexact Hg
  isplitl [Ho]; · iexact Ho
  isplitl [H0]; · iexists _; iexact H0
  isplitl [H1]; · iexists _; iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

set_option maxHeartbeats 4000000 in
/-- The first step of the second lane block: the scratch buffers hold what the first block left, and are overwritten. -/
theorem sound_first1 (c : Dev nD) (t : Fin cfg0.N) (h0 : t.val % 49 = 0) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, leaves0_0, leaves0_1, leaves0_2, leaves0_3, leaves0_4, leaves0_5, leaves0_6, leaves0_7, leaves0_8, leaves0_9]
  rw [show (dats m 0 c).owesAt () t.succ = (dats m 0 c).owesAt () t.castSucc from rfl]
  rw [show (dats m 0 c).Φ t.succ = PhiS m c (t.val + 1) t.isLt from rfl, PhiS_succ, PhiS_castSucc m c t]
  have hN : t.val < 98 := lt_of_lt_of_eq t.isLt (show cfg0.N = 98 from N_0)
  have h1 : ¬t.val % 49 = 48 := by omega
  rw [leaves0_10_idle m c t h1, scAt_first m c t h0]
  unfold xbuf wbuf
  rw [PhiS_pos m c _ _ hz]
  iintro ⟨⟨⟨HA, HE⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [fill0_whole t h1 d0 (fun _ => Scalar.ofBits .f32 0#32) (iblk m c 0 t), fill1_whole t h1 d1 (fun _ => Scalar.ofBits .f32 0#32) (iblk m c 1 t)]
  iapply (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scAcc (Memref.isWhole_whole _) scCe (Memref.isWhole_whole _) ((hInit t).mpr h0) ((hFull t).mpr h1) (fun h => h1 ((hLast t).mp h))
    (win0_0.fill (grid0.coords t) (fun _ => Scalar.ofBits .f32 0#32) (iblk m c 0 t)) (win0_1.fill (grid0.coords t) (fun _ => Scalar.ofBits .f32 0#32) (iblk m c 1 t))
    (iblk m c 2 t) (iblk m c 3 t) (iblk m c 5 t) _ _ Set.univ _)
  isplitl [H0]; · iexact H0
  isplitl [H1]; · iexact H1
  isplitl [H2]; · iexact H2
  isplitl [H3]; · iexact H3
  isplitl [H5]; · iexact H5
  isplitl [HA]; · iexact HA
  isplitl [HE]; · iexact HE
  iintro ⟨H0, H1, H2, H3, H5, HA, HE⟩
  isplitl [HA HE Hg]
  · isplitl [HA HE]
    · isplitl [HA]; · iexact HA
      iexact HE
    iexact Hg
  isplitl [Ho]; · iexact Ho
  isplitl [H0]; · iexists _; iexact H0
  isplitl [H1]; · iexists _; iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

set_option maxHeartbeats 4000000 in
/-- A middle step: the accumulator gains the block product. -/
theorem sound_mid (c : Dev nD) (t : Fin cfg0.N) (h0 : ¬t.val % 49 = 0) (h1 : ¬t.val % 49 = 48) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, leaves0_0, leaves0_1, leaves0_2, leaves0_3, leaves0_4, leaves0_5, leaves0_6, leaves0_7, leaves0_8, leaves0_9]
  rw [show (dats m 0 c).owesAt () t.succ = (dats m 0 c).owesAt () t.castSucc from rfl]
  rw [show (dats m 0 c).Φ t.succ = PhiS m c (t.val + 1) t.isLt from rfl, PhiS_succ, PhiS_castSucc m c t]
  have hN : t.val < 98 := lt_of_lt_of_eq t.isLt (show cfg0.N = 98 from N_0)
  have hz : t.val ≠ 0 := fun h => h0 (by rw [h])
  rw [leaves0_10_idle m c t h1, scAt_mid m c t h0 h1]
  unfold xbuf wbuf
  rw [PhiS_pos m c _ _ hz]
  iintro ⟨⟨⟨HA, HE⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [fill0_whole t h1 d0 (fun _ => Scalar.ofBits .f32 0#32) (iblk m c 0 t), fill1_whole t h1 d1 (fun _ => Scalar.ofBits .f32 0#32) (iblk m c 1 t)]
  iapply (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scAcc (Memref.isWhole_whole _) scCe (Memref.isWhole_whole _) (fun h => h0 ((hInit t).mp h)) ((hFull t).mpr h1) (fun h => h1 ((hLast t).mp h))
    (win0_0.fill (grid0.coords t) (fun _ => Scalar.ofBits .f32 0#32) (iblk m c 0 t)) (win0_1.fill (grid0.coords t) (fun _ => Scalar.ofBits .f32 0#32) (iblk m c 1 t)) _ Set.univ _)
  isplitl [H0]; · iexact H0
  isplitl [H1]; · iexact H1
  isplitl [HA]; · iexact HA
  iintro ⟨H0, H1, HA⟩
  isplitl [HA HE Hg]
  · isplitl [HA HE]
    · isplitl [HA]; · iexact HA
      iexact HE
    iexact Hg
  isplitl [Ho]; · iexact Ho
  isplitl [H0]; · iexists _; iexact H0
  isplitl [H1]; · iexists _; iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

/-- At k = 48 the masked block product over the buffers as the body finds them, whatever lies past the fetched part,
    is the one over the named buffers. -/
theorem pay5_buf (c : Dev nD) (t : Fin cfg0.N) (h1 : t.val % 49 = 48) (d0 : Vec F S2048x512 .f32) (d1 : Vec F S64x2048 .f32) (a : Vec F S64x512 .f32) :
    k0_pay5 (win0_0.fill (grid0.coords t) d0 (iblk m c 0 t)) (win0_1.fill (grid0.coords t) d1 (iblk m c 1 t)) a
      = k0_pay5 (xbuf m c t) (wbuf m c t) a :=
  pay5_tail t h1 d0 (fun _ => Scalar.ofBits .f32 0#32) d1 (fun _ => Scalar.ofBits .f32 0#32) (iblk m c 0 t) (iblk m c 1 t) a

set_option maxHeartbeats 4000000 in
/-- The last step: the accumulator gains the masked product of the cut blocks and the output row is stored; neither
    depends on what lies past the fetched part of the two big buffers. -/
theorem sound_last (c : Dev nD) (t : Fin cfg0.N) (h1 : t.val % 49 = 48) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, leaves0_0, leaves0_1, leaves0_2, leaves0_3, leaves0_4, leaves0_5, leaves0_6, leaves0_7, leaves0_8, leaves0_9]
  rw [show (dats m 0 c).owesAt () t.succ = (dats m 0 c).owesAt () t.castSucc from rfl]
  rw [show (dats m 0 c).Φ t.succ = PhiS m c (t.val + 1) t.isLt from rfl, PhiS_succ, PhiS_castSucc m c t]
  have hN : t.val < 98 := lt_of_lt_of_eq t.isLt (show cfg0.N = 98 from N_0)
  have h0 : ¬t.val % 49 = 0 := by omega
  have hz : t.val ≠ 0 := fun h => h0 (by rw [h])
  rw [leaves0_10_last m c t h1]
  unfold outAt
  rw [scAt_last m c t h1]
  rw [PhiS_pos m c _ _ hz]
  iintro ⟨⟨⟨HA, HE⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [← pay5_buf m c t h1 d0 d1]
  iapply (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scAcc (Memref.isWhole_whole _) scCe (Memref.isWhole_whole _) (fun h => h0 ((hInit t).mp h)) (fun h => (hFull t).mp h h1) ((hLast t).mpr h1)
    (win0_0.fill (grid0.coords t) d0 (iblk m c 0 t)) (win0_1.fill (grid0.coords t) d1 (iblk m c 1 t))
    (iblk m c 4 t) (iblk m c 6 t) (iblk m c 7 t) (iblk m c 8 t) (iblk m c 9 t) _ _ _ Set.univ _)
  isplitl [H0]; · iexact H0
  isplitl [H1]; · iexact H1
  isplitl [H4]; · iexact H4
  isplitl [H6]; · iexact H6
  isplitl [H7]; · iexact H7
  isplitl [H8]; · iexact H8
  isplitl [H9]; · iexact H9
  isplitl [H10]; · iexact H10
  isplitl [HA]; · iexact HA
  isplitl [HE]; · iexact HE
  iintro ⟨H0, H1, H4, H6, H7, H8, H9, H10, HA, HE⟩
  isplitl [HA HE Hg]
  · isplitl [HA HE]
    · isplitl [HA]; · iexact HA
      iexact HE
    iexact Hg
  isplitl [Ho]; · iexact Ho
  isplitl [H0]; · iexists _; iexact H0
  isplitl [H1]; · iexists _; iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h1 : t.val % 49 = 48
  · exact sound_last m c t h1
  · by_cases h0 : t.val % 49 = 0
    · by_cases hz : t.val = 0
      · exact sound_first0 m c t h0 hz
      · exact sound_first1 m c t h0 hz
    · exact sound_mid m c t h0 h1

/-- The library's body obligation, at every point. -/
theorem body_obligation (c : Dev nD) : Pipeline.BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives back what the launch handed over: the scratch contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HA, HE⟩, Hg⟩
  isplitl [HA HE]
  · isplitl [HA]; · iexists _; iexact HA
    iexists _; iexact HE
  iexact Hg

theorem hout (c : Dev nD) : (dats m 0 c).Φ (Fin.last cfg0.N) ⊢ Pipeline.ΦA spec0 c :=
  Phi_out m c _ (by rw [Fin.val_last]; have : cfg0.N = 98 := N_0; omega)

set_option backward.isDefEq.respectTransparency.types false in
/-- From any memory with zero counters every weakly fair execution of the program terminates; the pipeline's arrays end
    at what the proof data computes and every other unscoped buffer as the closing host operation leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Mlp

end
-- ==== Proof.MlpIdeal.HostIn.lean ====
import proofs.«134165_g26456998544025_cont_9to1_950_18_alg».proof.Proof.MlpIdeal.Data
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! # The arrays the region finds, element by element

Before the region the host transposes the four matrices and reshapes the three bias vectors into columns (and the
last bias into a 1 × 1 matrix), so that the kernel works in features-by-rows space. -/

variable (m : (ℓ : Loc nD τ sig) → Buf (Elt Ideal) ℓ)

/-- The ten arguments as launched, at their literal shapes. -/
abbrev A0 (c : Dev nD) : S1024x100000.Idx → Elt Ideal .f32 := m ((c : Thread nD τ).loc main_arg0)
abbrev A1 (c : Dev nD) : S1024x1000.Idx → Elt Ideal .f32 := m ((c : Thread nD τ).loc main_arg1)
abbrev A2 (c : Dev nD) : S100000x64.Idx → Elt Ideal .f32 := m ((c : Thread nD τ).loc main_arg2)
abbrev A3 (c : Dev nD) : S64.Idx → Elt Ideal .f32 := m ((c : Thread nD τ).loc main_arg3)
abbrev A4 (c : Dev nD) : S1000x64.Idx → Elt Ideal .f32 := m ((c : Thread nD τ).loc main_arg4)
abbrev A5 (c : Dev nD) : S64.Idx → Elt Ideal .f32 := m ((c : Thread nD τ).loc main_arg5)
abbrev A6 (c : Dev nD) : S128x64.Idx → Elt Ideal .f32 := m ((c : Thread nD τ).loc main_arg6)
abbrev A7 (c : Dev nD) : S64.Idx → Elt Ideal .f32 := m ((c : Thread nD τ).loc main_arg7)
abbrev A8 (c : Dev nD) : S64x1.Idx → Elt Ideal .f32 := m ((c : Thread nD τ).loc main_arg8)
abbrev A9 (c : Dev nD) : S1.Idx → Elt Ideal .f32 := m ((c : Thread nD τ).loc main_arg9)
/-- The ten arrays the region finds (the host operations' results), at their literal shapes. -/
abbrev Vx (c : Dev nD) : S100000x1024.Idx → Elt Ideal .f32 := V m c main_call0_v0
abbrev Vw (c : Dev nD) : S64x100000.Idx → Elt Ideal .f32 := V m c main_call0_v1
abbrev Vc (c : Dev nD) : S1000x1024.Idx → Elt Ideal .f32 := V m c main_call0_v2
abbrev Vcw (c : Dev nD) : S64x1000.Idx → Elt Ideal .f32 := V m c main_call0_v3
abbrev Vpb (c : Dev nD) : S64x1.Idx → Elt Ideal .f32 := V m c main_call0_v4
abbrev Vcb (c : Dev nD) : S64x1.Idx → Elt Ideal .f32 := V m c main_call0_v5
abbrev Vjw (c : Dev nD) : S64x128.Idx → Elt Ideal .f32 := V m c main_call0_v6
abbrev Vjb (c : Dev nD) : S64x1.Idx → Elt Ideal .f32 := V m c main_call0_v7
abbrev Vow (c : Dev nD) : S1x64.Idx → Elt Ideal .f32 := V m c main_call0_v8
abbrev Vob (c : Dev nD) : S1x1.Idx → Elt Ideal .f32 := V m c main_call0_v9

/-! ## The host operations before the region

Each of the ten arrays is written by exactly one host operation, from one argument that no host operation writes; so
the array is that operation's value on the argument as launched, and reading it at an index is reading the argument at
the transposed index (a transpose) or at the index of the same row-major position (a reshape). -/

/-- The host transposes the argument: entry (i, n) of the result is entry (n, i) of the argument. -/
theorem Vx_apply (c : Dev nD) (i : Fin 100000) (n : Fin 1024) : Vx m c (ix2 i n) = A0 m c (ix2 n i) := by
  have h : (V m c main_call0_v0 : S100000x1024.Idx → Elt Ideal .f32)
      = transpose S100000x1024 [1, 0] (A0 m c) transposes_S1024x100000_S100000x1024_1_0 := by
    show StableHlo.after hostOps0 (fun b => m (c, b)) (Proc.devRef .tc main_call0_v0) = _
    after_results
    rfl
  show (V m c main_call0_v0 : S100000x1024.Idx → Elt Ideal .f32) (ix2 i n) = _
  rw [h]
  exact transpose_ix2_apply _ _ i n

/-- The host transposes the argument: entry (e, i) of the result is entry (i, e) of the argument. -/
theorem Vw_apply (c : Dev nD) (e : Fin 64) (i : Fin 100000) : Vw m c (ix2 e i) = A2 m c (ix2 i e) := by
  have h : (V m c main_call0_v1 : S64x100000.Idx → Elt Ideal .f32)
      = transpose S64x100000 [1, 0] (A2 m c) transposes_S100000x64_S64x100000_1_0 := by
    show StableHlo.after hostOps0 (fun b => m (c, b)) (Proc.devRef .tc main_call0_v1) = _
    after_results
    rfl
  show (V m c main_call0_v1 : S64x100000.Idx → Elt Ideal .f32) (ix2 e i) = _
  rw [h]
  exact transpose_ix2_apply _ _ e i

/-- The host transposes the argument: entry (i, n) of the result is entry (n, i) of the argument. -/
theorem Vc_apply (c : Dev nD) (i : Fin 1000) (n : Fin 1024) : Vc m c (ix2 i n) = A1 m c (ix2 n i) := by
  have h : (V m c main_call0_v2 : S1000x1024.Idx → Elt Ideal .f32)
      = transpose S1000x1024 [1, 0] (A1 m c) transposes_S1024x1000_S1000x1024_1_0 := by
    show StableHlo.after hostOps0 (fun b => m (c, b)) (Proc.devRef .tc main_call0_v2) = _
    after_results
    rfl
  show (V m c main_call0_v2 : S1000x1024.Idx → Elt Ideal .f32) (ix2 i n) = _
  rw [h]
  exact transpose_ix2_apply _ _ i n

/-- The host transposes the argument: entry (e, i) of the result is entry (i, e) of the argument. -/
theorem Vcw_apply (c : Dev nD) (e : Fin 64) (i : Fin 1000) : Vcw m c (ix2 e i) = A4 m c (ix2 i e) := by
  have h : (V m c main_call0_v3 : S64x1000.Idx → Elt Ideal .f32)
      = transpose S64x1000 [1, 0] (A4 m c) transposes_S1000x64_S64x1000_1_0 := by
    show StableHlo.after hostOps0 (fun b => m (c, b)) (Proc.devRef .tc main_call0_v3) = _
    after_results
    rfl
  show (V m c main_call0_v3 : S64x1000.Idx → Elt Ideal .f32) (ix2 e i) = _
  rw [h]
  exact transpose_ix2_apply _ _ e i

/-- The host views the bias vector as a column: row e of the column is entry e of the vector (the same row-major
    position). -/
theorem Vpb_apply (c : Dev nD) (e : Fin 64) : Vpb m c (ix2 e (0 : Fin 1)) = A3 m c (ix1 e) := by
  have h : (V m c main_call0_v4 : S64x1.Idx → Elt Ideal .f32)
      = shapeCast S64x1 (A3 m c) shapeCasts_S64_S64x1 := by
    show StableHlo.after hostOps0 (fun b => m (c, b)) (Proc.devRef .tc main_call0_v4) = _
    after_results
    rfl
  show (V m c main_call0_v4 : S64x1.Idx → Elt Ideal .f32) (ix2 e (0 : Fin 1)) = _
  rw [h]
  refine shapeCast_apply _ _ _ _ ?_
  rw [Shape.rowMajor_val_one, Shape.rowMajor_val_two]
  show e.val = e.val * 1 + 0
  omega

/-- The host views the bias vector as a column: row e of the column is entry e of the vector (the same row-major
    position). -/
theorem Vcb_apply (c : Dev nD) (e : Fin 64) : Vcb m c (ix2 e (0 : Fin 1)) = A5 m c (ix1 e) := by
  have h : (V m c main_call0_v5 : S64x1.Idx → Elt Ideal .f32)
      = shapeCast S64x1 (A5 m c) shapeCasts_S64_S64x1 := by
    show StableHlo.after hostOps0 (fun b => m (c, b)) (Proc.devRef .tc main_call0_v5) = _
    after_results
    rfl
  show (V m c main_call0_v5 : S64x1.Idx → Elt Ideal .f32) (ix2 e (0 : Fin 1)) = _
  rw [h]
  refine shapeCast_apply _ _ _ _ ?_
  rw [Shape.rowMajor_val_one, Shape.rowMajor_val_two]
  show e.val = e.val * 1 + 0
  omega

/-- The host transposes the argument: entry (j, k) of the result is entry (k, j) of the argument. -/
theorem Vjw_apply (c : Dev nD) (j : Fin 64) (k : Fin 128) : Vjw m c (ix2 j k) = A6 m c (ix2 k j) := by
  have h : (V m c main_call0_v6 : S64x128.Idx → Elt Ideal .f32)
      = transpose S64x128 [1, 0] (A6 m c) transposes_S128x64_S64x128_1_0 := by
    show StableHlo.after hostOps0 (fun b => m (c, b)) (Proc.devRef .tc main_call0_v6) = _
    after_results
    rfl
  show (V m c main_call0_v6 : S64x128.Idx → Elt Ideal .f32) (ix2 j k) = _
  rw [h]
  exact transpose_ix2_apply _ _ j k

/-- The host views the bias vector as a column: row j of the column is entry j of the vector (the same row-major
    position). -/
theorem Vjb_apply (c : Dev nD) (j : Fin 64) : Vjb m c (ix2 j (0 : Fin 1)) = A7 m c (ix1 j) := by
  have h : (V m c main_call0_v7 : S64x1.Idx → Elt Ideal .f32)
      = shapeCast S64x1 (A7 m c) shapeCasts_S64_S64x1 := by
    show StableHlo.after hostOps0 (fun b => m (c, b)) (Proc.devRef .tc main_call0_v7) = _
    after_results
    rfl
  show (V m c main_call0_v7 : S64x1.Idx → Elt Ideal .f32) (ix2 j (0 : Fin 1)) = _
  rw [h]
  refine shapeCast_apply _ _ _ _ ?_
  rw [Shape.rowMajor_val_one, Shape.rowMajor_val_two]
  show j.val = j.val * 1 + 0
  omega

/-- The host transposes the last weight column into a row: entry (0, j) of the row is entry (j, 0) of the column. -/
theorem Vow_apply (c : Dev nD) (j : Fin 64) : Vow m c (ix2 (0 : Fin 1) j) = A8 m c (ix2 j (0 : Fin 1)) := by
  have h : (V m c main_call0_v8 : S1x64.Idx → Elt Ideal .f32)
      = transpose S1x64 [1, 0] (A8 m c) transposes_S64x1_S1x64_1_0 := by
    show StableHlo.after hostOps0 (fun b => m (c, b)) (Proc.devRef .tc main_call0_v8) = _
    after_results
    rfl
  show (V m c main_call0_v8 : S1x64.Idx → Elt Ideal .f32) (ix2 (0 : Fin 1) j) = _
  rw [h]
  exact transpose_ix2_apply _ _ (0 : Fin 1) j

/-- The host views the last bias, a vector of one entry, as a 1 × 1 matrix: its one entry is the vector's. -/
theorem Vob_apply (c : Dev nD) : Vob m c (ix2 (0 : Fin 1) (0 : Fin 1)) = A9 m c (ix1 (0 : Fin 1)) := by
  have h : (V m c main_call0_v9 : S1x1.Idx → Elt Ideal .f32)
      = shapeCast S1x1 (A9 m c) shapeCasts_S1_S1x1 := by
    show StableHlo.after hostOps0 (fun b => m (c, b)) (Proc.devRef .tc main_call0_v9) = _
    after_results
    rfl
  show (V m c main_call0_v9 : S1x1.Idx → Elt Ideal .f32) (ix2 (0 : Fin 1) (0 : Fin 1)) = _
  rw [h]
  refine shapeCast_apply _ _ _ _ ?_
  rw [Shape.rowMajor_val_one, Shape.rowMajor_val_two]
  rfl

end Cert.KernelIdeal.Mlp

end
-- ==== Proof.MlpIdeal.Blocks.lean ====
import proofs.«134165_g26456998544025_cont_9to1_950_18_alg».proof.Proof.MlpIdeal.HostIn
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! # The windows' blocks, element by element

Point t = 49·b + k of the grid stages rows 2048·k … of the transposed activations at lanes 512·b …, the matching
columns of the transposed weight, lanes 512·b … of the transposed compound input, and the small operands whole. -/

variable (m : (ℓ : Loc nD τ sig) → Buf (Elt Ideal) ℓ)

/-- The lane a block's lane q is in the whole array. -/
theorem lane_lt (t : Fin cfg0.N) (q : Fin 512) : 512 * (t.val / 49) + q.val < 1024 := by
  have := lt_of_lt_of_eq t.isLt (show cfg0.N = 98 from N_0); omega

/-! ## The block indices, decided once over the 98 points

The activations' block at point t is block (t % 49, t / 49) of 2048 × 512 blocks, the weight's is block (0, t % 49)
of 64 × 2048 blocks, the compound input's is block (0, t / 49) of 1000 × 512 blocks; every small operand's block is
block (0, 0), the whole array. -/
theorem blocks_idx0 : ∀ t : Fin cfg0.N, win0_0.index t (0 : Fin 2) = t.val % 49 ∧ win0_0.index t (1 : Fin 2) = t.val / 49 :=
  (by decide +kernel : ∀ t : Fin grid0.N, _)
theorem blocks_idx1 : ∀ t : Fin cfg0.N, win0_1.index t (0 : Fin 2) = 0 ∧ win0_1.index t (1 : Fin 2) = t.val % 49 :=
  (by decide +kernel : ∀ t : Fin grid0.N, _)
theorem blocks_idx2 : ∀ t : Fin cfg0.N, win0_2.index t (0 : Fin 2) = 0 ∧ win0_2.index t (1 : Fin 2) = t.val / 49 :=
  (by decide +kernel : ∀ t : Fin grid0.N, _)
theorem blocks_idx3 : ∀ t : Fin cfg0.N, win0_3.index t (0 : Fin 2) = 0 ∧ win0_3.index t (1 : Fin 2) = 0 :=
  (by decide +kernel : ∀ t : Fin grid0.N, _)
theorem blocks_idx4 : ∀ t : Fin cfg0.N, win0_4.index t (0 : Fin 2) = 0 ∧ win0_4.index t (1 : Fin 2) = 0 :=
  (by decide +kernel : ∀ t : Fin grid0.N, _)
theorem blocks_idx5 : ∀ t : Fin cfg0.N, win0_5.index t (0 : Fin 2) = 0 ∧ win0_5.index t (1 : Fin 2) = 0 :=
  (by decide +kernel : ∀ t : Fin grid0.N, _)
theorem blocks_idx6 : ∀ t : Fin cfg0.N, win0_6.index t (0 : Fin 2) = 0 ∧ win0_6.index t (1 : Fin 2) = 0 :=
  (by decide +kernel : ∀ t : Fin grid0.N, _)
theorem blocks_idx7 : ∀ t : Fin cfg0.N, win0_7.index t (0 : Fin 2) = 0 ∧ win0_7.index t (1 : Fin 2) = 0 :=
  (by decide +kernel : ∀ t : Fin grid0.N, _)
theorem blocks_idx8 : ∀ t : Fin cfg0.N, win0_8.index t (0 : Fin 2) = 0 ∧ win0_8.index t (1 : Fin 2) = 0 :=
  (by decide +kernel : ∀ t : Fin grid0.N, _)
theorem blocks_idx9 : ∀ t : Fin cfg0.N, win0_9.index t (0 : Fin 2) = 0 ∧ win0_9.index t (1 : Fin 2) = 0 :=
  (by decide +kernel : ∀ t : Fin grid0.N, _)

/-- What the two big windows' fetches move: the whole block away from k = 48, and at k = 48 the 1696 contraction
    indices that are left of the array's 100000 (2048·48 + 1696 = 100000). -/
theorem blocks_xsize0 : ∀ t : Fin cfg0.N, win0_0.xsize (grid0.coords t) (0 : Fin 2) = (if t.val % 49 = 48 then 1696 else 2048)
    ∧ win0_0.xsize (grid0.coords t) (1 : Fin 2) = 512 :=
  (by decide +kernel : ∀ t : Fin grid0.N, _)
theorem blocks_xsize1 : ∀ t : Fin cfg0.N, win0_1.xsize (grid0.coords t) (0 : Fin 2) = 64
    ∧ win0_1.xsize (grid0.coords t) (1 : Fin 2) = (if t.val % 49 = 48 then 1696 else 2048) :=
  (by decide +kernel : ∀ t : Fin grid0.N, _)

/-- A row of the activation block whose contraction index is inside the array is one the fetch moves. -/
theorem xbuf_moved (t : Fin cfg0.N) (r : Fin 2048) (q : Fin 512) (h : 2048 * (t.val % 49) + r.val < 100000) :
    win0_0.moved (grid0.coords t) (ix2 r q) = true := by
  obtain ⟨s0, s1⟩ := blocks_xsize0 t
  refine (win0_0.moved_iff _ _).mpr fun a => ?_
  match a with
  | ⟨0, _⟩ =>
    show r.val < win0_0.xsize (grid0.coords t) (0 : Fin 2)
    rw [s0]; have := r.isLt; have := Nat.mod_lt t.val (show 0 < 49 by omega); split <;> omega
  | ⟨1, _⟩ =>
    show q.val < win0_0.xsize (grid0.coords t) (1 : Fin 2)
    rw [s1]; exact q.isLt
/-- A column of the weight block likewise. -/
theorem wbuf_moved (t : Fin cfg0.N) (p : Fin 64) (r : Fin 2048) (h : 2048 * (t.val % 49) + r.val < 100000) :
    win0_1.moved (grid0.coords t) (ix2 p r) = true := by
  obtain ⟨s0, s1⟩ := blocks_xsize1 t
  refine (win0_1.moved_iff _ _).mpr fun a => ?_
  match a with
  | ⟨0, _⟩ =>
    show p.val < win0_1.xsize (grid0.coords t) (0 : Fin 2)
    rw [s0]; exact p.isLt
  | ⟨1, _⟩ =>
    show r.val < win0_1.xsize (grid0.coords t) (1 : Fin 2)
    rw [s1]; have := r.isLt; have := Nat.mod_lt t.val (show 0 < 49 by omega); split <;> omega

/-! ## The windows' blocks

An element of a block sits in the array, on each axis, at the block index times the block's size plus its own
coordinate. -/
/-- The activation buffer inside the array: row r of the block at step k is contraction index 2048·k + r. -/
theorem xbuf_apply (c : Dev nD) (t : Fin cfg0.N) (r : Fin 2048) (q : Fin 512) (h : 2048 * (t.val % 49) + r.val < 100000) :
    xbuf m c t (ix2 r q) = Vx m c (ix2 (⟨2048 * (t.val % 49) + r.val, h⟩ : Fin 100000) (⟨512 * (t.val / 49) + q.val, lane_lt t q⟩ : Fin 1024)) := by
  obtain ⟨e0, e1⟩ := blocks_idx0 t
  unfold xbuf Window.fill
  rw [dif_pos (xbuf_moved t r q h)]
  unfold iblk
  rw [View.read_apply]
  show V m c main_call0_v0 (((cfg0.win 0).blk t).view.emb _) = V m c main_call0_v0 _
  congr 1
  funext a; apply Fin.ext
  match a with
  | ⟨0, _⟩ => show win0_0.index t (0 : Fin 2) * 2048 + 1 * r.val = 2048 * (t.val % 49) + r.val; omega
  | ⟨1, _⟩ => show win0_0.index t (1 : Fin 2) * 512 + 1 * q.val = 512 * (t.val / 49) + q.val; omega
/-- The weight buffer likewise, along its columns. -/
theorem wbuf_apply (c : Dev nD) (t : Fin cfg0.N) (p : Fin 64) (r : Fin 2048) (h : 2048 * (t.val % 49) + r.val < 100000) :
    wbuf m c t (ix2 p r) = Vw m c (ix2 p (⟨2048 * (t.val % 49) + r.val, h⟩ : Fin 100000)) := by
  obtain ⟨e0, e1⟩ := blocks_idx1 t
  unfold wbuf Window.fill
  rw [dif_pos (wbuf_moved t p r h)]
  unfold iblk
  rw [View.read_apply]
  show V m c main_call0_v1 (((cfg0.win 1).blk t).view.emb _) = V m c main_call0_v1 _
  congr 1
  funext a; apply Fin.ext
  match a with
  | ⟨0, _⟩ => show win0_1.index t (0 : Fin 2) * 64 + 1 * p.val = p.val; omega
  | ⟨1, _⟩ => show win0_1.index t (1 : Fin 2) * 2048 + 1 * r.val = 2048 * (t.val % 49) + r.val; omega
/-- The compound input's block: all 1000 rows at the lane block's lanes. -/
theorem cblk_apply (c : Dev nD) (t : Fin cfg0.N) (i : Fin 1000) (q : Fin 512) :
    (iblk m c 2 t : S1000x512.Idx → Elt Ideal .f32) (ix2 i q) = Vc m c (ix2 i (⟨512 * (t.val / 49) + q.val, lane_lt t q⟩ : Fin 1024)) := by
  obtain ⟨e0, e1⟩ := blocks_idx2 t
  unfold iblk
  rw [View.read_apply]
  show V m c main_call0_v2 (((cfg0.win 2).blk t).view.emb (ix2 i q)) = V m c main_call0_v2 _
  congr 1
  funext a; apply Fin.ext
  match a with
  | ⟨0, _⟩ => show win0_2.index t (0 : Fin 2) * 1000 + 1 * i.val = i.val; omega
  | ⟨1, _⟩ => show win0_2.index t (1 : Fin 2) * 512 + 1 * q.val = 512 * (t.val / 49) + q.val; omega
/-- The small operands are staged whole. -/
theorem iblk3_eq (c : Dev nD) (t : Fin cfg0.N) : (iblk m c 3 t : S64x1000.Idx → Elt Ideal .f32) = Vcw m c := by
  obtain ⟨e0, e1⟩ := blocks_idx3 t
  funext y
  unfold iblk
  rw [View.read_apply]
  show V m c main_call0_v3 (((cfg0.win 3).blk t).view.emb y) = V m c main_call0_v3 y
  congr 1
  funext a; apply Fin.ext
  match a with
  | ⟨0, _⟩ => show win0_3.index t (0 : Fin 2) * 64 + 1 * (y 0).val = (y 0).val; omega
  | ⟨1, _⟩ => show win0_3.index t (1 : Fin 2) * 1000 + 1 * (y 1).val = (y 1).val; omega
theorem iblk4_eq (c : Dev nD) (t : Fin cfg0.N) : (iblk m c 4 t : S64x1.Idx → Elt Ideal .f32) = Vpb m c := by
  obtain ⟨e0, e1⟩ := blocks_idx4 t
  funext y
  unfold iblk
  rw [View.read_apply]
  show V m c main_call0_v4 (((cfg0.win 4).blk t).view.emb y) = V m c main_call0_v4 y
  congr 1
  funext a; apply Fin.ext
  match a with
  | ⟨0, _⟩ => show win0_4.index t (0 : Fin 2) * 64 + 1 * (y 0).val = (y 0).val; omega
  | ⟨1, _⟩ => show win0_4.index t (1 : Fin 2) * 1 + 1 * (y 1).val = (y 1).val; omega
theorem iblk5_eq (c : Dev nD) (t : Fin cfg0.N) : (iblk m c 5 t : S64x1.Idx → Elt Ideal .f32) = Vcb m c := by
  obtain ⟨e0, e1⟩ := blocks_idx5 t
  funext y
  unfold iblk
  rw [View.read_apply]
  show V m c main_call0_v5 (((cfg0.win 5).blk t).view.emb y) = V m c main_call0_v5 y
  congr 1
  funext a; apply Fin.ext
  match a with
  | ⟨0, _⟩ => show win0_5.index t (0 : Fin 2) * 64 + 1 * (y 0).val = (y 0).val; omega
  | ⟨1, _⟩ => show win0_5.index t (1 : Fin 2) * 1 + 1 * (y 1).val = (y 1).val; omega
theorem iblk6_eq (c : Dev nD) (t : Fin cfg0.N) : (iblk m c 6 t : S64x128.Idx → Elt Ideal .f32) = Vjw m c := by
  obtain ⟨e0, e1⟩ := blocks_idx6 t
  funext y
  unfold iblk
  rw [View.read_apply]
  show V m c main_call0_v6 (((cfg0.win 6).blk t).view.emb y) = V m c main_call0_v6 y
  congr 1
  funext a; apply Fin.ext
  match a with
  | ⟨0, _⟩ => show win0_6.index t (0 : Fin 2) * 64 + 1 * (y 0).val = (y 0).val; omega
  | ⟨1, _⟩ => show win0_6.index t (1 : Fin 2) * 128 + 1 * (y 1).val = (y 1).val; omega
theorem iblk7_eq (c : Dev nD) (t : Fin cfg0.N) : (iblk m c 7 t : S64x1.Idx → Elt Ideal .f32) = Vjb m c := by
  obtain ⟨e0, e1⟩ := blocks_idx7 t
  funext y
  unfold iblk
  rw [View.read_apply]
  show V m c main_call0_v7 (((cfg0.win 7).blk t).view.emb y) = V m c main_call0_v7 y
  congr 1
  funext a; apply Fin.ext
  match a with
  | ⟨0, _⟩ => show win0_7.index t (0 : Fin 2) * 64 + 1 * (y 0).val = (y 0).val; omega
  | ⟨1, _⟩ => show win0_7.index t (1 : Fin 2) * 1 + 1 * (y 1).val = (y 1).val; omega
theorem iblk8_eq (c : Dev nD) (t : Fin cfg0.N) : (iblk m c 8 t : S1x64.Idx → Elt Ideal .f32) = Vow m c := by
  obtain ⟨e0, e1⟩ := blocks_idx8 t
  funext y
  unfold iblk
  rw [View.read_apply]
  show V m c main_call0_v8 (((cfg0.win 8).blk t).view.emb y) = V m c main_call0_v8 y
  congr 1
  funext a; apply Fin.ext
  match a with
  | ⟨0, _⟩ => show win0_8.index t (0 : Fin 2) * 1 + 1 * (y 0).val = (y 0).val; omega
  | ⟨1, _⟩ => show win0_8.index t (1 : Fin 2) * 64 + 1 * (y 1).val = (y 1).val; omega
theorem iblk9_eq (c : Dev nD) (t : Fin cfg0.N) : (iblk m c 9 t : S1x1.Idx → Elt Ideal .f32) = Vob m c := by
  obtain ⟨e0, e1⟩ := blocks_idx9 t
  funext y
  unfold iblk
  rw [View.read_apply]
  show V m c main_call0_v9 (((cfg0.win 9).blk t).view.emb y) = V m c main_call0_v9 y
  congr 1
  funext a; apply Fin.ext
  match a with
  | ⟨0, _⟩ => show win0_9.index t (0 : Fin 2) * 1 + 1 * (y 0).val = (y 0).val; omega
  | ⟨1, _⟩ => show win0_9.index t (1 : Fin 2) * 1 + 1 * (y 1).val = (y 1).val; omega

end Cert.KernelIdeal.Mlp

end
-- ==== Proof.MlpIdeal.PayAt.lean ====
import proofs.«134165_g26456998544025_cont_9to1_950_18_alg».proof.Proof.Gen.KernelIdeal.Skeleton
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! # The body's payloads at an index, over the extended reals

Each store's value as a function of the blocks the body loaded, read at one element: the matrix products as finite
sums over the contracted coordinate, the bias columns broadcast along the lanes, relu as the maximum with zero, the
format changes the identity, and the select on "contraction index below 1696" as an if. -/

/-! ## A column broadcast along the lanes -/

/-- An `[a, 1]` column broadcast to `[a, b]` reads, at `(p, c)`, the column's entry in row `p`. -/
theorem payat_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The zero word is the extended real zero, as the scalar a splat carries. -/
theorem payat_scalar_zero_f32 : (Scalar.ofBits (F := Ideal) .f32 0x00000000#32 : Ideal .f32) = 0 := Ideal.ofBits_zero_f32

/-! ## The matrix products into the zero accumulator, read at an index -/

/-! ### the 64x1000 by 1000x512 product -/

/-- The left operand's row is the output's row. -/
theorem payat_mmA_lhs_0 (i : S64x512.Idx) (c : dot_S64x1000_S1000x512_S64x512_1_0_0_1_n_n.contr.Idx) :
    (dot_S64x1000_S1000x512_S64x512_1_0_0_1_n_n.lhsIdx i c 0).val = (i 0).val := by
  unfold DotDims.lhsIdx
  rw [dif_neg (show ¬(0 : Fin S64x1000.rank) ∈ dot_S64x1000_S1000x512_S64x512_1_0_0_1_n_n.lhsBatch by decide), dif_pos (show (0 : Fin S64x1000.rank) ∈ dot_S64x1000_S1000x512_S64x512_1_0_0_1_n_n.lhsNonContracting by decide)]
  rfl
/-- The left operand's column is the contracted coordinate. -/
theorem payat_mmA_lhs_1 (i : S64x512.Idx) (c : dot_S64x1000_S1000x512_S64x512_1_0_0_1_n_n.contr.Idx) :
    (dot_S64x1000_S1000x512_S64x512_1_0_0_1_n_n.lhsIdx i c 1).val = (c ⟨0, by decide⟩).val :=
  dot_S64x1000_S1000x512_S64x512_1_0_0_1_n_n.lhsIdx_val_of_single rfl i c
/-- The right operand's row is the contracted coordinate. -/
theorem payat_mmA_rhs_0 (i : S64x512.Idx) (c : dot_S64x1000_S1000x512_S64x512_1_0_0_1_n_n.contr.Idx) :
    (dot_S64x1000_S1000x512_S64x512_1_0_0_1_n_n.rhsIdx i c 0).val = (c ⟨0, by decide⟩).val :=
  dot_S64x1000_S1000x512_S64x512_1_0_0_1_n_n.rhsIdx_val_of_single rfl i c
/-- The right operand's column is the output's column. -/
theorem payat_mmA_rhs_1 (i : S64x512.Idx) (c : dot_S64x1000_S1000x512_S64x512_1_0_0_1_n_n.contr.Idx) :
    (dot_S64x1000_S1000x512_S64x512_1_0_0_1_n_n.rhsIdx i c 1).val = (i 1).val := by
  unfold DotDims.rhsIdx
  rw [dif_neg (show ¬(1 : Fin S1000x512.rank) ∈ dot_S64x1000_S1000x512_S64x512_1_0_0_1_n_n.rhsBatch by decide), dif_pos (show (1 : Fin S1000x512.rank) ∈ dot_S64x1000_S1000x512_S64x512_1_0_0_1_n_n.rhsNonContracting by decide)]
  rfl
/-- Into the zero accumulator, the product at row `p` and column `q` is the sum over the contracted coordinate of
    the left operand's row `p` times the right operand's column `q`. -/
theorem payat_mmA_apply {φ₁ φ₂ : FTy} (A : FVec Ideal S64x1000 φ₁) (B : FVec Ideal S1000x512 φ₂) (p : Fin 64) (q : Fin 512) :
    matmul dot_S64x1000_S1000x512_S64x512_1_0_0_1_n_n none A B (constant (F := Ideal) S64x512 .f32 0x00000000#32) (ix2 p q)
      = ∑ k : Fin 1000, A (ix2 p k) * B (ix2 k q) := by
  show FloatOps.matmul dot_S64x1000_S1000x512_S64x512_1_0_0_1_n_n none A B (constant (F := Ideal) S64x512 .f32 0x00000000#32) (ix2 p q) = _
  rw [Ideal.matmul_constant_zero_apply, ← Equiv.sum_comp (contrEquiv1 dot_S64x1000_S1000x512_S64x512_1_0_0_1_n_n 1000 rfl rfl).symm]
  refine Finset.sum_congr rfl fun k _ => ?_
  have hk := contrEquiv1_symm_val dot_S64x1000_S1000x512_S64x512_1_0_0_1_n_n 1000 rfl rfl k
  have el : dot_S64x1000_S1000x512_S64x512_1_0_0_1_n_n.lhsIdx (ix2 p q) ((contrEquiv1 dot_S64x1000_S1000x512_S64x512_1_0_0_1_n_n 1000 rfl rfl).symm k) = ix2 p k := funext fun a => Fin.ext (by
    match a with
    | ⟨0, _⟩ => exact payat_mmA_lhs_0 _ _
    | ⟨1, _⟩ => exact (payat_mmA_lhs_1 _ _).trans hk)
  have er : dot_S64x1000_S1000x512_S64x512_1_0_0_1_n_n.rhsIdx (ix2 p q) ((contrEquiv1 dot_S64x1000_S1000x512_S64x512_1_0_0_1_n_n 1000 rfl rfl).symm k) = ix2 k q := funext fun a => Fin.ext (by
    match a with
    | ⟨0, _⟩ => exact (payat_mmA_rhs_0 _ _).trans hk
    | ⟨1, _⟩ => exact payat_mmA_rhs_1 _ _)
  rw [el, er]

/-! ### the 64x2048 by 2048x512 product -/

/-- The left operand's row is the output's row. -/
theorem payat_mmB_lhs_0 (i : S64x512.Idx) (c : dot_S64x2048_S2048x512_S64x512_1_0_0_1_n_n.contr.Idx) :
    (dot_S64x2048_S2048x512_S64x512_1_0_0_1_n_n.lhsIdx i c 0).val = (i 0).val := by
  unfold DotDims.lhsIdx
  rw [dif_neg (show ¬(0 : Fin S64x2048.rank) ∈ dot_S64x2048_S2048x512_S64x512_1_0_0_1_n_n.lhsBatch by decide), dif_pos (show (0 : Fin S64x2048.rank) ∈ dot_S64x2048_S2048x512_S64x512_1_0_0_1_n_n.lhsNonContracting by decide)]
  rfl
/-- The left operand's column is the contracted coordinate. -/
theorem payat_mmB_lhs_1 (i : S64x512.Idx) (c : dot_S64x2048_S2048x512_S64x512_1_0_0_1_n_n.contr.Idx) :
    (dot_S64x2048_S2048x512_S64x512_1_0_0_1_n_n.lhsIdx i c 1).val = (c ⟨0, by decide⟩).val :=
  dot_S64x2048_S2048x512_S64x512_1_0_0_1_n_n.lhsIdx_val_of_single rfl i c
/-- The right operand's row is the contracted coordinate. -/
theorem payat_mmB_rhs_0 (i : S64x512.Idx) (c : dot_S64x2048_S2048x512_S64x512_1_0_0_1_n_n.contr.Idx) :
    (dot_S64x2048_S2048x512_S64x512_1_0_0_1_n_n.rhsIdx i c 0).val = (c ⟨0, by decide⟩).val :=
  dot_S64x2048_S2048x512_S64x512_1_0_0_1_n_n.rhsIdx_val_of_single rfl i c
/-- The right operand's column is the output's column. -/
theorem payat_mmB_rhs_1 (i : S64x512.Idx) (c : dot_S64x2048_S2048x512_S64x512_1_0_0_1_n_n.contr.Idx) :
    (dot_S64x2048_S2048x512_S64x512_1_0_0_1_n_n.rhsIdx i c 1).val = (i 1).val := by
  unfold DotDims.rhsIdx
  rw [dif_neg (show ¬(1 : Fin S2048x512.rank) ∈ dot_S64x2048_S2048x512_S64x512_1_0_0_1_n_n.rhsBatch by decide), dif_pos (show (1 : Fin S2048x512.rank) ∈ dot_S64x2048_S2048x512_S64x512_1_0_0_1_n_n.rhsNonContracting by decide)]
  rfl
/-- Into the zero accumulator, the product at row `p` and column `q` is the sum over the contracted coordinate of
    the left operand's row `p` times the right operand's column `q`. -/
theorem payat_mmB_apply {φ₁ φ₂ : FTy} (A : FVec Ideal S64x2048 φ₁) (B : FVec Ideal S2048x512 φ₂) (p : Fin 64) (q : Fin 512) :
    matmul dot_S64x2048_S2048x512_S64x512_1_0_0_1_n_n none A B (constant (F := Ideal) S64x512 .f32 0x00000000#32) (ix2 p q)
      = ∑ k : Fin 2048, A (ix2 p k) * B (ix2 k q) := by
  show FloatOps.matmul dot_S64x2048_S2048x512_S64x512_1_0_0_1_n_n none A B (constant (F := Ideal) S64x512 .f32 0x00000000#32) (ix2 p q) = _
  rw [Ideal.matmul_constant_zero_apply, ← Equiv.sum_comp (contrEquiv1 dot_S64x2048_S2048x512_S64x512_1_0_0_1_n_n 2048 rfl rfl).symm]
  refine Finset.sum_congr rfl fun k _ => ?_
  have hk := contrEquiv1_symm_val dot_S64x2048_S2048x512_S64x512_1_0_0_1_n_n 2048 rfl rfl k
  have el : dot_S64x2048_S2048x512_S64x512_1_0_0_1_n_n.lhsIdx (ix2 p q) ((contrEquiv1 dot_S64x2048_S2048x512_S64x512_1_0_0_1_n_n 2048 rfl rfl).symm k) = ix2 p k := funext fun a => Fin.ext (by
    match a with
    | ⟨0, _⟩ => exact payat_mmB_lhs_0 _ _
    | ⟨1, _⟩ => exact (payat_mmB_lhs_1 _ _).trans hk)
  have er : dot_S64x2048_S2048x512_S64x512_1_0_0_1_n_n.rhsIdx (ix2 p q) ((contrEquiv1 dot_S64x2048_S2048x512_S64x512_1_0_0_1_n_n 2048 rfl rfl).symm k) = ix2 k q := funext fun a => Fin.ext (by
    match a with
    | ⟨0, _⟩ => exact (payat_mmB_rhs_0 _ _).trans hk
    | ⟨1, _⟩ => exact payat_mmB_rhs_1 _ _)
  rw [el, er]

/-! ### the 64x64 by 64x512 product -/

/-- The left operand's row is the output's row. -/
theorem payat_mmC_lhs_0 (i : S64x512.Idx) (c : dot_S64x64_S64x512_S64x512_1_0_0_1_n_n.contr.Idx) :
    (dot_S64x64_S64x512_S64x512_1_0_0_1_n_n.lhsIdx i c 0).val = (i 0).val := by
  unfold DotDims.lhsIdx
  rw [dif_neg (show ¬(0 : Fin S64x64.rank) ∈ dot_S64x64_S64x512_S64x512_1_0_0_1_n_n.lhsBatch by decide), dif_pos (show (0 : Fin S64x64.rank) ∈ dot_S64x64_S64x512_S64x512_1_0_0_1_n_n.lhsNonContracting by decide)]
  rfl
/-- The left operand's column is the contracted coordinate. -/
theorem payat_mmC_lhs_1 (i : S64x512.Idx) (c : dot_S64x64_S64x512_S64x512_1_0_0_1_n_n.contr.Idx) :
    (dot_S64x64_S64x512_S64x512_1_0_0_1_n_n.lhsIdx i c 1).val = (c ⟨0, by decide⟩).val :=
  dot_S64x64_S64x512_S64x512_1_0_0_1_n_n.lhsIdx_val_of_single rfl i c
/-- The right operand's row is the contracted coordinate. -/
theorem payat_mmC_rhs_0 (i : S64x512.Idx) (c : dot_S64x64_S64x512_S64x512_1_0_0_1_n_n.contr.Idx) :
    (dot_S64x64_S64x512_S64x512_1_0_0_1_n_n.rhsIdx i c 0).val = (c ⟨0, by decide⟩).val :=
  dot_S64x64_S64x512_S64x512_1_0_0_1_n_n.rhsIdx_val_of_single rfl i c
/-- The right operand's column is the output's column. -/
theorem payat_mmC_rhs_1 (i : S64x512.Idx) (c : dot_S64x64_S64x512_S64x512_1_0_0_1_n_n.contr.Idx) :
    (dot_S64x64_S64x512_S64x512_1_0_0_1_n_n.rhsIdx i c 1).val = (i 1).val := by
  unfold DotDims.rhsIdx
  rw [dif_neg (show ¬(1 : Fin S64x512.rank) ∈ dot_S64x64_S64x512_S64x512_1_0_0_1_n_n.rhsBatch by decide), dif_pos (show (1 : Fin S64x512.rank) ∈ dot_S64x64_S64x512_S64x512_1_0_0_1_n_n.rhsNonContracting by decide)]
  rfl
/-- Into the zero accumulator, the product at row `p` and column `q` is the sum over the contracted coordinate of
    the left operand's row `p` times the right operand's column `q`. -/
theorem payat_mmC_apply {φ₁ φ₂ : FTy} (A : FVec Ideal S64x64 φ₁) (B : FVec Ideal S64x512 φ₂) (p : Fin 64) (q : Fin 512) :
    matmul dot_S64x64_S64x512_S64x512_1_0_0_1_n_n none A B (constant (F := Ideal) S64x512 .f32 0x00000000#32) (ix2 p q)
      = ∑ k : Fin 64, A (ix2 p k) * B (ix2 k q) := by
  show FloatOps.matmul dot_S64x64_S64x512_S64x512_1_0_0_1_n_n none A B (constant (F := Ideal) S64x512 .f32 0x00000000#32) (ix2 p q) = _
  rw [Ideal.matmul_constant_zero_apply, ← Equiv.sum_comp (contrEquiv1 dot_S64x64_S64x512_S64x512_1_0_0_1_n_n 64 rfl rfl).symm]
  refine Finset.sum_congr rfl fun k _ => ?_
  have hk := contrEquiv1_symm_val dot_S64x64_S64x512_S64x512_1_0_0_1_n_n 64 rfl rfl k
  have el : dot_S64x64_S64x512_S64x512_1_0_0_1_n_n.lhsIdx (ix2 p q) ((contrEquiv1 dot_S64x64_S64x512_S64x512_1_0_0_1_n_n 64 rfl rfl).symm k) = ix2 p k := funext fun a => Fin.ext (by
    match a with
    | ⟨0, _⟩ => exact payat_mmC_lhs_0 _ _
    | ⟨1, _⟩ => exact (payat_mmC_lhs_1 _ _).trans hk)
  have er : dot_S64x64_S64x512_S64x512_1_0_0_1_n_n.rhsIdx (ix2 p q) ((contrEquiv1 dot_S64x64_S64x512_S64x512_1_0_0_1_n_n 64 rfl rfl).symm k) = ix2 k q := funext fun a => Fin.ext (by
    match a with
    | ⟨0, _⟩ => exact (payat_mmC_rhs_0 _ _).trans hk
    | ⟨1, _⟩ => exact payat_mmC_rhs_1 _ _)
  rw [el, er]

/-! ### the 1x64 by 64x512 product -/

/-- The left operand's row is the output's row. -/
theorem payat_mmD_lhs_0 (i : S1x512.Idx) (c : dot_S1x64_S64x512_S1x512_1_0_0_1_n_n.contr.Idx) :
    (dot_S1x64_S64x512_S1x512_1_0_0_1_n_n.lhsIdx i c 0).val = (i 0).val := by
  unfold DotDims.lhsIdx
  rw [dif_neg (show ¬(0 : Fin S1x64.rank) ∈ dot_S1x64_S64x512_S1x512_1_0_0_1_n_n.lhsBatch by decide), dif_pos (show (0 : Fin S1x64.rank) ∈ dot_S1x64_S64x512_S1x512_1_0_0_1_n_n.lhsNonContracting by decide)]
  rfl
/-- The left operand's column is the contracted coordinate. -/
theorem payat_mmD_lhs_1 (i : S1x512.Idx) (c : dot_S1x64_S64x512_S1x512_1_0_0_1_n_n.contr.Idx) :
    (dot_S1x64_S64x512_S1x512_1_0_0_1_n_n.lhsIdx i c 1).val = (c ⟨0, by decide⟩).val :=
  dot_S1x64_S64x512_S1x512_1_0_0_1_n_n.lhsIdx_val_of_single rfl i c
/-- The right operand's row is the contracted coordinate. -/
theorem payat_mmD_rhs_0 (i : S1x512.Idx) (c : dot_S1x64_S64x512_S1x512_1_0_0_1_n_n.contr.Idx) :
    (dot_S1x64_S64x512_S1x512_1_0_0_1_n_n.rhsIdx i c 0).val = (c ⟨0, by decide⟩).val :=
  dot_S1x64_S64x512_S1x512_1_0_0_1_n_n.rhsIdx_val_of_single rfl i c
/-- The right operand's column is the output's column. -/
theorem payat_mmD_rhs_1 (i : S1x512.Idx) (c : dot_S1x64_S64x512_S1x512_1_0_0_1_n_n.contr.Idx) :
    (dot_S1x64_S64x512_S1x512_1_0_0_1_n_n.rhsIdx i c 1).val = (i 1).val := by
  unfold DotDims.rhsIdx
  rw [dif_neg (show ¬(1 : Fin S64x512.rank) ∈ dot_S1x64_S64x512_S1x512_1_0_0_1_n_n.rhsBatch by decide), dif_pos (show (1 : Fin S64x512.rank) ∈ dot_S1x64_S64x512_S1x512_1_0_0_1_n_n.rhsNonContracting by decide)]
  rfl
/-- Into the zero accumulator, the product at row `p` and column `q` is the sum over the contracted coordinate of
    the left operand's row `p` times the right operand's column `q`. -/
theorem payat_mmD_apply {φ₁ φ₂ : FTy} (A : FVec Ideal S1x64 φ₁) (B : FVec Ideal S64x512 φ₂) (p : Fin 1) (q : Fin 512) :
    matmul dot_S1x64_S64x512_S1x512_1_0_0_1_n_n none A B (constant (F := Ideal) S1x512 .f32 0x00000000#32) (ix2 p q)
      = ∑ k : Fin 64, A (ix2 p k) * B (ix2 k q) := by
  show FloatOps.matmul dot_S1x64_S64x512_S1x512_1_0_0_1_n_n none A B (constant (F := Ideal) S1x512 .f32 0x00000000#32) (ix2 p q) = _
  rw [Ideal.matmul_constant_zero_apply, ← Equiv.sum_comp (contrEquiv1 dot_S1x64_S64x512_S1x512_1_0_0_1_n_n 64 rfl rfl).symm]
  refine Finset.sum_congr rfl fun k _ => ?_
  have hk := contrEquiv1_symm_val dot_S1x64_S64x512_S1x512_1_0_0_1_n_n 64 rfl rfl k
  have el : dot_S1x64_S64x512_S1x512_1_0_0_1_n_n.lhsIdx (ix2 p q) ((contrEquiv1 dot_S1x64_S64x512_S1x512_1_0_0_1_n_n 64 rfl rfl).symm k) = ix2 p k := funext fun a => Fin.ext (by
    match a with
    | ⟨0, _⟩ => exact payat_mmD_lhs_0 _ _
    | ⟨1, _⟩ => exact (payat_mmD_lhs_1 _ _).trans hk)
  have er : dot_S1x64_S64x512_S1x512_1_0_0_1_n_n.rhsIdx (ix2 p q) ((contrEquiv1 dot_S1x64_S64x512_S1x512_1_0_0_1_n_n 64 rfl rfl).symm k) = ix2 k q := funext fun a => Fin.ext (by
    match a with
    | ⟨0, _⟩ => exact (payat_mmD_rhs_0 _ _).trans hk
    | ⟨1, _⟩ => exact payat_mmD_rhs_1 _ _)
  rw [el, er]

/-! ## The mask "coordinate below 1696" -/

/-- For a coordinate below 2048, the signed comparison of its word with 1696 is the comparison of naturals. -/
theorem payat_slt_1696 (n : ℕ) (hn : n < 2048) : IntOp.cmpi .slt (BitVec.ofNat 32 n) 1696#32 = if n < 1696 then 1#1 else 0#1 := by
  have hv : (BitVec.ofNat 32 n).toNat = n := by rw [BitVec.toNat_ofNat]; exact Nat.mod_eq_of_lt (by omega)
  have key := StableHlo.Predicate.slt_iff_toNat (a := BitVec.ofNat 32 n) (b := 1696#32) (by rw [hv]; omega) (by decide)
  rw [hv] at key
  by_cases h : n < 1696
  · rw [if_pos h]; exact key.mpr h
  · rw [if_neg h]; exact eq_zero_of_ne_one fun h1 => h (key.mp h1)

/-- So a select on that bit is an if on the coordinate. -/
theorem payat_select_1696 {α : Type} (n : ℕ) (hn : n < 2048) (a b : α) :
    Scalar.select (IntOp.cmpi .slt (BitVec.ofNat 32 n) 1696#32) a b = if n < 1696 then a else b := by
  rw [payat_slt_1696 n hn]
  by_cases h : n < 1696
  · rw [if_pos h, if_pos h, select_one]
  · rw [if_neg h, if_neg h, select_zero]

/-- The right operand masked on its rows. -/
theorem payat_rowMask_apply (h : S2048x512.Iotas .tc 32 [0]) (x : FVec Ideal S2048x512 .f32) (i : Fin 2048) (q : Fin 512) :
    select (cmpi .slt (iota .tc S2048x512 32 [0] h) (broadcast S2048x512 1696#32)) x
        (broadcast S2048x512 (Scalar.ofBits (F := Ideal) .f32 0x00000000#32)) (ix2 i q)
      = if i.val < 1696 then x (ix2 i q) else 0 := by
  rw [select_apply]
  show Scalar.select (IntOp.cmpi .slt (iota .tc S2048x512 32 [0] h (ix2 i q)) 1696#32) (x (ix2 i q))
    (Scalar.ofBits (F := Ideal) .f32 0x00000000#32) = _
  rw [iota_single_apply, payat_scalar_zero_f32]
  exact payat_select_1696 i.val i.isLt _ _

/-- The left operand masked on its columns. -/
theorem payat_colMask_apply (h : S64x2048.Iotas .tc 32 [1]) (x : FVec Ideal S64x2048 .f32) (p : Fin 64) (i : Fin 2048) :
    select (cmpi .slt (iota .tc S64x2048 32 [1] h) (broadcast S64x2048 1696#32)) x
        (broadcast S64x2048 (Scalar.ofBits (F := Ideal) .f32 0x00000000#32)) (ix2 p i)
      = if i.val < 1696 then x (ix2 p i) else 0 := by
  rw [select_apply]
  show Scalar.select (IntOp.cmpi .slt (iota .tc S64x2048 32 [1] h (ix2 p i)) 1696#32) (x (ix2 p i))
    (Scalar.ofBits (F := Ideal) .f32 0x00000000#32) = _
  rw [iota_single_apply, payat_scalar_zero_f32]
  exact payat_select_1696 i.val i.isLt _ _

/-! ## The payloads -/

theorem pay1_apply (p : Fin 64) (q : Fin 512) : k0_pay1 (F := Ideal) (ix2 p q) = 0 := by
  unfold k0_pay1
  rw [shapeCast_self]
  exact payat_scalar_zero_f32

theorem pay2_apply (cw : Vec Ideal S64x1000 .f32) (ct : Vec Ideal S1000x512 .f32) (cb : Vec Ideal S64x1 .f32) (p : Fin 64) (q : Fin 512) :
    k0_pay2 cw ct cb (ix2 p q) = max (∑ i : Fin 1000, cw (ix2 p i) * ct (ix2 i q) + cb (ix2 p (0 : Fin 1))) 0 := by
  unfold k0_pay2
  simp only [shapeCast_self]
  rw [maximumf_apply, addf_apply, payat_mmA_apply, payat_broadcastTo_a1_ab_apply, broadcast_apply, payat_scalar_zero_f32]

theorem pay3_apply (a : Vec Ideal S64x512 .f32) (x1 : Vec Ideal S64x2048 .f32) (x0 : Vec Ideal S2048x512 .f32) (p : Fin 64) (q : Fin 512) :
    k0_pay3 a x1 x0 (ix2 p q) = a (ix2 p q) + ∑ i : Fin 2048, x1 (ix2 p i) * x0 (ix2 i q) := by
  unfold k0_pay3
  simp only [shapeCast_self]
  rw [addf_apply, payat_mmB_apply]
  rfl

theorem pay5_apply (x0 : Vec Ideal S2048x512 .f32) (x1 : Vec Ideal S64x2048 .f32) (a : Vec Ideal S64x512 .f32) (p : Fin 64) (q : Fin 512) :
    k0_pay5 x0 x1 a (ix2 p q)
      = a (ix2 p q) + ∑ i : Fin 2048, (if i.val < 1696 then x1 (ix2 p i) else 0) * (if i.val < 1696 then x0 (ix2 i q) else 0) := by
  unfold k0_pay5
  simp only [shapeCast_self]
  rw [addf_apply, payat_mmB_apply]
  refine congrArg (fun t => a (ix2 p q) + t) (Finset.sum_congr rfl fun i _ => ?_)
  rw [truncf_apply, truncf_apply, payat_colMask_apply, payat_rowMask_apply]

theorem pay7_apply (acc : Vec Ideal S64x512 .f32) (pb : Vec Ideal S64x1 .f32) (jw : Vec Ideal S64x128 .f32) (p : Fin 64) (q : Fin 512) :
    k0_pay7 acc pb jw (ix2 p q)
      = ∑ e : Fin 64, jw (ix2 p (Fin.castAdd 64 e)) * max (acc (ix2 e q) + pb (ix2 e (0 : Fin 1))) 0 := by
  unfold k0_pay7 k0_pay6
  simp only [shapeCast_self]
  rw [payat_mmC_apply]
  refine Finset.sum_congr rfl fun e _ => ?_
  rw [slice2_axis1_apply 0 jw _ p e (Fin.castAdd 64 e) (Nat.zero_add _).symm, maximumf_apply, addf_apply,
    payat_broadcastTo_a1_ab_apply, broadcast_apply, payat_scalar_zero_f32]

theorem pay8_apply (jw : Vec Ideal S64x128 .f32) (p e : Fin 64) :
    k0_pay8 jw (ix2 p e) = jw (ix2 p (Fin.natAdd 64 e)) := by
  unfold k0_pay8 k0_pay6
  rw [shapeCast_self]
  exact slice2_axis1_apply 64 jw _ p e (Fin.natAdd 64 e) rfl

theorem pay4_apply (v41 : FVec Ideal S64x512 .f32) (v42 : FVec Ideal S64x64 .f32) (v43 : Vec Ideal S64x512 .f32)
    (jb : Vec Ideal S64x1 .f32) (ow : Vec Ideal S1x64 .f32) (ob : Vec Ideal S1x1 .f32) (q : Fin 512) :
    k0_pay4 v41 v42 v43 (constant S64x512 .f32 0x00000000#32) jb ow ob (ix2 (0 : Fin 1) q)
      = ∑ j : Fin 64, ow (ix2 (0 : Fin 1) j) * max ((v41 (ix2 j q) + ∑ e : Fin 64, v42 (ix2 j e) * v43 (ix2 e q)) + jb (ix2 j (0 : Fin 1))) 0
        + ob (ix2 (0 : Fin 1) (0 : Fin 1)) := by
  unfold k0_pay4
  simp only [shapeCast_self]
  rw [addf_apply, payat_mmD_apply, payat_broadcastTo_a1_ab_apply]
  refine congrArg (fun t => t + ob (ix2 (0 : Fin 1) (0 : Fin 1))) (Finset.sum_congr rfl fun j _ => ?_)
  rw [maximumf_apply, addf_apply, addf_apply, payat_mmC_apply, payat_broadcastTo_a1_ab_apply, broadcast_apply, payat_scalar_zero_f32]

end Cert.KernelIdeal.Mlp

end
-- ==== Proof.MlpIdeal.Accum.lean ====
import proofs.«134165_g26456998544025_cont_9to1_950_18_alg».proof.Proof.MlpIdeal.Blocks
import proofs.«134165_g26456998544025_cont_9to1_950_18_alg».proof.Proof.MlpIdeal.PayAt

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! # The accumulator in closed form

Inside lane block b the accumulator after step k holds, at feature p and lane q, the sum over the first 2048·(k+1)
contraction indices (all 100000 of them once k = 48) of weight times activation; the compound-embedding scratch holds
relu of the compound product plus bias from step 0 on. By induction over the grid points, one block of the
contraction per step: a sum over indices below a + 2048 is the sum below a plus the block's 2048 terms, those past
the array's end contributing nothing. -/

/-! ## One block of a cut sum

A sum over the indices below a + B is the sum over those below a plus the B terms of the block starting at a,
terms whose index falls past the end of the index set contributing nothing. -/

/-- A sum over `Fin N` cut at `a` is the sum over the first `a` naturals of the summand extended by zero. -/
theorem sum_cut_eq_range {M : Type*} [AddCommMonoid M] {N : ℕ} (f : Fin N → M) (a : ℕ) :
    (∑ i : Fin N, if i.val < a then f i else 0)
      = ∑ n ∈ Finset.range a, (if h : n < N then f ⟨n, h⟩ else 0) := by
  have e1 : (∑ i : Fin N, if i.val < a then f i else 0)
      = ∑ i : Fin N, (fun n : ℕ => if n < a then (if h : n < N then f ⟨n, h⟩ else 0) else 0) i.val := by
    refine Finset.sum_congr rfl fun i _ => ?_
    simp only [i.isLt, dite_true]
  rw [e1, Fin.sum_univ_eq_sum_range (fun n : ℕ => if n < a then (if h : n < N then f ⟨n, h⟩ else 0) else 0) N,
    ← Finset.sum_filter]
  have e2 : (∑ n ∈ Finset.range a, (if h : n < N then f ⟨n, h⟩ else 0))
      = ∑ n ∈ (Finset.range a).filter (fun n => n < N), (if h : n < N then f ⟨n, h⟩ else 0) := by
    rw [Finset.sum_filter]
    refine Finset.sum_congr rfl fun n _ => ?_
    by_cases h : n < N
    · simp only [h, if_true]
    · simp only [h, dite_false, if_false]
  rw [e2]
  refine Finset.sum_congr ?_ fun _ _ => rfl
  ext n
  simp only [Finset.mem_filter, Finset.mem_range]
  exact and_comm

/-- The step of the accumulation: one more block of `B` terms. -/
theorem sum_cut_add_block {M : Type*} [AddCommMonoid M] {N : ℕ} (f : Fin N → M) (a B : ℕ) :
    (∑ i : Fin N, if i.val < a + B then f i else 0)
      = (∑ i : Fin N, if i.val < a then f i else 0)
        + ∑ r : Fin B, (if h : a + r.val < N then f ⟨a + r.val, h⟩ else 0) := by
  rw [sum_cut_eq_range, sum_cut_eq_range, Finset.sum_range_add,
    ← Fin.sum_univ_eq_sum_range (fun r : ℕ => if h : a + r < N then f ⟨a + r, h⟩ else 0) B]

variable (m : (ℓ : Loc nD τ sig) → Buf (Elt Ideal) ℓ)

/-- The accumulator's closed form, stated at any lane index equal to the block's lane, by induction over the points:
    the first point of a lane block starts from the cleared accumulator, every later one adds its block to what the
    point before left, and at the last point exactly the block's first 1696 indices lie inside the contraction. -/
theorem scAt_acc_aux (c : Dev nD) (p : Fin 64) (q : Fin 512) :
    ∀ (n : ℕ) (hn : n < cfg0.N) (L : Fin 1024), L.val = 512 * (n / 49) + q.val →
      (scAt m c n hn).1 (ix2 p q)
        = ∑ i : Fin 100000, if i.val < 2048 * (n % 49 + 1) then Vw m c (ix2 p i) * Vx m c (ix2 i L) else 0 := by
  intro n
  induction n using Nat.strong_induction_on with
  | _ n ih =>
    intro hn L hL
    have hN : n < 98 := lt_of_lt_of_eq hn N_0
    -- one term of the block's product is one term of the contraction
    have hterm : ∀ (r : Fin 2048) (h : 2048 * (n % 49) + r.val < 100000),
        wbuf m c ⟨n, hn⟩ (ix2 p r) * xbuf m c ⟨n, hn⟩ (ix2 r q)
          = Vw m c (ix2 p (⟨2048 * (n % 49) + r.val, h⟩ : Fin 100000))
            * Vx m c (ix2 (⟨2048 * (n % 49) + r.val, h⟩ : Fin 100000) L) := by
      intro r h
      rw [wbuf_apply m c ⟨n, hn⟩ p r h, xbuf_apply m c ⟨n, hn⟩ r q h]
      have hlane : (⟨512 * (n / 49) + q.val, lane_lt ⟨n, hn⟩ q⟩ : Fin 1024) = L := Fin.ext hL.symm
      rw [hlane]
    have hstep := sum_cut_add_block (fun i : Fin 100000 => Vw m c (ix2 p i) * Vx m c (ix2 i L)) (2048 * (n % 49)) 2048
    have hmul : 2048 * (n % 49 + 1) = 2048 * (n % 49) + 2048 := by ring
    rw [hmul, hstep]
    by_cases h0 : n % 49 = 0
    · -- k = 0: nothing below the block, and the accumulator starts cleared
      rw [scAt_first m c ⟨n, hn⟩ h0]
      dsimp only
      rw [pay3_apply, pay1_apply]
      refine congrArg₂ (· + ·) ?_ ?_
      · symm
        refine Finset.sum_eq_zero fun i _ => ?_
        rw [if_neg]; omega
      · refine Finset.sum_congr rfl fun r _ => ?_
        have h : 2048 * (n % 49) + r.val < 100000 := by have := r.isLt; omega
        rw [dif_pos h]; exact hterm r h
    · have hprev : 2048 * ((n - 1) % 49 + 1) = 2048 * (n % 49) := by omega
      by_cases h1 : n % 49 = 48
      · -- k = 48: the block is cut after 1696 indices, and the body masks the rest on both factors
        rw [scAt_last m c ⟨n, hn⟩ h1]
        dsimp only
        rw [pay5_apply, ih (n - 1) (by omega) _ L (by omega), hprev]
        refine congrArg₂ (· + ·) rfl ?_
        refine Finset.sum_congr rfl fun r _ => ?_
        by_cases hr : r.val < 1696
        · have h : 2048 * (n % 49) + r.val < 100000 := by omega
          rw [if_pos hr, if_pos hr, dif_pos h]; exact hterm r h
        · have h : ¬ 2048 * (n % 49) + r.val < 100000 := by omega
          rw [if_neg hr, if_neg hr, dif_neg h, mul_zero]
      · -- 0 < k < 48: the whole block lies inside the contraction
        rw [scAt_mid m c ⟨n, hn⟩ h0 h1]
        dsimp only
        rw [pay3_apply, ih (n - 1) (by omega) _ L (by omega), hprev]
        refine congrArg₂ (· + ·) rfl ?_
        refine Finset.sum_congr rfl fun r _ => ?_
        have h : 2048 * (n % 49) + r.val < 100000 := by have := r.isLt; omega
        rw [dif_pos h]; exact hterm r h

theorem scAt_acc (c : Dev nD) (t : Fin cfg0.N) (p : Fin 64) (q : Fin 512) :
    (scAt m c t.val t.isLt).1 (ix2 p q)
      = ∑ i : Fin 100000, if i.val < 2048 * (t.val % 49 + 1) then
          Vw m c (ix2 p i) * Vx m c (ix2 i (⟨512 * (t.val / 49) + q.val, lane_lt t q⟩ : Fin 1024)) else 0 := by
  exact scAt_acc_aux m c p q t.val t.isLt _ rfl

/-- The compound embedding likewise: written at the first point of a lane block, carried afterwards. -/
theorem scAt_ce_aux (c : Dev nD) (p : Fin 64) (q : Fin 512) :
    ∀ (n : ℕ) (hn : n < cfg0.N) (L : Fin 1024), L.val = 512 * (n / 49) + q.val →
      (scAt m c n hn).2 (ix2 p q)
        = max (∑ i : Fin 1000, Vcw m c (ix2 p i) * Vc m c (ix2 i L) + Vcb m c (ix2 p (0 : Fin 1))) 0 := by
  intro n
  induction n using Nat.strong_induction_on with
  | _ n ih =>
    intro hn L hL
    have hN : n < 98 := lt_of_lt_of_eq hn N_0
    by_cases h0 : n % 49 = 0
    · rw [scAt_first m c ⟨n, hn⟩ h0]
      dsimp only
      rw [pay2_apply, iblk3_eq, iblk5_eq]
      have hlane : (⟨512 * (n / 49) + q.val, lane_lt ⟨n, hn⟩ q⟩ : Fin 1024) = L := Fin.ext hL.symm
      have hc : ∀ i : Fin 1000, (iblk m c 2 ⟨n, hn⟩ : S1000x512.Idx → Elt Ideal .f32) (ix2 i q) = Vc m c (ix2 i L) := by
        intro i; rw [cblk_apply m c ⟨n, hn⟩ i q, hlane]
      simp only [hc]
    · by_cases h1 : n % 49 = 48
      · rw [scAt_last m c ⟨n, hn⟩ h1]
        dsimp only
        exact ih (n - 1) (by omega) _ L (by omega)
      · rw [scAt_mid m c ⟨n, hn⟩ h0 h1]
        dsimp only
        exact ih (n - 1) (by omega) _ L (by omega)

theorem scAt_ce (c : Dev nD) (t : Fin cfg0.N) (p : Fin 64) (q : Fin 512) :
    (scAt m c t.val t.isLt).2 (ix2 p q)
      = max (∑ i : Fin 1000, Vcw m c (ix2 p i) * Vc m c (ix2 i (⟨512 * (t.val / 49) + q.val, lane_lt t q⟩ : Fin 1024)) + Vcb m c (ix2 p (0 : Fin 1))) 0 := by
  exact scAt_ce_aux m c p q t.val t.isLt _ rfl

end Cert.KernelIdeal.Mlp

end
-- ==== Proof.Spec.lean ====
import Idealize.ShloMosaic.PureOps.Ideal
import Idealize.ShloMosaic.Lib.ValueIdx

noncomputable section

open scoped BigOperators

/-! # The function both programs compute

A four-layer perceptron on 1024 rows: two embeddings relu(x·W + b) (the protein one contracting 100000 indices, the
compound one 1000), their concatenation through a 128 × 64 layer with relu, and a 64 × 1 output layer; over the
extended reals, every sum a finite sum in the commutative monoid (EReal, +). The concatenation is written as the
sum of the two halves' contributions: the first 64 rows of the joint weight meet the protein embedding, the last
64 the compound embedding. -/

namespace Cert.MlpSpec

open Idealize.ShloMosaic Idealize.ShloMosaic.ValueIdx

/-- One embedding layer at row n, feature e: relu of the row's product with column e plus the bias. -/
def emb {K : ℕ} (X : Fin 1024 → Fin K → EReal) (W : Fin K → Fin 64 → EReal) (b : Fin 64 → EReal) (n : Fin 1024) (e : Fin 64) : EReal :=
  max (∑ i : Fin K, X n i * W i e + b e) 0

/-- The joint layer at row n, feature j, over the two embeddings P and Q. -/
def hid (P Q : Fin 1024 → Fin 64 → EReal) (JW : Fin 128 → Fin 64 → EReal) (jb : Fin 64 → EReal) (n : Fin 1024) (j : Fin 64) : EReal :=
  max ((∑ e : Fin 64, P n e * JW (Fin.castAdd 64 e) j + ∑ e : Fin 64, Q n e * JW (Fin.natAdd 64 e) j) + jb j) 0

/-- The output layer at row n. -/
def out (H : Fin 1024 → Fin 64 → EReal) (OW : Fin 64 → EReal) (ob : EReal) (n : Fin 1024) : EReal :=
  ∑ j : Fin 64, H n j * OW j + ob

/-- The whole network at row n, over the ten arguments as coordinate functions. -/
def mlp (X : Fin 1024 → Fin 100000 → EReal) (C : Fin 1024 → Fin 1000 → EReal) (W : Fin 100000 → Fin 64 → EReal) (pb : Fin 64 → EReal)
    (CW : Fin 1000 → Fin 64 → EReal) (cb : Fin 64 → EReal) (JW : Fin 128 → Fin 64 → EReal) (jb : Fin 64 → EReal)
    (OW : Fin 64 → EReal) (ob : EReal) (n : Fin 1024) : EReal :=
  out (hid (emb X W pb) (emb C CW cb) JW jb) OW ob n

/-- The same over the ten argument arrays, as the result array [1024, 1]. -/
def G (x0 : (⟨2, ![1024, 100000]⟩ : Shape).Idx → Elt Ideal .f32) (x1 : (⟨2, ![1024, 1000]⟩ : Shape).Idx → Elt Ideal .f32)
    (x2 : (⟨2, ![100000, 64]⟩ : Shape).Idx → Elt Ideal .f32) (x3 : (⟨1, ![64]⟩ : Shape).Idx → Elt Ideal .f32)
    (x4 : (⟨2, ![1000, 64]⟩ : Shape).Idx → Elt Ideal .f32) (x5 : (⟨1, ![64]⟩ : Shape).Idx → Elt Ideal .f32)
    (x6 : (⟨2, ![128, 64]⟩ : Shape).Idx → Elt Ideal .f32) (x7 : (⟨1, ![64]⟩ : Shape).Idx → Elt Ideal .f32)
    (x8 : (⟨2, ![64, 1]⟩ : Shape).Idx → Elt Ideal .f32) (x9 : (⟨1, ![1]⟩ : Shape).Idx → Elt Ideal .f32) :
    (⟨2, ![1024, 1]⟩ : Shape).Idx → Elt Ideal .f32 :=
  fun i => mlp (fun n k => x0 (ix2 n k)) (fun n k => x1 (ix2 n k)) (fun k e => x2 (ix2 k e)) (fun e => x3 (ix1 e))
    (fun k e => x4 (ix2 k e)) (fun e => x5 (ix1 e)) (fun k j => x6 (ix2 k j)) (fun j => x7 (ix1 j))
    (fun j => x8 (ix2 j (0 : Fin 1))) (x9 (ix1 (0 : Fin 1))) (i 0)

end Cert.MlpSpec

end
-- ==== Proof.MlpIdeal.OutRow.lean ====
import proofs.«134165_g26456998544025_cont_9to1_950_18_alg».proof.Proof.MlpIdeal.Accum
import proofs.«134165_g26456998544025_cont_9to1_950_18_alg».proof.Proof.Spec

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! # The output row at a finished lane block

At a point with k = 48 the accumulator holds the whole contraction, so the output buffer holds, at lane q, the
network's value at row 512·b + q: the kernel's products are the specification's with the factors in the other order,
and its two 64-term sums against the halves of the joint weight are the specification's two sums. -/

/-- The output row over the blocks the body loaded: the joint layer's two 64-term sums against the halves of the
    joint weight, relu, the output layer. -/
theorem outRow_apply (acc ce : Vec Ideal S64x512 .f32) (pb : Vec Ideal S64x1 .f32) (jw : Vec Ideal S64x128 .f32)
    (jb : Vec Ideal S64x1 .f32) (ow : Vec Ideal S1x64 .f32) (ob : Vec Ideal S1x1 .f32) (q : Fin 512) :
    k0_pay4 (k0_pay7 acc pb jw) (k0_pay8 jw) ce (constant S64x512 .f32 0x00000000#32) jb ow ob (ix2 (0 : Fin 1) q)
      = ∑ j : Fin 64, ow (ix2 (0 : Fin 1) j)
          * max ((∑ e : Fin 64, jw (ix2 j (Fin.castAdd 64 e)) * max (acc (ix2 e q) + pb (ix2 e (0 : Fin 1))) 0
                  + ∑ e : Fin 64, jw (ix2 j (Fin.natAdd 64 e)) * ce (ix2 e q)) + jb (ix2 j (0 : Fin 1))) 0
        + ob (ix2 (0 : Fin 1) (0 : Fin 1)) := by
  rw [pay4_apply]
  simp only [pay7_apply, pay8_apply]

/-- One embedding with the weight written first is the specification's: each product commutes. -/
theorem emb_weight_first {K : ℕ} (X : Fin 1024 → Fin K → EReal) (W : Fin K → Fin 64 → EReal) (b : Fin 64 → EReal)
    (n : Fin 1024) (e : Fin 64) :
    max (∑ i : Fin K, W i e * X n i + b e) 0 = Cert.MlpSpec.emb X W b n e := by
  unfold Cert.MlpSpec.emb
  rw [Finset.sum_congr rfl (fun i _ => mul_comm (W i e) (X n i))]

/-- The joint layer with the weight written first is the specification's. -/
theorem hid_weight_first (P Q : Fin 1024 → Fin 64 → EReal) (JW : Fin 128 → Fin 64 → EReal) (jb : Fin 64 → EReal)
    (n : Fin 1024) (j : Fin 64) :
    max ((∑ e : Fin 64, JW (Fin.castAdd 64 e) j * P n e + ∑ e : Fin 64, JW (Fin.natAdd 64 e) j * Q n e) + jb j) 0
      = Cert.MlpSpec.hid P Q JW jb n j := by
  unfold Cert.MlpSpec.hid
  rw [Finset.sum_congr rfl (fun e _ => mul_comm (JW (Fin.castAdd 64 e) j) (P n e)),
    Finset.sum_congr rfl (fun e _ => mul_comm (JW (Fin.natAdd 64 e) j) (Q n e))]

/-- The output layer with the weight written first is the specification's. -/
theorem out_weight_first (H : Fin 1024 → Fin 64 → EReal) (OW : Fin 64 → EReal) (ob : EReal) (n : Fin 1024) :
    ∑ j : Fin 64, OW j * H n j + ob = Cert.MlpSpec.out H OW ob n := by
  unfold Cert.MlpSpec.out
  rw [Finset.sum_congr rfl (fun j _ => mul_comm (OW j) (H n j))]

/-- The output row is the network at row n, once every loaded block is read as its coordinate function: the
    accumulator as the whole protein contraction at row n, the compound scratch as the compound embedding at row n,
    the small operands as the biases and the transposed weights. -/
theorem outRow_eq_mlp (acc ce : Vec Ideal S64x512 .f32) (pb : Vec Ideal S64x1 .f32) (jw : Vec Ideal S64x128 .f32)
    (jb : Vec Ideal S64x1 .f32) (ow : Vec Ideal S1x64 .f32) (ob : Vec Ideal S1x1 .f32) (q : Fin 512)
    (X : Fin 1024 → Fin 100000 → EReal) (C : Fin 1024 → Fin 1000 → EReal) (W : Fin 100000 → Fin 64 → EReal) (pbv : Fin 64 → EReal)
    (CW : Fin 1000 → Fin 64 → EReal) (cbv : Fin 64 → EReal) (JW : Fin 128 → Fin 64 → EReal) (jbv : Fin 64 → EReal)
    (OW : Fin 64 → EReal) (obv : EReal) (n : Fin 1024)
    (hacc : ∀ e : Fin 64, acc (ix2 e q) = ∑ i : Fin 100000, W i e * X n i)
    (hce : ∀ e : Fin 64, ce (ix2 e q) = max (∑ i : Fin 1000, CW i e * C n i + cbv e) 0)
    (hpb : ∀ e : Fin 64, pb (ix2 e (0 : Fin 1)) = pbv e)
    (hjw : ∀ (j : Fin 64) (k : Fin 128), jw (ix2 j k) = JW k j)
    (hjb : ∀ j : Fin 64, jb (ix2 j (0 : Fin 1)) = jbv j)
    (how : ∀ j : Fin 64, ow (ix2 (0 : Fin 1) j) = OW j)
    (hob : ob (ix2 (0 : Fin 1) (0 : Fin 1)) = obv) :
    k0_pay4 (k0_pay7 acc pb jw) (k0_pay8 jw) ce (constant S64x512 .f32 0x00000000#32) jb ow ob (ix2 (0 : Fin 1) q)
      = Cert.MlpSpec.mlp X C W pbv CW cbv JW jbv OW obv n := by
  rw [outRow_apply]
  simp only [hacc, hce, hpb, hjw, hjb, how, hob]
  unfold Cert.MlpSpec.mlp
  rw [← out_weight_first]
  simp only [← hid_weight_first, ← emb_weight_first]

variable (m : (ℓ : Loc nD τ sig) → Buf (Elt Ideal) ℓ)

/-- The output row of lane block b at lane q is the network at row 512·b + q. -/
theorem outAt_apply (c : Dev nD) (t : Fin cfg0.N) (h : t.val % 49 = 48) (q : Fin 512) :
    outAt m c t (ix2 (0 : Fin 1) q)
      = Cert.MlpSpec.G (A0 m c) (A1 m c) (A2 m c) (A3 m c) (A4 m c) (A5 m c) (A6 m c) (A7 m c) (A8 m c) (A9 m c) (ix2 (⟨512 * (t.val / 49) + q.val, lane_lt t q⟩ : Fin 1024) (0 : Fin 1)) := by
  unfold outAt Cert.MlpSpec.G
  rw [iblk4_eq, iblk6_eq, iblk7_eq, iblk8_eq, iblk9_eq]
  refine outRow_eq_mlp _ _ _ _ _ _ _ q _ _ _ _ _ _ _ _ _ _ _ ?_ ?_ (Vpb_apply m c) (Vjw_apply m c) (Vjb_apply m c)
    (Vow_apply m c) (Vob_apply m c)
  · -- the finished accumulator: all 100000 contraction indices lie below 2048 · 49
    intro e
    rw [scAt_acc]
    refine Finset.sum_congr rfl fun i _ => ?_
    rw [if_pos (by have := i.isLt; omega), Vw_apply, Vx_apply]
  · -- the compound embedding, over the arguments
    intro e
    rw [scAt_ce, Vcb_apply]
    refine congrArg (fun z => max (z + _) 0) (Finset.sum_congr rfl fun i _ => ?_)
    rw [Vcw_apply, Vc_apply]

end Cert.KernelIdeal.Mlp

end
-- ==== Proof.MlpIdeal.Final.lean ====
import proofs.«134165_g26456998544025_cont_9to1_950_18_alg».proof.Proof.MlpIdeal.OutRow
import proofs.«134165_g26456998544025_cont_9to1_950_18_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! # The kernel's result array

The two write-backs (one per lane block, at k = 48) tile the 1 × 1024 result with the network's values, and the host's
closing transpose turns it into the 1024 × 1 array. -/

variable (m : (ℓ : Loc nD τ sig) → Buf (Elt Ideal) ℓ)

/-- The network's values laid along a row: entry (0, j) is the network at row j. -/
abbrev FinalRow (c : Dev nD) : S1x1024.Idx → Elt Ideal .f32 :=
  fun j => Cert.MlpSpec.G (A0 m c) (A1 m c) (A2 m c) (A3 m c) (A4 m c) (A5 m c) (A6 m c) (A7 m c) (A8 m c) (A9 m c) (ix2 (j 1) (0 : Fin 1))

/-- The result window's block index at point t: block row 0, block column the lane block b = t / 49. -/
theorem final10_index : ∀ t : Fin cfg0.N, win0_10.index t (0 : Fin 2) = 0 ∧ win0_10.index t (1 : Fin 2) = t.val / 49 :=
  (by decide +kernel : ∀ t : Fin grid0.N, _)

/-- The output row of a finished lane block at any index of the 1 × 512 block: the first coordinate is 0. -/
theorem final10_outAt (c : Dev nD) (t : Fin cfg0.N) (h : t.val % 49 = 48) (y : S1x512.Idx) :
    outAt m c t y
      = Cert.MlpSpec.G (A0 m c) (A1 m c) (A2 m c) (A3 m c) (A4 m c) (A5 m c) (A6 m c) (A7 m c) (A8 m c) (A9 m c) (ix2 (⟨512 * (t.val / 49) + (y 1).val, lane_lt t (y 1)⟩ : Fin 1024) (0 : Fin 1)) := by
  have hy : y = ix2 (0 : Fin 1) (y 1) := by
    funext a
    match a with
    | ⟨0, _⟩ => exact Fin.ext (by have := idx2_lt0 y; show (y 0).val = 0; omega)
    | ⟨1, _⟩ => rfl
  rw [hy]
  exact outAt_apply m c t h (y 1)

/-- What a point with k = 48 writes back is its block of the row of network values. -/
theorem final10_flushed (c : Dev nD) (t : Fin cfg0.N) (h : t.val % 49 = 48) :
    (dats m 0 c).flushed 10 t = ((cfg0.win 10).blk t).view.read (Elt Ideal) (FinalRow m c) := by
  show (cfg0.win 10).cut (grid0.coords t) ((dats m 0 c).after 10 t) = _
  rw [after0_10]
  obtain ⟨e0, e1⟩ := final10_index t
  funext y
  show outAt m c t y = FinalRow m c (((cfg0.win 10).blk t).view.emb y)
  refine (final10_outAt m c t h y).trans ?_
  have hc : (⟨512 * (t.val / 49) + (y 1).val, lane_lt t (y 1)⟩ : Fin 1024) = ((cfg0.win 10).blk t).view.emb y 1 := by
    apply Fin.ext
    show 512 * (t.val / 49) + (y 1).val = win0_10.index t (1 : Fin 2) * 512 + 1 * (y 1).val
    rw [e1]; omega
  rw [hc]

/-- An index of the result row is in point t's block iff each coordinate is in the block's range on its axis. -/
theorem final10_mem_blk (t : Fin cfg0.N) (i : S1x1024.Idx) :
    i ∈ ((cfg0.win 10).blk t).view.set ↔ ∀ a : Fin 2, win0_10.index t a * S1x512.size a ≤ (i a).val ∧ (i a).val < win0_10.index t a * S1x512.size a + S1x512.size a := by
  show i ∈ ((View.whole main_call0_v10).slice (win0_10.rect t)).set ↔ _
  rw [View.set_slice_whole, Rect.mem_set_unit]
  exact Iff.rfl

/-- Column j of the result row lies in the block written back at the last point of lane block j / 512. -/
theorem final10_cover (i : S1x1024.Idx) :
    ∃ t : Fin cfg0.N, (cfg0.win 10).flush t = true ∧ i ∈ ((cfg0.win 10).blk t).view.set := by
  have hi0 : (i 0).val < 1 := idx2_lt0 i
  have hi1 : (i 1).val < 1024 := idx2_lt1 i
  have hN : 49 * ((i 1).val / 512) + 48 < cfg0.N := by
    show 49 * ((i 1).val / 512) + 48 < 98
    omega
  refine ⟨⟨49 * ((i 1).val / 512) + 48, hN⟩, (flush0_10 _).mpr (by show (49 * ((i 1).val / 512) + 48) % 49 = 48; omega), ?_⟩
  rw [final10_mem_blk]
  obtain ⟨e0, e1⟩ := final10_index ⟨49 * ((i 1).val / 512) + 48, hN⟩
  have e1' : win0_10.index ⟨49 * ((i 1).val / 512) + 48, hN⟩ (1 : Fin 2) = (i 1).val / 512 := by
    rw [e1]; show (49 * ((i 1).val / 512) + 48) / 49 = (i 1).val / 512; omega
  intro a
  match a with
  | ⟨0, _⟩ =>
    show win0_10.index ⟨49 * ((i 1).val / 512) + 48, hN⟩ (0 : Fin 2) * 1 ≤ (i 0).val ∧ (i 0).val < win0_10.index ⟨49 * ((i 1).val / 512) + 48, hN⟩ (0 : Fin 2) * 1 + 1
    rw [e0]; omega
  | ⟨1, _⟩ =>
    show win0_10.index ⟨49 * ((i 1).val / 512) + 48, hN⟩ (1 : Fin 2) * 512 ≤ (i 1).val ∧ (i 1).val < win0_10.index ⟨49 * ((i 1).val / 512) + 48, hN⟩ (1 : Fin 2) * 512 + 512
    rw [e1']; omega

/-- The pipeline's result array after the region: the network's values laid along the row. -/
theorem final10 (c : Dev nD) :
    ((dats m 0 c).arrAt 10 cfg0.N : S1x1024.Idx → Elt Ideal .f32)
      = fun j => Cert.MlpSpec.G (A0 m c) (A1 m c) (A2 m c) (A3 m c) (A4 m c) (A5 m c) (A6 m c) (A7 m c) (A8 m c) (A9 m c) (ix2 (j 1) (0 : Fin 1)) :=
  (dats m 0 c).arrAt_eq_of_cover 10 (FinalRow m c) (fun t ht => final10_flushed m c t ((flush0_10 t).mp ht)) final10_cover

/-- What @main returns: the network's values as the [1024, 1] array. -/
theorem kernel_val (c : Dev nD) :
    (Pipeline.afterTail₀ cfgs (dats m) 0 (V0 m) [hostOps1] c main_v0 : S1024x1.Idx → Elt Ideal .f32)
      = Cert.MlpSpec.G (A0 m c) (A1 m c) (A2 m c) (A3 m c) (A4 m c) (A5 m c) (A6 m c) (A7 m c) (A8 m c) (A9 m c) := by
  unfold Pipeline.afterTail₀
  show StableHlo.after hostOps1 _ (Proc.devRef .tc main_v0) = _
  after_results
  have hrow := (Pipeline.withArrays_arr spec0 launch0.win.arr_inj c (V0 m c) (fun w => (dats m 0 c).arrAt w cfg0.N) 10).trans (final10 m c)
  show transpose S1024x1 [1, 0] (Pipeline.withArrays spec0 c (V0 m c) (fun w => (dats m 0 c).arrAt w cfg0.N) (Proc.devRef .tc (Pipeline.arrRef spec0 10))) transposes_S1x1024_S1024x1_1_0 = _
  rw [hrow]
  funext i
  obtain ⟨a, b, rfl⟩ : ∃ (a : Fin 1024) (b : Fin 1), i = ix2 a b := ⟨i 0, i 1, eq_ix2 i⟩
  rw [transpose_ix2_apply]
  obtain rfl : b = (0 : Fin 1) := Fin.ext (by have := b.isLt; show b.val = 0; omega)
  rfl

end Cert.KernelIdeal.Mlp

end
-- ==== Proof.Ref.lean ====
import proofs.«134165_g26456998544025_cont_9to1_950_18_alg».proof.Proof.Gen.ReferenceIdeal.Read
import proofs.«134165_g26456998544025_cont_9to1_950_18_alg».proof.Proof.Spec
import Mathlib.Algebra.BigOperators.Fin

noncomputable section

open scoped BigOperators

/-! # The reference computes the specification

The reference's operations read one at a time at an index: three matrix products as finite sums, the biases
broadcast along the rows, relu as the maximum with zero, and the concatenation of the two embeddings, whose product
with the 128-row joint weight splits into the sum over its first 64 rows and the sum over its last 64. -/

namespace Cert.ReferenceIdeal.RefValue

open Cert.ReferenceIdeal Cert.ReferenceIdeal.Gen Cert.ReferenceIdeal.Read Idealize.ShloMosaic Idealize.ShloMosaic.TcCoe Idealize.ShloMosaic.ValueIdx

/-! ## The concatenation at an index -/

/-- Column `e` of the joined array, for `e` among its first 64 columns, is column `e` of the first piece. -/
theorem concat_fst {α : Type} (P Q : S1024x64.Idx → α) (n : Fin 1024) (e : Fin 64) :
    concatenate S1024x128 1 [⟨S1024x64, P⟩, ⟨S1024x64, Q⟩] concatenates_S1024x64_S1024x64_S1024x128_d1 (ix2 n (Fin.castAdd 64 e))
      = P (ix2 n e) :=
  concatenate_pair_apply_left (1 : Fin S1024x128.rank) P Q concatenates_S1024x64_S1024x64_S1024x128_d1 (ix2 n (Fin.castAdd 64 e)) rfl
    (ix2 n e) (fun b => match b with | ⟨0, _⟩ => rfl | ⟨1, _⟩ => rfl)

/-- Column `64 + e` of the joined array is column `e` of the second piece. -/
theorem concat_snd {α : Type} (P Q : S1024x64.Idx → α) (n : Fin 1024) (e : Fin 64) :
    concatenate S1024x128 1 [⟨S1024x64, P⟩, ⟨S1024x64, Q⟩] concatenates_S1024x64_S1024x64_S1024x128_d1 (ix2 n (Fin.natAdd 64 e))
      = Q (ix2 n e) :=
  concatenate_pair_apply_right (1 : Fin S1024x128.rank) P Q concatenates_S1024x64_S1024x64_S1024x128_d1 (ix2 n (Fin.natAdd 64 e)) rfl rfl
    (ix2 n e) (fun b => match b with | ⟨0, _⟩ => fun _ => rfl | ⟨1, _⟩ => fun hb => absurd rfl hb)
    (by show e.val + 64 = 64 + e.val; exact Nat.add_comm _ _)

/-- A sum over 128 indices is the sum over the first 64 plus the sum over the last 64. -/
theorem sum_halves (f : Fin 128 → EReal) :
    ∑ k : Fin 128, f k = ∑ e : Fin 64, f (Fin.castAdd 64 e) + ∑ e : Fin 64, f (Fin.natAdd 64 e) :=
  Fin.sum_univ_add (a := 64) (b := 64) f

/-! ## The layers at an index -/

/-- The first embedding at row `n`, feature `e`: relu of the row's product with column `e` of the weight plus the bias. -/
theorem emb0_at (x0 : (⟨S1024x100000, .f32⟩ : BufTy).Contents (Elt Ideal)) (x2 : (⟨S100000x64, .f32⟩ : BufTy).Contents (Elt Ideal))
    (x3 : (⟨S64, .f32⟩ : BufTy).Contents (Elt Ideal)) (n : Fin 1024) (e : Fin 64) :
    val_main_v4 (F := Ideal) x0 x2 x3 (ix2 n e)
      = Cert.MlpSpec.emb (fun n k => x0 (ix2 n k)) (fun k e => x2 (ix2 k e)) (fun e => x3 (ix1 e)) n e := by
  have el : ∀ k : Fin 100000, lidx_main_v0 (ix2 n e) k = ix2 n k := fun k =>
    funext fun a => Fin.ext (by match a with | ⟨0, _⟩ => rfl | ⟨1, _⟩ => rfl)
  have er : ∀ k : Fin 100000, ridx_main_v0 (ix2 n e) k = ix2 k e := fun k =>
    funext fun a => Fin.ext (by match a with | ⟨0, _⟩ => rfl | ⟨1, _⟩ => rfl)
  have eb : idx_main_v1 (idx_main_v2 (ix2 n e)) = ix1 e :=
    funext fun a => Fin.ext (by match a with | ⟨0, _⟩ => rfl)
  rw [val_main_v4_apply, val_main_v3_apply, val_main_v0_apply, val_main_v2_apply, val_main_v1_apply, val_main_call0_v0_apply,
    val_main_call0_cst_apply]
  simp only [el, er, eb, Ideal.addf_def, Ideal.maximumf_def, Ideal.ofBits_def, Ideal.ofBits_zero_f32]
  rfl

/-- The second embedding at row `n`, feature `e`. -/
theorem emb1_at (x1 : (⟨S1024x1000, .f32⟩ : BufTy).Contents (Elt Ideal)) (x4 : (⟨S1000x64, .f32⟩ : BufTy).Contents (Elt Ideal))
    (x5 : (⟨S64, .f32⟩ : BufTy).Contents (Elt Ideal)) (n : Fin 1024) (e : Fin 64) :
    val_main_v9 (F := Ideal) x1 x4 x5 (ix2 n e)
      = Cert.MlpSpec.emb (fun n k => x1 (ix2 n k)) (fun k e => x4 (ix2 k e)) (fun e => x5 (ix1 e)) n e := by
  have el : ∀ k : Fin 1000, lidx_main_v5 (ix2 n e) k = ix2 n k := fun k =>
    funext fun a => Fin.ext (by match a with | ⟨0, _⟩ => rfl | ⟨1, _⟩ => rfl)
  have er : ∀ k : Fin 1000, ridx_main_v5 (ix2 n e) k = ix2 k e := fun k =>
    funext fun a => Fin.ext (by match a with | ⟨0, _⟩ => rfl | ⟨1, _⟩ => rfl)
  have eb : idx_main_v6 (idx_main_v7 (ix2 n e)) = ix1 e :=
    funext fun a => Fin.ext (by match a with | ⟨0, _⟩ => rfl)
  rw [val_main_v9_apply, val_main_v8_apply, val_main_v5_apply, val_main_v7_apply, val_main_v6_apply, val_main_call1_v0_apply,
    val_main_call1_cst_apply]
  simp only [el, er, eb, Ideal.addf_def, Ideal.maximumf_def, Ideal.ofBits_def, Ideal.ofBits_zero_f32]
  rfl

/-- The joint layer at row `n`, feature `j`: the product of the joined embeddings with the 128-row weight is the first
    embedding against the weight's first 64 rows plus the second against its last 64. -/
theorem hid_at (x0 : (⟨S1024x100000, .f32⟩ : BufTy).Contents (Elt Ideal)) (x1 : (⟨S1024x1000, .f32⟩ : BufTy).Contents (Elt Ideal))
    (x2 : (⟨S100000x64, .f32⟩ : BufTy).Contents (Elt Ideal)) (x3 : (⟨S64, .f32⟩ : BufTy).Contents (Elt Ideal))
    (x4 : (⟨S1000x64, .f32⟩ : BufTy).Contents (Elt Ideal)) (x5 : (⟨S64, .f32⟩ : BufTy).Contents (Elt Ideal))
    (x6 : (⟨S128x64, .f32⟩ : BufTy).Contents (Elt Ideal)) (x7 : (⟨S64, .f32⟩ : BufTy).Contents (Elt Ideal)) (n : Fin 1024) (j : Fin 64) :
    val_main_v15 (F := Ideal) x0 x1 x2 x3 x4 x5 x6 x7 (ix2 n j)
      = Cert.MlpSpec.hid
          (Cert.MlpSpec.emb (fun n k => x0 (ix2 n k)) (fun k e => x2 (ix2 k e)) (fun e => x3 (ix1 e)))
          (Cert.MlpSpec.emb (fun n k => x1 (ix2 n k)) (fun k e => x4 (ix2 k e)) (fun e => x5 (ix1 e)))
          (fun k j => x6 (ix2 k j)) (fun j => x7 (ix1 j)) n j := by
  have el : ∀ k : Fin 128, lidx_main_v11 (ix2 n j) k = ix2 n k := fun k =>
    funext fun a => Fin.ext (by match a with | ⟨0, _⟩ => rfl | ⟨1, _⟩ => rfl)
  have er : ∀ k : Fin 128, ridx_main_v11 (ix2 n j) k = ix2 k j := fun k =>
    funext fun a => Fin.ext (by match a with | ⟨0, _⟩ => rfl | ⟨1, _⟩ => rfl)
  have eb : idx_main_v12 (idx_main_v13 (ix2 n j)) = ix1 j :=
    funext fun a => Fin.ext (by match a with | ⟨0, _⟩ => rfl)
  rw [val_main_v15_apply, val_main_v14_apply, val_main_v11_apply, val_main_v13_apply, val_main_v12_apply, val_main_call2_v0_apply,
    val_main_call2_cst_apply]
  simp only [el, er, eb]
  rw [sum_halves]
  unfold val_main_v10
  simp only [concat_fst, concat_snd, emb0_at, emb1_at, Ideal.addf_def, Ideal.maximumf_def, Ideal.ofBits_def, Ideal.ofBits_zero_f32]
  rfl

theorem ref_val (x0 : (⟨S1024x100000, .f32⟩ : BufTy).Contents (Elt Ideal)) (x1 : (⟨S1024x1000, .f32⟩ : BufTy).Contents (Elt Ideal)) (x2 : (⟨S100000x64, .f32⟩ : BufTy).Contents (Elt Ideal)) (x3 : (⟨S64, .f32⟩ : BufTy).Contents (Elt Ideal)) (x4 : (⟨S1000x64, .f32⟩ : BufTy).Contents (Elt Ideal)) (x5 : (⟨S64, .f32⟩ : BufTy).Contents (Elt Ideal)) (x6 : (⟨S128x64, .f32⟩ : BufTy).Contents (Elt Ideal)) (x7 : (⟨S64, .f32⟩ : BufTy).Contents (Elt Ideal)) (x8 : (⟨S64x1, .f32⟩ : BufTy).Contents (Elt Ideal)) (x9 : (⟨S1, .f32⟩ : BufTy).Contents (Elt Ideal)) :
    val_main_v19 (F := Ideal) x0 x1 x2 x3 x4 x5 x6 x7 x8 x9 = Cert.MlpSpec.G x0 x1 x2 x3 x4 x5 x6 x7 x8 x9 := by
  funext i
  obtain ⟨n, z, rfl⟩ : ∃ (n : Fin 1024) (z : Fin 1), i = ix2 n z := ⟨i 0, i 1, eq_ix2 i⟩
  obtain rfl : z = 0 := Subsingleton.elim _ _
  have el : ∀ k : Fin 64, lidx_main_v16 (ix2 n (0 : Fin 1)) k = ix2 n k := fun k =>
    funext fun a => Fin.ext (by match a with | ⟨0, _⟩ => rfl | ⟨1, _⟩ => rfl)
  have er : ∀ k : Fin 64, ridx_main_v16 (ix2 n (0 : Fin 1)) k = ix2 k (0 : Fin 1) := fun k =>
    funext fun a => Fin.ext (by match a with | ⟨0, _⟩ => rfl | ⟨1, _⟩ => rfl)
  have eb : idx_main_v17 (idx_main_v18 (ix2 n (0 : Fin 1))) = ix1 (0 : Fin 1) :=
    funext fun a => Fin.ext (by match a with | ⟨0, _⟩ => rfl)
  rw [val_main_v19_apply, val_main_v16_apply, val_main_v18_apply, val_main_v17_apply]
  simp only [el, er, eb, hid_at, Ideal.addf_def]
  rfl

end Cert.ReferenceIdeal.RefValue

end
-- ==== Proof.lean ====
/- The five claims of this certificate.

   The kernel is one fused pallas_call on a 2 × 49 grid: for each of two blocks of 512 rows it walks the 100000-long
   contraction of the first layer in 49 steps of 2048, accumulating the 64 × 512 partial products in a scratch buffer
   (the last step holds 1696 indices; what the clipped fetch leaves past them is masked to zero on both operands), keeps
   the compound embedding in a second scratch buffer from the first step, and at the last step applies bias and relu,
   multiplies by the two halves of the joint weight, adds, applies bias and relu, and multiplies by the output weight.
   It works in transposed space; the host transposes the matrices before the call and the result row after it.

   Frames (both instances of the kernel): the body obligation of the one pipeline by cases on the step, the scratch
   buffers tracked in the region invariant, the two clipped windows handed over and back with an unnamed tail the
   results are shown not to depend on (Proof/MlpBits, Proof/MlpIdeal: Cases, Runs, Data, Tail, Body).
   Value (ideal instance): the accumulator in closed form by induction over the steps, the output row as the
   specification's value, the two write-backs tiling the result (Proof/MlpIdeal: PayAt, HostIn, Blocks, Accum, OutRow,
   Final); the reference's stages read at an index are the same specification (Proof/Ref); the specification is
   Proof/Spec. The two sides differ by the order of factors in each product and by splitting the joint layer's sum
   over 128 into two sums over 64, and the contraction's sum over 100000 into 49 blocks: all in the commutative monoids
   (EReal, +) and (EReal, ·), so the precondition is never opened. -/
import proofs.«134165_g26456998544025_cont_9to1_950_18_alg».proof.Defs
import proofs.«134165_g26456998544025_cont_9to1_950_18_alg».proof.Proof.Gen.Kernel
import proofs.«134165_g26456998544025_cont_9to1_950_18_alg».proof.Proof.Gen.Kernel.Skeleton
import proofs.«134165_g26456998544025_cont_9to1_950_18_alg».proof.Proof.Gen.Kernel.Launch
import proofs.«134165_g26456998544025_cont_9to1_950_18_alg».proof.Proof.Gen.Kernel.Points
import proofs.«134165_g26456998544025_cont_9to1_950_18_alg».proof.Proof.Gen.Kernel.Frame
import proofs.«134165_g26456998544025_cont_9to1_950_18_alg».proof.Proof.Gen.KernelIdeal
import proofs.«134165_g26456998544025_cont_9to1_950_18_alg».proof.Proof.Gen.KernelIdeal.Skeleton
import proofs.«134165_g26456998544025_cont_9to1_950_18_alg».proof.Proof.Gen.KernelIdeal.Launch
import proofs.«134165_g26456998544025_cont_9to1_950_18_alg».proof.Proof.Gen.KernelIdeal.Points
import proofs.«134165_g26456998544025_cont_9to1_950_18_alg».proof.Proof.Gen.KernelIdeal.Frame
import proofs.«134165_g26456998544025_cont_9to1_950_18_alg».proof.Proof.Gen.ReferenceIdeal
import proofs.«134165_g26456998544025_cont_9to1_950_18_alg».proof.Proof.Gen.Pre_finite_inputs
import proofs.«134165_g26456998544025_cont_9to1_950_18_alg».proof.Proof.Gen.ReferenceIdeal.Run
import proofs.«134165_g26456998544025_cont_9to1_950_18_alg».proof.Proof.Gen.ReferenceIdeal.Read
import proofs.«134165_g26456998544025_cont_9to1_950_18_alg».proof.Proof.MlpBits.Body
import proofs.«134165_g26456998544025_cont_9to1_950_18_alg».proof.Proof.MlpIdeal.Body
import proofs.«134165_g26456998544025_cont_9to1_950_18_alg».proof.Proof.MlpIdeal.Final
import proofs.«134165_g26456998544025_cont_9to1_950_18_alg».proof.Proof.Ref
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_p : Cert.frame_Kernel (hKernel := Cert.Kernel.Gen.facts) (hPre_finite_inputs := Cert.Pre_finite_inputs.Gen.facts) := fun m ρ _ =>
  Cert.Kernel.Gen.frame_of m ρ (Cert.Kernel.Mlp.dats m) (Cert.Kernel.Mlp.A_eq m) (Cert.Kernel.Mlp.run_main (F := Bits) m ρ)

/-- So does the idealized kernel. -/
theorem frame_pi : Cert.frame_KernelIdeal (hKernelIdeal := Cert.KernelIdeal.Gen.facts) (hPre_finite_inputs := Cert.Pre_finite_inputs.Gen.facts) := fun m ρ _ =>
  Cert.KernelIdeal.Gen.frame_of m ρ (Cert.KernelIdeal.Mlp.dats m) (Cert.KernelIdeal.Mlp.A_eq m) (Cert.KernelIdeal.Mlp.run_main (F := Ideal) m ρ)

/-- The reference is host operations only: its run read back, the result dropped. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- Over the extended reals both programs end with the network's values on the ten arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.MlpSpec.G (Cert.KernelIdeal.Mlp.A0 m c) (Cert.KernelIdeal.Mlp.A1 m c) (Cert.KernelIdeal.Mlp.A2 m c) (Cert.KernelIdeal.Mlp.A3 m c) (Cert.KernelIdeal.Mlp.A4 m c) (Cert.KernelIdeal.Mlp.A5 m c) (Cert.KernelIdeal.Mlp.A6 m c) (Cert.KernelIdeal.Mlp.A7 m c) (Cert.KernelIdeal.Mlp.A8 m c) (Cert.KernelIdeal.Mlp.A9 m c), ?_, ?_⟩
  · refine (θ_run Cert.KernelIdeal.defs _ _).mono (fun r h c => ?_) (Cert.KernelIdeal.Mlp.run_main (F := Ideal) m ρ)
    exact ⟨((h c).2 Cert.KernelIdeal.main_v0 (Pipeline.mem_restRefs_of Cert.KernelIdeal.main_v0 (by decide) (by decide))).trans (Cert.KernelIdeal.Mlp.kernel_val m c),
        ((h c).2 Cert.KernelIdeal.main_arg0 (Pipeline.mem_restRefs_of Cert.KernelIdeal.main_arg0 (by decide) (by decide))).trans (Cert.KernelIdeal.Gen.W_main_arg0 m (Cert.KernelIdeal.Mlp.dats m) c),
        ((h c).2 Cert.KernelIdeal.main_arg1 (Pipeline.mem_restRefs_of Cert.KernelIdeal.main_arg1 (by decide) (by decide))).trans (Cert.KernelIdeal.Gen.W_main_arg1 m (Cert.KernelIdeal.Mlp.dats m) c),
        ((h c).2 Cert.KernelIdeal.main_arg2 (Pipeline.mem_restRefs_of Cert.KernelIdeal.main_arg2 (by decide) (by decide))).trans (Cert.KernelIdeal.Gen.W_main_arg2 m (Cert.KernelIdeal.Mlp.dats m) c),
        ((h c).2 Cert.KernelIdeal.main_arg3 (Pipeline.mem_restRefs_of Cert.KernelIdeal.main_arg3 (by decide) (by decide))).trans (Cert.KernelIdeal.Gen.W_main_arg3 m (Cert.KernelIdeal.Mlp.dats m) c),
        ((h c).2 Cert.KernelIdeal.main_arg4 (Pipeline.mem_restRefs_of Cert.KernelIdeal.main_arg4 (by decide) (by decide))).trans (Cert.KernelIdeal.Gen.W_main_arg4 m (Cert.KernelIdeal.Mlp.dats m) c),
        ((h c).2 Cert.KernelIdeal.main_arg5 (Pipeline.mem_restRefs_of Cert.KernelIdeal.main_arg5 (by decide) (by decide))).trans (Cert.KernelIdeal.Gen.W_main_arg5 m (Cert.KernelIdeal.Mlp.dats m) c),
        ((h c).2 Cert.KernelIdeal.main_arg6 (Pipeline.mem_restRefs_of Cert.KernelIdeal.main_arg6 (by decide) (by decide))).trans (Cert.KernelIdeal.Gen.W_main_arg6 m (Cert.KernelIdeal.Mlp.dats m) c),
        ((h c).2 Cert.KernelIdeal.main_arg7 (Pipeline.mem_restRefs_of Cert.KernelIdeal.main_arg7 (by decide) (by decide))).trans (Cert.KernelIdeal.Gen.W_main_arg7 m (Cert.KernelIdeal.Mlp.dats m) c),
        ((h c).2 Cert.KernelIdeal.main_arg8 (Pipeline.mem_restRefs_of Cert.KernelIdeal.main_arg8 (by decide) (by decide))).trans (Cert.KernelIdeal.Gen.W_main_arg8 m (Cert.KernelIdeal.Mlp.dats m) c),
        ((h c).2 Cert.KernelIdeal.main_arg9 (Pipeline.mem_restRefs_of Cert.KernelIdeal.main_arg9 (by decide) (by decide))).trans (Cert.KernelIdeal.Gen.W_main_arg9 m (Cert.KernelIdeal.Mlp.dats m) c)⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v19_eq, Cert.ReferenceIdeal.RefValue.ref_val]
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
